-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S2x256x1024 : Shape := ⟨3, ![2, 256, 1024]⟩
abbrev S50000x1024 : Shape := ⟨2, ![50000, 1024]⟩
abbrev S2x3072x1024 : Shape := ⟨3, ![2, 3072, 1024]⟩
abbrev S2x3072 : Shape := ⟨2, ![2, 3072]⟩
abbrev S50000 : Shape := ⟨1, ![50000]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S2x3072x1024 : S_.BroadcastsInDim S2x3072x1024 (![] : Fin 0 → Fin S2x3072x1024.rank)
  reducesTo_S2x3072x1024_S_d0_1_2 : S2x3072x1024.ReducesTo [0, 1, 2] S_
  bcast_S_S2x3072 : S_.BroadcastsInDim S2x3072 (![] : Fin 0 → Fin S2x3072.rank)
  reducesTo_S2x3072_S_d0_1 : S2x3072.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg8 : FVec F S50000 .f32) (main_v33 : IVec S_ 1) : IVec S_ 1 :=
  let main_v34 : FVec F S50000 .f32 := Host.absf main_arg8
  let main_cst_12 : FVec F S_ .f32 := constant S_ .f32 0x7F800000#32
  let main_v35 : FVec F S50000 .f32 := broadcastInDim S50000 ![] bcast_S_S50000 main_cst_12
  let main_v36 : IVec S50000 1 := cmpf .olt main_v34 main_v35
  let main_c_13 : IVec S_ 1 := constantI S_ 1 1#1
  let main_v37 : IVec S_ 1 := (fun x v => Host.reduce IntOp.andi x v reducesTo_S50000_S_d0 h_S_) main_v36 main_c_13
  let main_v38 : IVec S_ 1 := andi main_v33 main_v37
  main_v38

def fn_part1 {F : FTy → Type} [FloatOps F] (main_arg5 : FVec F S2x3072 .f32) (main_arg6 : FVec F S2x3072 .f32) (main_arg7 : FVec F S50000x1024 .f32) (main_arg8 : FVec F S50000 .f32) (main_v13 : IVec S_ 1) (main_v16 : IVec S2x3072x1024 1) : IVec S_ 1 :=
  let main_c_5 : IVec S_ 1 := constantI S_ 1 1#1
  let main_v17 : IVec S_ 1 := (fun x v => Host.reduce IntOp.andi x v reducesTo_S2x3072x1024_S_d0_1_2 h_S_) main_v16 main_c_5
  let main_v18 : IVec S_ 1 := andi main_v13 main_v17
  let main_v19 : FVec F S2x3072 .f32 := Host.absf main_arg5
  let main_cst_6 : FVec F S_ .f32 := constant S_ .f32 0x7F800000#32
  let main_v20 : FVec F S2x3072 .f32 := broadcastInDim S2x3072 ![] bcast_S_S2x3072 main_cst_6
  let main_v21 : IVec S2x3072 1 := cmpf .olt main_v19 main_v20
  let main_c_7 : IVec S_ 1 := constantI S_ 1 1#1
  let main_v22 : IVec S_ 1 := (fun x v => Host.reduce IntOp.andi x v reducesTo_S2x3072_S_d0_1 h_S_) main_v21 main_c_7
  let main_v23 : IVec S_ 1 := andi main_v18 main_v22
  let main_v24 : FVec F S2x3072 .f32 := Host.absf main_arg6
  let main_cst_8 : FVec F S_ .f32 := constant S_ .f32 0x7F800000#32
  let main_v25 : FVec F S2x3072 .f32 := broadcastInDim S2x3072 ![] bcast_S_S2x3072 main_cst_8
  let main_v26 : IVec S2x3072 1 := cmpf .olt main_v24 main_v25
  let main_c_9 : IVec S_ 1 := constantI S_ 1 1#1
  let main_v27 : IVec S_ 1 := (fun x v => Host.reduce IntOp.andi x v reducesTo_S2x3072_S_d0_1 h_S_) main_v26 main_c_9
  let main_v28 : IVec S_ 1 := andi main_v23 main_v27
  let main_v29 : FVec F S50000x1024 .f32 := Host.absf main_arg7
  let main_cst_10 : FVec F S_ .f32 := constant S_ .f32 0x7F800000#32
  let main_v30 : FVec F S50000x1024 .f32 := broadcastInDim S50000x1024 ![] bcast_S_S50000x1024 main_cst_10
  let main_v31 : IVec S50000x1024 1 := cmpf .olt main_v29 main_v30
  let main_c_11 : IVec S_ 1 := constantI S_ 1 1#1
  let main_v32 : IVec S_ 1 := (fun x v => Host.reduce IntOp.andi x v reducesTo_S50000x1024_S_d0_1 h_S_) main_v31 main_c_11
  let main_v33 : IVec S_ 1 := andi main_v28 main_v32
  fn_part2 (F := F) main_arg8 main_v33

def fn {F : FTy → Type} [FloatOps F] (main_arg0 : IVec S256 32) (main_arg1 : FVec F S2x256x1024 .f32) (main_arg2 : FVec F S50000x1024 .f32) (main_arg3 : FVec F S2x3072x1024 .f32) (main_arg4 : FVec F S2x3072x1024 .f32) (main_arg5 : FVec F S2x3072 .f32) (main_arg6 : FVec F S2x3072 .f32) (main_arg7 : FVec F S50000x1024 .f32) (main_arg8 : FVec F S50000 .f32) : IVec S_ 1 :=
  let main_v0 : FVec F S2x256x1024 .f32 := Host.absf main_arg1
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S50000x1024 .f32 := Host.absf main_arg2
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S2x3072x1024 .f32 := Host.absf main_arg3
  let main_cst_2 : FVec F S_ .f32 := constant S_ .f32 0x7F800000#32
  let main_v10 : FVec F S2x3072x1024 .f32 := broadcastInDim S2x3072x1024 ![] bcast_S_S2x3072x1024 main_cst_2
  let main_v11 : IVec S2x3072x1024 1 := cmpf .olt main_v9 main_v10
  let main_c_3 : IVec S_ 1 := constantI S_ 1 1#1
  let main_v12 : IVec S_ 1 := (fun x v => Host.reduce IntOp.andi x v reducesTo_S2x3072x1024_S_d0_1_2 h_S_) main_v11 main_c_3
  let main_v13 : IVec S_ 1 := andi main_v8 main_v12
  let main_v14 : FVec F S2x3072x1024 .f32 := Host.absf main_arg4
  let main_cst_4 : FVec F S_ .f32 := constant S_ .f32 0x7F800000#32
  let main_v15 : FVec F S2x3072x1024 .f32 := broadcastInDim S2x3072x1024 ![] bcast_S_S2x3072x1024 main_cst_4
  let main_v16 : IVec S2x3072x1024 1 := cmpf .olt main_v14 main_v15
  fn_part1 (F := F) main_arg5 main_arg6 main_arg7 main_arg8 main_v13 main_v16
-- ==== Kernel.lean ====
abbrev S256 : Shape := ⟨1, ![256]⟩
abbrev S2x256x1024 : Shape := ⟨3, ![2, 256, 1024]⟩
abbrev S50000x1024 : Shape := ⟨2, ![50000, 1024]⟩
abbrev S2x3072x1024 : Shape := ⟨3, ![2, 3072, 1024]⟩
abbrev S2x3072 : Shape := ⟨2, ![2, 3072]⟩
abbrev S50000 : Shape := ⟨1, ![50000]⟩
abbrev S_ : Shape := ⟨0, ![]⟩
abbrev S256x1 : Shape := ⟨2, ![256, 1]⟩
abbrev S256x1024 : Shape := ⟨2, ![256, 1024]⟩
abbrev S128x1024 : Shape := ⟨2, ![128, 1024]⟩
abbrev S1x128x1024 : Shape := ⟨3, ![1, 128, 1024]⟩
abbrev S1x3072x1024 : Shape := ⟨3, ![1, 3072, 1024]⟩
abbrev S3072x1024 : Shape := ⟨2, ![3072, 1024]⟩
abbrev S1x3072 : Shape := ⟨2, ![1, 3072]⟩
abbrev S3072 : Shape := ⟨1, ![3072]⟩
abbrev S128x3072 : Shape := ⟨2, ![128, 3072]⟩
abbrev S1x256x1024 : Shape := ⟨3, ![1, 256, 1024]⟩
abbrev S1x50000 : Shape := ⟨2, ![1, 50000]⟩
abbrev S256x50000 : Shape := ⟨2, ![256, 50000]⟩
abbrev S2048x1024 : Shape := ⟨2, ![2048, 1024]⟩
abbrev S1x2048 : Shape := ⟨2, ![1, 2048]⟩
abbrev S256x2048 : Shape := ⟨2, ![256, 2048]⟩

abbrev nBuf : Space → Nat
  | .hbm => 25
  | .vmem => 20
  | .smem => 0
  | _ => 0

abbrev bufTy : (tb : Table) → Fin (tcTables nBuf tb) → BufTy
  | .hbm, ⟨0, _⟩ => ⟨S256, .i32⟩
  | .hbm, ⟨1, _⟩ => ⟨S2x256x1024, .f32⟩
  | .hbm, ⟨2, _⟩ => ⟨S50000x1024, .f32⟩
  | .hbm, ⟨3, _⟩ => ⟨S2x3072x1024, .f32⟩
  | .hbm, ⟨4, _⟩ => ⟨S2x3072x1024, .f32⟩
  | .hbm, ⟨5, _⟩ => ⟨S2x3072, .f32⟩
  | .hbm, ⟨6, _⟩ => ⟨S2x3072, .f32⟩
  | .hbm, ⟨7, _⟩ => ⟨S50000x1024, .f32⟩
  | .hbm, ⟨8, _⟩ => ⟨S50000, .f32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S256x1024, .f32⟩
  | .hbm, ⟨18, _⟩ => ⟨S2x3072x1024, .bf16⟩
  | .hbm, ⟨19, _⟩ => ⟨S2x3072x1024, .bf16⟩
  | .hbm, ⟨20, _⟩ => ⟨S2x256x1024, .f32⟩
  | .hbm, ⟨21, _⟩ => ⟨S1x256x1024, .f32⟩
  | .hbm, ⟨22, _⟩ => ⟨S256x1024, .f32⟩
  | .hbm, ⟨23, _⟩ => ⟨S1x50000, .f32⟩
  | .hbm, ⟨24, _⟩ => ⟨S256x50000, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x3072x1024, .bf16⟩
  | .local _ .vmem, ⟨5, _⟩ => ⟨S1x3072x1024, .bf16⟩
  | .local _ .vmem, ⟨6, _⟩ => ⟨S1x3072x1024, .bf16⟩
  | .local _ .vmem, ⟨7, _⟩ => ⟨S1x3072x1024, .bf16⟩
  | .local _ .vmem, ⟨8, _⟩ => ⟨S2x3072, .f32⟩
  | .local _ .vmem, ⟨9, _⟩ => ⟨S2x3072, .f32⟩
  | .local _ .vmem, ⟨10, _⟩ => ⟨S1x128x1024, .f32⟩
  | .local _ .vmem, ⟨11, _⟩ => ⟨S1x128x1024, .f32⟩
  | .local _ .vmem, ⟨12, _⟩ => ⟨S128x1024, .f32⟩
  | .local _ .vmem, ⟨13, _⟩ => ⟨S256x1024, .f32⟩
  | .local _ .vmem, ⟨14, _⟩ => ⟨S2048x1024, .f32⟩
  | .local _ .vmem, ⟨15, _⟩ => ⟨S2048x1024, .f32⟩
  | .local _ .vmem, ⟨16, _⟩ => ⟨S1x2048, .f32⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![2, 2], ![false, false]⟩

def k0_off1 (i : grid0.Coords) : Fin 2 → Nat :=
  let arg1 : BitVec 32 := BitVec.ofNat 32 (i 1).val
  let v10 : Index := Scalar.indexCast arg1
  let c0_11 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3072x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x3072x1024_S1x3072x1024_0_0_0 : ∀ a, (![0, 0, 0] : Fin 3 → Nat) a + S1x3072x1024.size a ≤ S1x3072x1024.size a
  h_S1x3072x1024 : 0 < S1x3072x1024.numel
  shapeCasts_S1x3072x1024_S3072x1024 : S1x3072x1024.ShapeCasts S3072x1024
  h_S1x3072 : 0 < S1x3072.numel
  shapeCasts_S1x3072_S3072 : S1x3072.ShapeCasts S3072
  shapeCasts_S3072_S1x3072 : S3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  shapeCasts_S128x1024_S1x128x1024 : S128x1024.ShapeCasts S1x128x1024
  slices_S2x256x1024_S1x256x1024_1_0_0 : S2x256x1024.Slices ![1, 0, 0] S1x256x1024
  shapeCasts_S1x256x1024_S256x1024 : S1x256x1024.ShapeCasts S256x1024
  shapeCasts_S50000_S1x50000 : S50000.ShapeCasts S1x50000
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  gather_S50000x1024_S256x1_S256x1024_1_0_n_n_0_1_11024_wf : GatherDims.WF S50000x1024 S256x1 S256x1024 [1] [0] [] [0] [] 1 ![1, 1024]
  dot_S128x1024_S3072x1024_S128x3072_1_1_0_0_n_n_wf : DotDims.WF S128x1024 S3072x1024 S128x3072 [1] [1] [0] [0] [] []
  dot_S256x1024_S2048x1024_S256x2048_1_1_0_0_n_n_wf : DotDims.WF S256x1024 S2048x1024 S256x2048 [1] [1] [0] [0] [] []
  hrank0 : 0 < grid0.rank
  k0_off1_inb : ∀ i : grid0.Coords, ∀ a, (k0_off1 i) a + S1x3072.size a ≤ S2x3072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S2x256x1024.size a
  hwx0_1 : ∀ i : grid0.Coords, EltTy.bits .f32 = 32 ∨ (Rect.block (s := S2x256x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3072x1024.size a ≤ S2x3072x1024.size a
  hwx0_2 : ∀ i : grid0.Coords, EltTy.bits .bf16 = 32 ∨ (Rect.block (s := S2x3072x1024) S1x3072x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3072x1024.size a ≤ S2x3072x1024.size a
  hwx0_3 : ∀ i : grid0.Coords, EltTy.bits .bf16 = 32 ∨ (Rect.block (s := S2x3072x1024) S1x3072x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x3072.size a ≤ S2x3072.size a
  hwx0_4 : ∀ i : grid0.Coords, EltTy.bits .f32 = 32 ∨ (Rect.block (s := S2x3072) S2x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x3072.size a ≤ S2x3072.size a
  hwx0_5 : ∀ i : grid0.Coords, EltTy.bits .f32 = 32 ∨ (Rect.block (s := S2x3072) S2x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1024.size a ≤ S2x256x1024.size a
  hwx0_6 : ∀ i : grid0.Coords, EltTy.bits .f32 = 32 ∨ (Rect.block (s := S2x256x1024) S1x128x1024.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1024.size a < S50000x1024.size a
  hwx1_1 : ∀ i : grid1.Coords, EltTy.bits .f32 = 32 ∨ (Rect.unit (s := S50000x1024) (fun a => cc1_transform_1 i a * S2048x1024.size a) (fun a => (Pipeline.Clip.of (cc1_transform_1 i a) (S2048x1024.size a) (S50000x1024.size a)).extent (S2048x1024.size a)) fun a => Pipeline.Clip.inb (Pipeline.Clip.ok_of (hstart1_1 i a))).WholeWords (EltTy.packing .f32)
  hwxs1_1 : ∀ i : grid1.Coords, EltTy.bits .f32 = 32 ∨ (Rect.unit (s := S2048x1024) (fun _ => 0) (fun a => (Pipeline.Clip.of (cc1_transform_1 i a) (S2048x1024.size a) (S50000x1024.size a)).extent (S2048x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x2048.size a < S1x50000.size a
  hwx1_2 : ∀ i : grid1.Coords, EltTy.bits .f32 = 32 ∨ (Rect.unit (s := S1x50000) (fun a => cc1_transform_2 i a * S1x2048.size a) (fun a => (Pipeline.Clip.of (cc1_transform_2 i a) (S1x2048.size a) (S1x50000.size a)).extent (S1x2048.size a)) fun a => Pipeline.Clip.inb (Pipeline.Clip.ok_of (hstart1_2 i a))).WholeWords (EltTy.packing .f32)
  hwxs1_2 : ∀ i : grid1.Coords, EltTy.bits .f32 = 32 ∨ (Rect.unit (s := S1x2048) (fun _ => 0) (fun a => (Pipeline.Clip.of (cc1_transform_2 i a) (S1x2048.size a) (S1x50000.size a)).extent (S1x2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S256x2048.size a < S256x50000.size a
  hwx1_3 : ∀ i : grid1.Coords, EltTy.bits .f32 = 32 ∨ (Rect.unit (s := S256x50000) (fun a => cc1_transform_3 i a * S256x2048.size a) (fun a => (Pipeline.Clip.of (cc1_transform_3 i a) (S256x2048.size a) (S256x50000.size a)).extent (S256x2048.size a)) fun a => Pipeline.Clip.inb (Pipeline.Clip.ok_of (hstart1_3 i a))).WholeWords (EltTy.packing .f32)
  hwxs1_3 : ∀ i : grid1.Coords, EltTy.bits .f32 = 32 ∨ (Rect.unit (s := S256x2048) (fun _ => 0) (fun a => (Pipeline.Clip.of (cc1_transform_3 i a) (S256x2048.size a) (S256x50000.size a)).extent (S256x2048.size a)) fun a => (Nat.zero_add _).trans_le (Pipeline.Clip.extent_le (Pipeline.Clip.ok_of (hstart1_3 i a)))).WholeWords (EltTy.packing .f32)

variable [Facts₀]

def gather_S50000x1024_S256x1_S256x1024_1_0_n_n_0_1_11024 : GatherDims S50000x1024 S256x1 S256x1024 where
  offsetDims := [1]
  collapsedSliceDims := [0]
  operandBatchingDims := []
  startIndicesBatchingDims := []
  startIndexMap := [0]
  indexVectorDim := 1
  sliceSizes := ![1, 1024]
  wf := gather_S50000x1024_S256x1_S256x1024_1_0_n_n_0_1_11024_wf
def dot_S128x1024_S3072x1024_S128x3072_1_1_0_0_n_n : DotDims S128x1024 S3072x1024 S128x3072 where
  lhsContracting := [1]
  rhsContracting := [1]
  lhsNonContracting := [0]
  rhsNonContracting := [0]
  lhsBatch := []
  rhsBatch := []
  wf := dot_S128x1024_S3072x1024_S128x3072_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v6) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x3072x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S2x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S256x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg7) S2048x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v12) S1x2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v13) S256x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256 : Shape := ⟨1, ![256]⟩
abbrev S2x256x1024 : Shape := ⟨3, ![2, 256, 1024]⟩
abbrev S50000x1024 : Shape := ⟨2, ![50000, 1024]⟩
abbrev S2x3072x1024 : Shape := ⟨3, ![2, 3072, 1024]⟩
abbrev S2x3072 : Shape := ⟨2, ![2, 3072]⟩
abbrev S50000 : Shape := ⟨1, ![50000]⟩
abbrev S_ : Shape := ⟨0, ![]⟩
abbrev S256x1 : Shape := ⟨2, ![256, 1]⟩
abbrev S256x1024 : Shape := ⟨2, ![256, 1024]⟩
abbrev S1x256x1024 : Shape := ⟨3, ![1, 256, 1024]⟩
abbrev S1x3072x1024 : Shape := ⟨3, ![1, 3072, 1024]⟩
abbrev S3072x1024 : Shape := ⟨2, ![3072, 1024]⟩
abbrev S1x3072 : Shape := ⟨2, ![1, 3072]⟩
abbrev S3072 : Shape := ⟨1, ![3072]⟩
abbrev S1024x3072 : Shape := ⟨2, ![1024, 3072]⟩
abbrev S256x3072 : Shape := ⟨2, ![256, 3072]⟩
abbrev S1024x50000 : Shape := ⟨2, ![1024, 50000]⟩
abbrev S256x50000 : Shape := ⟨2, ![256, 50000]⟩
abbrev S1x50000 : Shape := ⟨2, ![1, 50000]⟩

abbrev nBuf : Space → Nat
  | .hbm => 132
  | .vmem => 0
  | .smem => 0
  | _ => 0

abbrev hbmTy0_0 (i : Nat) : BufTy := match i % 128 with
  | 0 => ⟨S256, .i32⟩
  | 1 => ⟨S2x256x1024, .f32⟩
  | 2 => ⟨S50000x1024, .f32⟩
  | 3 => ⟨S2x3072x1024, .f32⟩
  | 4 => ⟨S2x3072x1024, .f32⟩
  | 5 => ⟨S2x3072, .f32⟩
  | 6 => ⟨S2x3072, .f32⟩
  | 7 => ⟨S50000x1024, .f32⟩
  | 8 => ⟨S50000, .f32⟩
  | 9 => ⟨S_, .i32⟩
  | 10 => ⟨S256, .i32⟩
  | 11 => ⟨S256, .i1⟩
  | 12 => ⟨S_, .i32⟩
  | 13 => ⟨S256, .i32⟩
  | 14 => ⟨S256, .i32⟩
  | 15 => ⟨S256, .i32⟩
  | 16 => ⟨S256x1, .i32⟩
  | 17 => ⟨S256x1024, .f32⟩
  | 18 => ⟨S1x256x1024, .f32⟩
  | 19 => ⟨S256x1024, .f32⟩
  | 20 => ⟨S1x3072x1024, .f32⟩
  | 21 => ⟨S3072x1024, .f32⟩
  | 22 => ⟨S1x3072x1024, .f32⟩
  | 23 => ⟨S3072x1024, .f32⟩
  | 24 => ⟨S1x3072, .f32⟩
  | 25 => ⟨S3072, .f32⟩
  | 26 => ⟨S1x3072, .f32⟩
  | 27 => ⟨S3072, .f32⟩
  | 28 => ⟨S1024x3072, .f32⟩
  | 29 => ⟨S256x3072, .f32⟩
  | 30 => ⟨S1x3072, .f32⟩
  | 31 => ⟨S256x3072, .f32⟩
  | 32 => ⟨S256x3072, .f32⟩
  | 33 => ⟨S1024x3072, .f32⟩
  | 34 => ⟨S256x3072, .f32⟩
  | 35 => ⟨S1x3072, .f32⟩
  | 36 => ⟨S256x3072, .f32⟩
  | 37 => ⟨S256x3072, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S_, .f32⟩
  | 60 => ⟨S256x1024, .f32⟩
  | 61 => ⟨S256x1024, .f32⟩
  | 62 => ⟨S256x1024, .f32⟩
  | 63 => ⟨S256x1024, .f32⟩
  | 64 => ⟨S256x1024, .f32⟩
  | 65 => ⟨S_, .f32⟩
  | 66 => ⟨S256x1024, .f32⟩
  | 67 => ⟨S256x1024, .f32⟩
  | 68 => ⟨S256x1024, .f32⟩
  | 69 => ⟨S256x1024, .f32⟩
  | 70 => ⟨S256x1024, .f32⟩
  | 71 => ⟨S1x256x1024, .f32⟩
  | 72 => ⟨S256x1024, .f32⟩
  | 73 => ⟨S1x3072x1024, .f32⟩
  | 74 => ⟨S3072x1024, .f32⟩
  | 75 => ⟨S1x3072x1024, .f32⟩
  | 76 => ⟨S3072x1024, .f32⟩
  | 77 => ⟨S1x3072, .f32⟩
  | 78 => ⟨S3072, .f32⟩
  | 79 => ⟨S1x3072, .f32⟩
  | 80 => ⟨S3072, .f32⟩
  | 81 => ⟨S1024x3072, .f32⟩
  | 82 => ⟨S256x3072, .f32⟩
  | 83 => ⟨S1x3072, .f32⟩
  | 84 => ⟨S256x3072, .f32⟩
  | 85 => ⟨S256x3072, .f32⟩
  | 86 => ⟨S1024x3072, .f32⟩
  | 87 => ⟨S256x3072, .f32⟩
  | 88 => ⟨S1x3072, .f32⟩
  | 89 => ⟨S256x3072, .f32⟩
  | 90 => ⟨S256x3072, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S256x1024, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S256x1024, .f32⟩
  | 107 => ⟨S256x1024, .f32⟩
  | 108 => ⟨S256x1024, .f32⟩
  | 109 => ⟨S_, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S256x1024, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S256x1024, .f32⟩
  | 122 => ⟨S256x1024, .f32⟩
  | 123 => ⟨S256x1024, .f32⟩
  | 124 => ⟨S1x256x1024, .f32⟩
  | 125 => ⟨S1x256x1024, .f32⟩
  | 126 => ⟨S2x256x1024, .f32⟩
  | 127 => ⟨S1024x50000, .f32⟩
  | _ => ⟨S256, .i32⟩

abbrev hbmTy0_1 (i : Nat) : BufTy := match i % 128 with
  | 0 => ⟨S256x50000, .f32⟩
  | 1 => ⟨S1x50000, .f32⟩
  | 2 => ⟨S256x50000, .f32⟩
  | 3 => ⟨S256x50000, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_5 : Ref sig .tc := ⟨.hbm, 100, rfl⟩
abbrev main_v84 : Ref sig .tc := ⟨.hbm, 101, rfl⟩
abbrev main_v85 : Ref sig .tc := ⟨.hbm, 102, rfl⟩
abbrev main_cst_6 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_7 : Ref sig .tc := ⟨.hbm, 109, rfl⟩
abbrev main_v91 : Ref sig .tc := ⟨.hbm, 110, rfl⟩
abbrev main_v92 : Ref sig .tc := ⟨.hbm, 111, rfl⟩
abbrev main_cst_8 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_9 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  slices_S2x256x1024_S1x256x1024_0_0_0 : S2x256x1024.Slices ![0, 0, 0] S1x256x1024
  shapeCasts_S1x256x1024_S256x1024 : S1x256x1024.ShapeCasts S256x1024
  slices_S2x3072x1024_S1x3072x1024_0_0_0 : S2x3072x1024.Slices ![0, 0, 0] S1x3072x1024
  shapeCasts_S1x3072x1024_S3072x1024 : S1x3072x1024.ShapeCasts S3072x1024
  slices_S2x3072_S1x3072_0_0 : S2x3072.Slices ![0, 0] S1x3072
  shapeCasts_S1x3072_S3072 : S1x3072.ShapeCasts S3072
  transposes_S3072x1024_S1024x3072_1_0 : S3072x1024.Transposes [1, 0] S1024x3072
  bcast_S3072_S1x3072_1 : S3072.BroadcastsInDim S1x3072 (![1] : Fin 1 → Fin S1x3072.rank)
  bcast_S1x3072_S256x3072_0_1 : S1x3072.BroadcastsInDim S256x3072 (![0, 1] : Fin 2 → Fin S256x3072.rank)
  slices_S256x3072_S256x1024_0_0 : S256x3072.Slices ![0, 0] S256x1024
  slices_S256x3072_S256x1024_0_1024 : S256x3072.Slices ![0, 1024] S256x1024
  slices_S256x3072_S256x1024_0_2048 : S256x3072.Slices ![0, 2048] S256x1024
  bcast_S_S256x1024 : S_.BroadcastsInDim S256x1024 (![] : Fin 0 → Fin S256x1024.rank)
  slices_S2x256x1024_S1x256x1024_1_0_0 : S2x256x1024.Slices ![1, 0, 0] S1x256x1024
  slices_S2x3072x1024_S1x3072x1024_1_0_0 : S2x3072x1024.Slices ![1, 0, 0] S1x3072x1024
  slices_S2x3072_S1x3072_1_0 : S2x3072.Slices ![1, 0] S1x3072
  bcast_S256x1024_S1x256x1024_1_2 : S256x1024.BroadcastsInDim S1x256x1024 (![1, 2] : Fin 2 → Fin S1x256x1024.rank)
  concatenates_S1x256x1024_S1x256x1024_S2x256x1024_d0 : Shape.Concatenates [S1x256x1024, S1x256x1024] S2x256x1024 0
  transposes_S50000x1024_S1024x50000_1_0 : S50000x1024.Transposes [1, 0] S1024x50000
  bcast_S50000_S1x50000_1 : S50000.BroadcastsInDim S1x50000 (![1] : Fin 1 → Fin S1x50000.rank)
  bcast_S1x50000_S256x50000_0_1 : S1x50000.BroadcastsInDim S256x50000 (![0, 1] : Fin 2 → Fin S256x50000.rank)
  gather_S50000x1024_S256x1_S256x1024_1_0_n_n_0_1_11024_wf : GatherDims.WF S50000x1024 S256x1 S256x1024 [1] [0] [] [0] [] 1 ![1, 1024]
  dot_S256x1024_S1024x3072_S256x3072_1_0_0_1_n_n_wf : DotDims.WF S256x1024 S1024x3072 S256x3072 [1] [0] [0] [1] [] []
  dot_S256x1024_S1024x50000_S256x50000_1_0_0_1_n_n_wf : DotDims.WF S256x1024 S1024x50000 S256x50000 [1] [0] [0] [1] [] []

variable [Facts₀]

def gather_S50000x1024_S256x1_S256x1024_1_0_n_n_0_1_11024 : GatherDims S50000x1024 S256x1 S256x1024 where
  offsetDims := [1]
  collapsedSliceDims := [0]
  operandBatchingDims := []
  startIndicesBatchingDims := []
  startIndexMap := [0]
  indexVectorDim := 1
  sliceSizes := ![1, 1024]
  wf := gather_S50000x1024_S256x1_S256x1024_1_0_n_n_0_1_11024_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x50000_S256x50000_1_0_0_1_n_n : DotDims S256x1024 S1024x50000 S256x50000 where
  lhsContracting := [1]
  rhsContracting := [0]
  lhsNonContracting := [0]
  rhsNonContracting := [1]
  lhsBatch := []
  rhsBatch := []
  wf := dot_S256x1024_S1024x50000_S256x50000_1_0_0_1_n_n_wf

class Facts : Prop extends Facts₀ where

variable [Facts]
-- ==== Proof.KFrame.lean ====
/-
  The frame of the word-level program: every weakly fair execution of @main terminates, nothing faults, and the nine
  argument arrays end as they were launched. Nothing is said of the two results' contents.

  @main is a stretch of host operations, the recurrent region (a 2 × 2 grid; the body carries a scratch buffer from
  point to point and branches on the layer coordinate), a second host stretch, and the decoder region (25 column
  tiles, the last cut at the arrays' end). The proof data are RELATIONAL and constrain nothing: of what a body leaves
  in a staging buffer only ownership is kept ("this buffer, at some contents"), which is all the next point's body needs;
  the region invariant is the same at every point — the scoped buffers no window stages (the carried scratch among
  them) at some contents, the generator register at some state.

  Between two items a core holds every unscoped buffer whole at SOME valuation, known to agree with the contents after
  the first host stretch off a short list of references (the regions' output arrays and what the second stretch
  writes); no argument array is on that list, so the last valuation read against the final memory gives each argument
  as launched.

  One point needs care. The decoder region reads an array computed from the recurrent region's output, whose contents
  relational data cannot name, while a region's proof data state its arrays' entry contents. So the decoder region is
  entered inside a segment of its own: there the valuation the core holds is first taken in hand (an existential
  opened), the region's data are stated AT that valuation, and the region's step is run from its staging cells' ghost
  state. That ghost state cannot be the one the launch threads through its own list of regions, so the resource
  algebra carries the rounds algebra twice: the first copy serves the recurrent region through the launch theorem, the
  second is dealt at launch to the thread state and spent at the decoder region's entry.
-/
import proofs.«415660_j37589553774958_3_alg».proof.Proof.Gen.Kernel.Launch
import proofs.«415660_j37589553774958_3_alg».proof.Proof.Gen.Kernel.Skeleton
import proofs.«415660_j37589553774958_3_alg».proof.Proof.Gen.Kernel.Points
import proofs.«415660_j37589553774958_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrameR

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

/-- The user algebra: two copies of the rounds algebra side by side. -/
abbrev UU : Type := UR sig nD τ × UR sig nD τ

local notation "𝕄" => MT nD τ sig Unit (Elt F) ℕ UU ℕ

set_option maxHeartbeats 1000000 in
/-- The decoder body on whole memrefs, each owned at some contents: it runs (three loads of its inputs, a load and a
    store of its output) and hands every memref back owned at some contents. -/
theorem sound_kernel1 (c : Dev nD) (E : Set ℕ) (i : grid1.Coords)
    (arg1 : Memref sig .tc .vmem S256x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S256x2048 .f32) (harg4 : arg4.IsWhole)
    (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)) -∗ K ⟨⟩))
      ⊢ wp frame (wpE (defs₀ (F := F)) Variants.none c none) E (cc1__decoder_kernel i arg1 harg1 arg2 harg2 arg3 harg3 arg4 harg4) K := by
  simp only [cc1__decoder_kernel_eq_skeleton]; unfold cc1__decoder_kernel_skel
  unfold owns
  iintro ⟨⟨%d1, %f1, -, H1⟩, ⟨%d2, %f2, -, H2⟩, ⟨%d3, %f3, -, H3⟩, ⟨%d4, %f4, -, H4⟩, Hk⟩
  sl_exec
  sl_step
  iapply Hk
  isplitl [H1]
  · iexists _; iexists f1; isplitr; · ipureintro; rfl
    iexact H1
  isplitl [H2]
  · iexists _; iexists f2; isplitr; · ipureintro; rfl
    iexact H2
  isplitl [H3]
  · iexists _; iexists f3; isplitr; · ipureintro; rfl
    iexact H3
  iexists _; iexists _; isplitr
  swap; · iexact H4
  ipureintro; rfl

set_option maxHeartbeats 2000000 in
/-- The recurrent body on whole memrefs, each owned at some contents, the carried scratch among them: in either case of
    its branch on the layer coordinate it runs and hands every memref back owned at some contents. -/
theorem sound_kernel0 (c : Dev nD) (E : Set ℕ) (i : grid0.Coords)
    (arg2 : Memref sig .tc .vmem S128x1024 .f32) (harg2 : arg2.IsWhole) (arg3 : Memref sig .tc .vmem S1x128x1024 .f32) (harg3 : arg3.IsWhole)
    (arg4 : Memref sig .tc .vmem S1x3072x1024 .bf16) (harg4 : arg4.IsWhole) (arg5 : Memref sig .tc .vmem S1x3072x1024 .bf16) (harg5 : arg5.IsWhole)
    (arg6 : Memref sig .tc .vmem S2x3072 .f32) (harg6 : arg6.IsWhole) (arg7 : Memref sig .tc .vmem S2x3072 .f32) (harg7 : arg7.IsWhole)
    (arg8 : Memref sig .tc .vmem S1x128x1024 .f32) (harg8 : arg8.IsWhole) (arg9 : Memref sig .tc .vmem S128x1024 .f32) (harg9 : arg9.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  by_cases hc : (Scalar.cmpi .ne (Scalar.extui (Scalar.cmpi .eq (BitVec.ofNat 32 (i 1).val) 0#32)) 0#32) = 1#1
  · sl_exec (disch := exact hc)
    sl_step
    iapply Hk
    isplitl [H2]
    · iexists _; iexists f2; isplitr; · ipureintro; rfl
      iexact H2
    isplitl [H3]
    · iexists _; iexists f3; isplitr; · ipureintro; rfl
      iexact H3
    isplitl [H4]
    · iexists _; iexists f4; isplitr; · ipureintro; rfl
      iexact H4
    isplitl [H5]
    · iexists _; iexists f5; isplitr; · ipureintro; rfl
      iexact H5
    isplitl [H6]
    · iexists _; iexists f6; isplitr; · ipureintro; rfl
      iexact H6
    isplitl [H7]
    · iexists _; iexists f7; isplitr; · ipureintro; rfl
      iexact H7
    isplitl [H8]
    · iexists _; iexists _; isplitr
      swap; · iexact H8
      ipureintro; rfl
    iexists _; iexists _; isplitr
    swap; · iexact H9
    ipureintro; rfl
  · sl_exec (disch := exact hc)
    sl_step
    iapply Hk
    isplitl [H2]
    · iexists _; iexists f2; isplitr; · ipureintro; rfl
      iexact H2
    isplitl [H3]
    · iexists _; iexists f3; isplitr; · ipureintro; rfl
      iexact H3
    isplitl [H4]
    · iexists _; iexists f4; isplitr; · ipureintro; rfl
      iexact H4
    isplitl [H5]
    · iexists _; iexists f5; isplitr; · ipureintro; rfl
      iexact H5
    isplitl [H6]
    · iexists _; iexists f6; isplitr; · ipureintro; rfl
      iexact H6
    isplitl [H7]
    · iexists _; iexists f7; isplitr; · ipureintro; rfl
      iexact H7
    isplitl [H8]
    · iexists _; iexists _; isplitr
      swap; · iexact H8
      ipureintro; rfl
    iexists _; iexists _; isplitr
    swap; · iexact H9
    ipureintro; rfl

/-! ## The relational proof data: nothing is said of what a body leaves in any staging buffer -/

section Data

-- the TensorCore's buffer contents when a region is entered
variable (V : (c : Dev nD) → (b : Ref sig .tc) → Buf (Elt F) ((c : Thread nD τ).loc b))

/-- Pipeline 0 on core `c`: the arrays as the region finds them; any contents may be left in any staging buffer; the
    invariant is the scoped rest (the carried scratch among it) at some contents and the generator register. -/
def rdat0 (c : Dev nD) : RDat τ (Elt F) Unit ℕ UU ℕ cfg0 c where
  A w := V c (Pipeline.arrRef spec0 w)
  after _ _ _ _ := True
  Φ _ := Pipeline.ΦA spec0 c
  q _ := fullShare
  owed _ := 0

/-- Pipeline 1 on core `c`, likewise. -/
def rdat1 (c : Dev nD) : RDat τ (Elt F) Unit ℕ UU ℕ cfg1 c where
  A w := V c (Pipeline.arrRef spec1 w)
  after _ _ _ _ := True
  Φ _ := Pipeline.ΦA spec1 c
  q _ := fullShare
  owed _ := 0

set_option maxHeartbeats 1000000 in
/-- The recurrent body at any point, the windows one by one: the scratch comes out of the invariant and goes back into it. -/
theorem sound_body0 (c : Dev nD) (t : Fin cfg0.N) (Y : (w : Fin cfg0.W) → (cfg0.win w).block.Idx → Elt F (cfg0.win w).elt) :
    iprop((rdat0 V c).Φ t.castSucc ∗ (rdat0 V c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6))
      ⊢ wp frame (wpE (defs₀ (F := F)) Variants.none c none) Set.univ (bodyAt0 t) (fun _ =>
          iprop((rdat0 V c).Φ t.succ ∗ (rdat0 V c).owesAt () t.succ
            ∗ (∃ X, ⌜(rdat0 V c).after 0 t (Y 0) X⌝ ∗ owns (c : Thread nD τ) (st0_0 t) fullShare X)
            ∗ (∃ X, ⌜(rdat0 V c).after 1 t (Y 1) X⌝ ∗ owns (c : Thread nD τ) (st0_1 t) fullShare X)
            ∗ (∃ X, ⌜(rdat0 V c).after 2 t (Y 2) X⌝ ∗ owns (c : Thread nD τ) (st0_2 t) fullShare X)
            ∗ (∃ X, ⌜(rdat0 V c).after 3 t (Y 3) X⌝ ∗ owns (c : Thread nD τ) (st0_3 t) fullShare X)
            ∗ (∃ X, ⌜(rdat0 V c).after 4 t (Y 4) X⌝ ∗ owns (c : Thread nD τ) (st0_4 t) fullShare X)
            ∗ (∃ X, ⌜(rdat0 V c).after 5 t (Y 5) X⌝ ∗ owns (c : Thread nD τ) (st0_5 t) fullShare X)
            ∗ (∃ X, ⌜(rdat0 V c).after 6 t (Y 6) X⌝ ∗ owns (c : Thread nD τ) (st0_6 t) fullShare X))) := by
  unfold bodyAt0
  rw [show (rdat0 V c).Φ t.succ = Pipeline.ΦA spec0 c from rfl, show (rdat0 V c).Φ t.castSucc = Pipeline.ΦA spec0 c from rfl,
    show (rdat0 V c).owesAt () t.succ = (rdat0 V c).owesAt () t.castSucc from rfl]
  unfold Pipeline.ΦA; rw [scopedRest0_eq]
  have hs_in : ∀ f, (((c : Thread nD τ).loc cc0_scratch0) ↦{fullShare} f : sProp 𝕄) ⊢ owns (c : Thread nD τ) (Memref.whole cc0_scratch0) fullShare f :=
    fun f => Entails.of_eq (owns_whole (c : Thread nD τ) cc0_scratch0 fullShare f).symm
  have hs_out : ∀ f, (owns (c : Thread nD τ) (Memref.whole cc0_scratch0) fullShare f : sProp 𝕄) ⊢ (((c : Thread nD τ).loc cc0_scratch0) ↦{fullShare} f) :=
    fun f => Entails.of_eq (owns_whole (c : Thread nD τ) cc0_scratch0 fullShare f)
  iintro ⟨⟨⟨⟨%fs, Hs⟩, Hrest⟩, Hg⟩, Ho, H0, H1, H2, H3, H4, H5, H6⟩
  iapply (sound_kernel0 c Set.univ (grid0.coords t) _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [Hs]; · iexists fs; iapply (hs_in fs); iexact Hs
  iintro ⟨⟨%x0, H0⟩, ⟨%x1, H1⟩, ⟨%x2, H2⟩, ⟨%x3, H3⟩, ⟨%x4, H4⟩, ⟨%x5, H5⟩, ⟨%x6, H6⟩, ⟨%xs, Hs⟩⟩
  isplitl [Hs Hrest Hg]
  · isplitr [Hg]
    · isplitl [Hs]; · iexists xs; iapply (hs_out xs); iexact Hs
      iexact Hrest
    · iexact Hg
  isplitl [Ho]; · iexact Ho
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  isplitl [H3]; · iexists x3; isplitr; · ipureintro; trivial
                  iexact H3
  isplitl [H4]; · iexists x4; isplitr; · ipureintro; trivial
                  iexact H4
  isplitl [H5]; · iexists x5; isplitr; · ipureintro; trivial
                  iexact H5
  iexists x6; isplitr; · ipureintro; trivial
  iexact H6

/-- The body obligation of pipeline 0, at every point: nothing of what the buffers may hold is used. -/
theorem body_obligation0 (c : Dev nD) : (rdat0 (F := F) V c).BodyObligation (defs₀ (F := F)) Variants.none () Set.univ := fun t Y _ => by
  rw [bigSep_W0, bigSep_W0]
  exact sound_body0 V c t Y

set_option maxHeartbeats 1000000 in
/-- The decoder body at any point, the windows one by one; the invariant passes through unread. -/
theorem sound_body1 (c : Dev nD) (t : Fin cfg1.N) (Y : (w : Fin cfg1.W) → (cfg1.win w).block.Idx → Elt F (cfg1.win w).elt) :
    iprop((rdat1 V c).Φ t.castSucc ∗ (rdat1 V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) (fun _ =>
          iprop((rdat1 V c).Φ t.succ ∗ (rdat1 V c).owesAt () t.succ
            ∗ (∃ X, ⌜(rdat1 V c).after 0 t (Y 0) X⌝ ∗ owns (c : Thread nD τ) (st1_0 t) fullShare X)
            ∗ (∃ X, ⌜(rdat1 V c).after 1 t (Y 1) X⌝ ∗ owns (c : Thread nD τ) (st1_1 t) fullShare X)
            ∗ (∃ X, ⌜(rdat1 V c).after 2 t (Y 2) X⌝ ∗ owns (c : Thread nD τ) (st1_2 t) fullShare X)
            ∗ (∃ X, ⌜(rdat1 V c).after 3 t (Y 3) X⌝ ∗ owns (c : Thread nD τ) (st1_3 t) fullShare X))) := by
  unfold bodyAt1
  rw [show (rdat1 V c).Φ t.succ = (rdat1 V c).Φ t.castSucc from rfl,
    show (rdat1 V c).owesAt () t.succ = (rdat1 V c).owesAt () t.castSucc from rfl]
  iintro ⟨HΦ, Ho, H0, H1, H2, H3⟩
  iapply (sound_kernel1 c Set.univ (grid1.coords t) _ _ _ _ _ _ _ _ _)
  isplitl [H0]; · iexists _; iexact H0
  isplitl [H1]; · iexists _; iexact H1
  isplitl [H2]; · iexists _; iexact H2
  isplitl [H3]; · iexists _; iexact H3
  iintro ⟨⟨%x0, H0⟩, ⟨%x1, H1⟩, ⟨%x2, H2⟩, ⟨%x3, H3⟩⟩
  isplitl [HΦ]; · iexact HΦ
  isplitl [Ho]; · iexact Ho
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  iexists x3; isplitr; · ipureintro; trivial
  iexact H3

/-- The body obligation of pipeline 1, at every point. -/
theorem body_obligation1 (c : Dev nD) : (rdat1 (F := F) V c).BodyObligation (defs₀ (F := F)) Variants.none () Set.univ := fun t Y _ => by
  rw [bigSep_W1, bigSep_W1]
  exact sound_body1 V c t Y

end Data

/-! ## Between the items: every unscoped buffer held at some valuation -/

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0

/-- A valuation read at the TensorCore's references (what a region's proof data take). -/
abbrev atTc (W : Valuation τ sig (Elt F)) : (c : Dev nD) → (b : Ref sig .tc) → Buf (Elt F) ((c : Thread nD τ).loc b) := fun _ b => W (Proc.devRef .tc b)

/-- Both pipelines' proof data, each at the contents its region is entered from — a literal match on the pipeline. -/
def rdats (VA VB : (c : Dev nD) → (b : Ref sig .tc) → Buf (Elt F) ((c : Thread nD τ).loc b)) :
    (p : Fin 2) → (c : Dev nD) → RDat τ (Elt F) Unit ℕ UU ℕ (Pipeline.pin (pcfgs (F := F)) adm p) c
  | ⟨0, _⟩ => fun c => rdat0 VA c
  | ⟨1, _⟩ => fun c => rdat1 VB c

/-- Core `c` holds every unscoped buffer whole, at SOME valuation that agrees with `W` off the references `S`. -/
def heldOff (c : Dev nD) (W : Valuation τ sig (Elt F)) (S : List (Ref sig .tc)) : sProp 𝕄 :=
  iprop(∃ W' : Valuation τ sig (Elt F), ⌜∀ b : Ref sig .tc, b ∉ S → W' (Proc.devRef .tc b) = W (Proc.devRef .tc b)⌝
    ∗ StableHlo.held (c : Thread nD τ) (Pipeline.ucRefs τ sig) W')

/-- What rides beside the buffers: the generator register at some state and the core owing nothing. -/
abbrev R (c : Dev nD) : sProp 𝕄 := iprop((∃ r, prngReg c r) ∗ ∃ W, owes (c : Thread nD τ) (0 : CellTallies nD τ sig Unit) W)

/-- The second copy of the rounds algebra: the staging cells' ghost state and duty tokens of pipeline `p` on core `c`. -/
abbrev ghostAt (p : Fin 2) (c : Dev nD) : sProp 𝕄 :=
  iprop(Pipeline.cellsGhost (Pipeline.pin (pcfgs (F := F)) adm) (embR : Emb (UR sig nD τ) 𝕄) p c
    ∗ Pipeline.toksInit (Pipeline.pin (pcfgs (F := F)) adm) (embR : Emb (UR sig nD τ) 𝕄) p c)

/-- The contents after the first host stretch, read at the TensorCore's references: what region 0 is entered from. -/
abbrev E1 : (c : Dev nD) → (b : Ref sig .tc) → Buf (Elt F) ((c : Thread nD τ).loc b) := fun c b => V1 m c b

/-! ## A region's exit: its arrays at some contents, joined with the bypassing buffers -/

set_option backward.isDefEq.respectTransparency.types false in
/-- At a region's exit its arrays are held at SOME contents each may hold after the write-backs; beside the buffers that
    bypassed the region (at the entry valuation `W`) they make every unscoped buffer held at one valuation, which agrees
    with `W` at every reference that is not an OUTPUT window's array: an input array is never written. -/
theorem exit_held (rd : (p : Fin 2) → (c : Dev nD) → RDat τ (Elt F) Unit ℕ UU ℕ (Pipeline.pin (pcfgs (F := F)) adm p) c) (p : Fin 2)
    (hw : Pipeline.WinFacts (Pipeline.pin (pcfgs (F := F)) adm p).spec)
    (harr : ∀ w, ((Pipeline.pin (pcfgs (F := F)) adm p).spec w).arr.IsWhole)
    (c : Dev nD) (hshare : ∀ w, (rd p c).share w = fullShare) (W : Valuation τ sig (Elt F))
    (hA : ∀ w, (rd p c).A w = W (Proc.devRef .tc (Pipeline.arrRef (Pipeline.pin (pcfgs (F := F)) adm p).spec w))) :
    iprop((rd p c).arraysAt (Pipeline.pin (pcfgs (F := F)) adm p).N
        ∗ Pipeline.unscopedRest (Pipeline.pin (pcfgs (F := F)) adm p).spec c (atTc W c))
      ⊢ (iprop(∃ W' : Valuation τ sig (Elt F),
          ⌜∀ b : Ref sig .tc, (∀ w, ((Pipeline.pin (pcfgs (F := F)) adm p).win w).isOut = true → Pipeline.arrRef (Pipeline.pin (pcfgs (F := F)) adm p).spec w ≠ b)
              → W' (Proc.devRef .tc b) = W (Proc.devRef .tc b)⌝
          ∗ StableHlo.held (c : Thread nD τ) (Pipeline.ucRefs τ sig) W') : sProp 𝕄) := by
  unfold RDat.arraysAt
  iintro ⟨Ha, Hrest⟩
  ihave Ha' := (BI.bigSep_exists_pi Finset.univ (fun w G => iprop(⌜(rd p c).ArrAt w (Pipeline.pin (pcfgs (F := F)) adm p).N G⌝
      ∗ ((Pipeline.pin (pcfgs (F := F)) adm p).win w).arr.view.loc (c : Thread nD τ) ↦[((Pipeline.pin (pcfgs (F := F)) adm p).win w).arr.view.set]{(rd p c).share w} G))) $$ Ha
  icases Ha' with ⟨%A, Ha⟩
  ihave Ha2 := (BI.bigSep_pure_sep Finset.univ (fun w => (rd p c).ArrAt w (Pipeline.pin (pcfgs (F := F)) adm p).N (A w))
      (fun w => ((Pipeline.pin (pcfgs (F := F)) adm p).win w).arr.view.loc (c : Thread nD τ) ↦[((Pipeline.pin (pcfgs (F := F)) adm p).win w).arr.view.set]{(rd p c).share w} A w)) $$ Ha
  icases Ha2 with ⟨%hA', Ha⟩
  iexists (Pipeline.withArrays (Pipeline.pin (pcfgs (F := F)) adm p).spec c W A)
  isplitr
  · ipureintro
    intro b hb
    by_cases h : ∃ w, Pipeline.arrRef (Pipeline.pin (pcfgs (F := F)) adm p).spec w = b
    · obtain ⟨w, rfl⟩ := h
      rw [Pipeline.withArrays_arr _ hw.arr_inj]
      by_cases ho : ((Pipeline.pin (pcfgs (F := F)) adm p).win w).isOut = true
      · exact absurd rfl (hb w ho)
      · have h1 := hA' w (Finset.mem_univ w)
        rw [(rd p c).ArrAt_in w (by simpa using ho)] at h1
        rw [h1, hA w]
    · exact Pipeline.withArrays_of_ne _ c W A b (fun w e => h ⟨w, e⟩)
  · rw [← Pipeline.unscopedBufs_held c (Pipeline.withArrays (Pipeline.pin (pcfgs (F := F)) adm p).spec c W A),
      Pipeline.unscopedBufs_split (Pipeline.pin (pcfgs (F := F)) adm) p hw.arr_unscoped hw.arr_inj c]
    isplitl [Ha]
    · iapply (Entails.of_eq (bigSep_congr (fun w _ => by rw [(harr w).set_eq_univ, hshare w, Pipeline.withArrays_arr _ hw.arr_inj]) :
        (bigSep Finset.univ fun w => (((Pipeline.pin (pcfgs (F := F)) adm p).win w).arr.view.loc (c : Thread nD τ) ↦[((Pipeline.pin (pcfgs (F := F)) adm p).win w).arr.view.set]{(rd p c).share w} A w : sProp 𝕄))
          = bigSep Finset.univ fun w => (((c : Thread nD τ).loc (Pipeline.arrRef (Pipeline.pin (pcfgs (F := F)) adm p).spec w)) ↦{fullShare}
              Pipeline.withArrays (Pipeline.pin (pcfgs (F := F)) adm p).spec c W A (Proc.devRef .tc (Pipeline.arrRef (Pipeline.pin (pcfgs (F := F)) adm p).spec w)) : sProp 𝕄)))
      iexact Ha
    · have hcongr : (Pipeline.unscopedRest (Pipeline.pin (pcfgs (F := F)) adm p).spec c (atTc W c) : sProp 𝕄)
          = Pipeline.unscopedRest (Pipeline.pin (pcfgs (F := F)) adm p).spec c
              (fun b => Pipeline.withArrays (Pipeline.pin (pcfgs (F := F)) adm p).spec c W A (Proc.devRef .tc b)) := by
        unfold Pipeline.unscopedRest
        exact bigSep_congr fun b hb => by
          dsimp only [atTc]
          rw [Pipeline.withArrays_of_ne _ c W A b (fun w e => (Finset.mem_sdiff.mp hb).2 (Finset.mem_image.mpr ⟨w, Finset.mem_univ _, e⟩))]
      iapply (Entails.of_eq hcongr)
      iexact Hrest

/-! ## The items of @main as segments -/

/-- An output window of pipeline 0 is `main_v9`'s. -/
theorem out0_ref : ∀ w : Fin 7, (win0 w).isOut = true → Pipeline.arrRef spec0 w = main_v9 := by decide
/-- An output window of pipeline 1 is `main_v13`'s. -/
theorem out1_ref : ∀ w : Fin 4, (win1 w).isOut = true → Pipeline.arrRef spec1 w = main_v13 := by decide

-- a library lemma stated over the pinned configuration unifies with the printed one only when unification may unfold
-- plain definitions in a metavariable's type
set_option backward.isDefEq.respectTransparency.types false in
/-- REGION 0 (the recurrent cell, 2 × 2 points): entered from every unscoped buffer at the contents after the first host
    stretch, left with them at some valuation that differs at most at the region's output array. -/
def reg0 : Pipeline.RDat.RegionSeg (pcfgs (F := F)) adm (rdats (E1 m) (E1 m)) () defs₀ 𝒱₀ L lv 0 where
  win := launch0.win.to₀
  block_pos := launch0.block_pos
  stage_whole := launch0.stage_whole
  K := PEmpty
  osem k := k.elim
  ho := Pipeline.OwnSemFacts.none _
  hbody c := body_obligation0 (E1 m) c
  hwaits := Pipeline.RDat.hwaits_of_owed_zero _ _ _ _ L lv 0 fun _ _ => rfl
  pre c := iprop(StableHlo.held (c : Thread nD τ) (Pipeline.ucRefs τ sig) (V1 m c) ∗ R c ∗ ghostAt 1 c)
  post c := iprop(heldOff c (V1 m c) [main_v9] ∗ R c ∗ ghostAt 1 c)
  X c := iprop(∃ r, prngReg c r)
  Y c := iprop(∃ r, prngReg c r)
  Z c := iprop(Pipeline.unscopedRest (Ix := Unit) (Name := ℕ) (U := UU) (Lvl := ℕ) spec0 c (E1 m c) ∗ ghostAt 1 c)
  hentry c := by
    rw [Pipeline.ownSems0_none]
    have hsplit := Pipeline.RDat.arrays_of_unscopedBufs (p := 0) (pcfgs (F := F)) adm (rdats (E1 m) (E1 m)) launch0.win launch0.arr_whole c
      ((rdats (E1 m) (E1 m) 0 c).share_full fun _ => rfl) (E1 m c) fun _ => rfl
    rw [Pipeline.unscopedBufs_held] at hsplit
    iintro ⟨⟨Hub, ⟨Hp, HO⟩, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hg
  hin c := by
    rw [show (rdats (E1 m) (E1 m) 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats (E1 m) (E1 m) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_held (rdats (E1 m) (E1 m)) 0 launch0.win launch0.arr_whole c
      ((rdats (E1 m) (E1 m) 0 c).share_full fun _ => rfl) (V1 m c) (fun _ => rfl)
    iintro ⟨Ha, HO, HY, ⟨Hrest, Hg⟩⟩
    imodintro
    ihave H := hjoin $$ [Ha Hrest]
    · isplitl [Ha] <;> iassumption
    icases H with ⟨%W', %hW', Hh⟩
    isplitl [Hh]
    · unfold heldOff
      iexists W'; isplitr
      · ipureintro
        intro b hb
        exact hW' b fun w hw e => hb (by
          have h9 : Pipeline.arrRef (Pipeline.pin (pcfgs (F := F)) adm 0).spec w = main_v9 := out0_ref w hw
          rw [← e, h9]; exact List.mem_singleton.mpr rfl)
      iexact Hh
    isplitl [HY HO]
    · isplitl [HY]; · iexact HY
      unfold Pipeline.RDat.owesAt Pipeline.owesWithin
      icases HO with ⟨%W, -, HO⟩; iexists W; iexact HO
    iexact Hg

/-- The second host stretch, from every unscoped buffer at some valuation: it writes `main_v10`, `main_v11`, `main_v12` only. -/
def hseg1 : Pipeline.HostSeg (Name := ℕ) (U := UU) (pcfgs (F := F)) defs₀ 𝒱₀ L lv where
  prog := StableHlo.seq hostOps1
  pre c := iprop(heldOff c (V1 m c) [main_v9] ∗ R c ∗ ghostAt 1 c)
  post c := iprop(heldOff c (V1 m c) [main_v9, main_v10, main_v11, main_v12] ∗ R c ∗ ghostAt 1 c)
  run c {β} k K := by
    unfold heldOff
    iintro ⟨Hk, Hbd, ⟨⟨%W', %hW', Hh⟩, HR⟩, -⟩
    have hseq := StableHlo.wp_seq (defs := Pipeline.defs (pcfgs (F := F)) defs₀) (Variants.lift 𝒱₀) none Set.univ c (Pipeline.ucRefs τ sig) k (K := K) hostOps1
      (fun op h => Pipeline.sub_ucRefs op ((List.forall_iff_forall_mem.mp hostOps1_sub) op h))
      (fun op h => (List.forall_iff_forall_mem.mp hostOps1_fresh) op h) W'
    iapply hseq $$ [Hbd Hh]
    · isplitl [Hbd] <;> iassumption
    iintro ⟨Hbd, Hh⟩
    iapply Hk
    isplitl [Hbd]; · iexact Hbd
    isplitr [HR]
    · iexists (StableHlo.after hostOps1 W'); isplitr
      · ipureintro
        intro b hb
        have h1 : b ∉ hostOps1_W := fun h => hb (List.mem_cons_of_mem _ h)
        have h2 : b ∉ [main_v9] := fun h => hb (by rw [List.mem_singleton.mp h]; exact List.mem_cons_self)
        exact (StableHlo.after_of_writes_sub hostOps1 _ hostOps1_writes h1).trans (hW' b h2)
      iexact Hh
    iexact HR

set_option backward.isDefEq.respectTransparency.types false in
/-- REGION 1 (the decoder, 25 column tiles) at a valuation `W` the core holds its unscoped buffers at when it is entered. -/
def reg1 (W : Valuation τ sig (Elt F)) : Pipeline.RDat.RegionSeg (pcfgs (F := F)) adm (rdats (E1 m) (atTc W)) () defs₀ 𝒱₀ L lv 1 where
  win := launch1.win.to₀
  block_pos := launch1.block_pos
  stage_whole := launch1.stage_whole
  K := PEmpty
  osem k := k.elim
  ho := Pipeline.OwnSemFacts.none _
  hbody c := body_obligation1 (atTc W) c
  hwaits := Pipeline.RDat.hwaits_of_owed_zero _ _ _ _ L lv 1 fun _ _ => rfl
  pre c := iprop(StableHlo.held (c : Thread nD τ) (Pipeline.ucRefs τ sig) W ∗ R c)
  post c := iprop(heldOff c W [main_v13] ∗ R c)
  X c := iprop(∃ r, prngReg c r)
  Y c := iprop(∃ r, prngReg c r)
  Z c := Pipeline.unscopedRest (Ix := Unit) (Name := ℕ) (U := UU) (Lvl := ℕ) spec1 c (atTc W c)
  hentry c := by
    rw [Pipeline.ownSems0_none]
    have hsplit := Pipeline.RDat.arrays_of_unscopedBufs (p := 1) (pcfgs (F := F)) adm (rdats (E1 m) (atTc W)) launch1.win launch1.arr_whole c
      ((rdats (E1 m) (atTc W) 1 c).share_full fun _ => rfl) (atTc W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats (E1 m) (atTc W) 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats (E1 m) (atTc W) 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_held (rdats (E1 m) (atTc W)) 1 launch1.win launch1.arr_whole c
      ((rdats (E1 m) (atTc W) 1 c).share_full fun _ => rfl) W (fun _ => rfl)
    iintro ⟨Ha, HO, HY, Hrest⟩
    imodintro
    ihave H := hjoin $$ [Ha Hrest]
    · isplitl [Ha] <;> iassumption
    icases H with ⟨%W', %hW', Hh⟩
    isplitl [Hh]
    · unfold heldOff
      iexists W'; isplitr
      · ipureintro
        intro b hb
        exact hW' b fun w hw e => hb (by
          have h13 : Pipeline.arrRef (Pipeline.pin (pcfgs (F := F)) adm 1).spec w = main_v13 := out1_ref w hw
          rw [← e, h13]; exact List.mem_singleton.mpr rfl)
      iexact Hh
    isplitl [HY]; · iexact HY
    unfold Pipeline.RDat.owesAt Pipeline.owesWithin
    icases HO with ⟨%W, -, HO⟩; iexists W; iexact HO

set_option backward.isDefEq.respectTransparency.types false in
/-- Region 1's call as a segment of its own: entered from every unscoped buffer at SOME valuation, the region's proof data
    are taken at that valuation once it is in hand, and the region's cells are funded from the second copy of the rounds
    algebra. -/
def hreg1 : Pipeline.HostSeg (Name := ℕ) (U := UU) (pcfgs (F := F)) defs₀ 𝒱₀ L lv where
  prog := Prog.lift (.customCall (Pipeline.entry 1) ())
  pre c := iprop(heldOff c (V1 m c) [main_v9, main_v10, main_v11, main_v12] ∗ R c ∗ ghostAt 1 c)
  post c := iprop(heldOff c (V1 m c) [main_v9, main_v10, main_v11, main_v12, main_v13] ∗ R c)
  run c {β} k K := by
    rw [show (Prog.lift (.customCall (Pipeline.entry 1) ()) >>= k
        : Prog (TpuEff nD τ sig (Elt F) (Pipeline.Sig Λ₀ (Fin 2) fun p => (pcfgs (F := F) p).Adm) .tc) β) = .op (.customCall (Pipeline.entry 1) ()) k from rfl]
    unfold heldOff
    iintro ⟨Hk, Hbd, ⟨⟨%W', %hW', Hh⟩, HR, Hg, Ht⟩, #Hla⟩
    have hwp := Pipeline.RDat.RegionSeg.wp (pcfgs (F := F)) adm (rdats (E1 m) (atTc W')) () cellOf_inj (embR : Emb (UR sig nD τ) 𝕄) defs₀ 𝒱₀ L lv
      (reg1 m W') c none (fun u h => nomatch h) k K
    rw [show (reg1 m W').post c = iprop(heldOff c W' [main_v13] ∗ R c) from rfl,
      show (reg1 m W').pre c = iprop(StableHlo.held (c : Thread nD τ) (Pipeline.ucRefs τ sig) W' ∗ R c) from rfl] at hwp
    unfold heldOff at hwp
    iapply hwp
    isplitl [Hk]
    · iintro ⟨Hbd, ⟨%W'', %hW'', Hh⟩, HR⟩
      iapply Hk
      isplitl [Hbd]; · iexact Hbd
      isplitl [Hh]
      · iexists W''; isplitr
        · ipureintro
          intro b hb
          have h1 : b ∉ [main_v13] := fun h => hb (by
            rw [List.mem_singleton.mp h]; simp only [List.mem_cons, List.mem_singleton, true_or, or_true])
          have h2 : b ∉ [main_v9, main_v10, main_v11, main_v12] := fun h => hb (by
            simp only [List.mem_cons, List.mem_singleton, List.not_mem_nil, or_false] at h ⊢
            rcases h with h | h | h | h <;> simp only [h, true_or, or_true])
          exact (hW'' b h1).trans (hW' b h2)
        iexact Hh
      iexact HR
    isplitl [Hbd]; · iexact Hbd
    isplitl [Hh HR]
    · isplitl [Hh]; · iexact Hh
      iexact HR
    isplitr; · iexact Hla
    isplitl [Hg]; · iexact Hg
    iexact Ht

/-! ## @main as segments, and the launch -/

/-- @main's four items: the first host stretch at the launch contents, the recurrent region, the second host stretch, the
    decoder region inside its own segment. -/
abbrev segs : List (Pipeline.RDat.Seg (pcfgs (F := F)) adm (rdats (E1 m) (E1 m)) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (V0 m) (fun c => iprop(R c ∗ ghostAt 1 c))),
    .region (reg0 m),
    .host (hseg1 m),
    .host (hreg1 m) ]

/-- The launch element: the pipeline library's element twice, once for the launch theorem's own list of regions and once for
    the decoder region's entry inside its segment. -/
abbrev u₀ : UU :=
  (initOf (Pipeline.cells cfgs cellOf_inj) (Pipeline.launchToks cfgs cellOf_inj), initOf (Pipeline.cells cfgs cellOf_inj) (Pipeline.launchToks cfgs cellOf_inj))

/-- What the second copy deals core `c`: every pipeline's cells' ghost state and duty tokens. -/
abbrev G (c : Dev nD) : sProp 𝕄 :=
  iprop((bigSep Finset.univ fun p : Fin 2 => Pipeline.cellsGhost (Pipeline.pin (pcfgs (F := F)) adm) (embR : Emb (UR sig nD τ) 𝕄) p c)
    ∗ bigSep Finset.univ fun p : Fin 2 => Pipeline.toksInit (Pipeline.pin (pcfgs (F := F)) adm) (embR : Emb (UR sig nD τ) 𝕄) p c)

/-- An argument array is no buffer the first host stretch writes. -/
theorem V1_arg (c : Dev nD) (r : Ref sig .tc) (h : r ∉ hostOps0_W) : V1 m c r = m ((c : Thread nD τ).loc r) :=
  (V1_of m c r h).trans rfl

set_option backward.isDefEq.respectTransparency.types false in
/-- THE FRAME. Every weakly fair execution of @main from memory `m` with zero counters terminates, nothing faulting, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.RDat.θ_run_regions_kit (pcfgs (F := F)) adm (rdats (E1 m) (E1 m)) () cellOf_inj (embL : Emb (UR sig nD τ) 𝕄) defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := G) (u₀ := u₀)
    (hu₀ := by
      iintro Hu
      ihave H := (ownU_pair (initOf (Pipeline.cells cfgs cellOf_inj) (Pipeline.launchToks cfgs cellOf_inj))
        (initOf (Pipeline.cells cfgs cellOf_inj) (Pipeline.launchToks cfgs cellOf_inj))) $$ Hu
      icases H with ⟨HL, HR⟩
      imod (Pipeline.fund_ghost (Pipeline.pin (pcfgs (F := F)) adm) (embR : Emb (UR sig nD τ) 𝕄) cellOf_inj) $$ HR with ⟨Hg, Ht⟩
      imodintro
      isplitl [HL]; · iexact HL
      rw [bigSep_sep']
      isplitl [Hg]; · iexact Hg
      iexact Ht)
    (T₀ := fun c => iprop(StableHlo.held (c : Thread nD τ) (Pipeline.ucRefs τ sig) (V0 m c) ∗ R c ∗ ghostAt 1 c))
    (Tₙ := fun c => iprop(heldOff c (V1 m c) [main_v9, main_v10, main_v11, main_v12, main_v13] ∗ ∃ r, prngReg c r))
    (hch := ⟨fun _ => .rfl, fun _ => .rfl, fun _ => .rfl, fun _ => .rfl, fun c => by
      show iprop(heldOff c (V1 m c) [main_v9, main_v10, main_v11, main_v12, main_v13] ∗ R c)
        ⊢ (iprop((heldOff c (V1 m c) [main_v9, main_v10, main_v11, main_v12, main_v13] ∗ ∃ r, prngReg c r)
            ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, ⟨Hg, Ht⟩⟩, -⟩
      have hg1 : (bigSep Finset.univ fun p : Fin 2 => (Pipeline.cellsGhost (Pipeline.pin (pcfgs (F := F)) adm) (embR : Emb (UR sig nD τ) 𝕄) p c : sProp 𝕄))
          ⊢ Pipeline.cellsGhost (Pipeline.pin (pcfgs (F := F)) adm) (embR : Emb (UR sig nD τ) 𝕄) 1 c := bigSep_elim (Finset.mem_univ (1 : Fin 2))
      have ht1 : (bigSep Finset.univ fun p : Fin 2 => (Pipeline.toksInit (Pipeline.pin (pcfgs (F := F)) adm) (embR : Emb (UR sig nD τ) 𝕄) p c : sProp 𝕄))
          ⊢ Pipeline.toksInit (Pipeline.pin (pcfgs (F := F)) adm) (embR : Emb (UR sig nD τ) 𝕄) 1 c := bigSep_elim (Finset.mem_univ (1 : Fin 2))
      ihave Hg1 := hg1 $$ Hg
      ihave Ht1 := ht1 $$ Ht
      imodintro
      isplitl [Hh]; · iexact Hh
      isplitl [Hp HO]
      · isplitl [Hp]; · iexists _; iexact Hp
        iexists ∅; iexact HO
      isplitl [Hg1]; · iexact Hg1
      iexact Ht1)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => by
      unfold heldOff StableHlo.held
      iintro ⟨⟨⟨%W', %hW', Hh⟩, -⟩, HSI⟩
      ihave Hr := (pointsTo_read_all (Pipeline.ucRefs τ sig) (fun b => ((c : Thread nD τ).1, b)) W' s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans ((hW' main_arg0 (by decide)).trans (V1_arg m c main_arg0 (by decide))),
          (h (Proc.devRef .tc main_arg1) (Finset.mem_filter.mpr ⟨StableHlo.devRef_mem_tcRefs main_arg1, by decide⟩)).trans ((hW' main_arg1 (by decide)).trans (V1_arg m c main_arg1 (by decide))),
          (h (Proc.devRef .tc main_arg2) (Finset.mem_filter.mpr ⟨StableHlo.devRef_mem_tcRefs main_arg2, by decide⟩)).trans ((hW' main_arg2 (by decide)).trans (V1_arg m c main_arg2 (by decide))),
          (h (Proc.devRef .tc main_arg3) (Finset.mem_filter.mpr ⟨StableHlo.devRef_mem_tcRefs main_arg3, by decide⟩)).trans ((hW' main_arg3 (by decide)).trans (V1_arg m c main_arg3 (by decide))),
          (h (Proc.devRef .tc main_arg4) (Finset.mem_filter.mpr ⟨StableHlo.devRef_mem_tcRefs main_arg4, by decide⟩)).trans ((hW' main_arg4 (by decide)).trans (V1_arg m c main_arg4 (by decide))),
          (h (Proc.devRef .tc main_arg5) (Finset.mem_filter.mpr ⟨StableHlo.devRef_mem_tcRefs main_arg5, by decide⟩)).trans ((hW' main_arg5 (by decide)).trans (V1_arg m c main_arg5 (by decide))),
          (h (Proc.devRef .tc main_arg6) (Finset.mem_filter.mpr ⟨StableHlo.devRef_mem_tcRefs main_arg6, by decide⟩)).trans ((hW' main_arg6 (by decide)).trans (V1_arg m c main_arg6 (by decide))),
          (h (Proc.devRef .tc main_arg7) (Finset.mem_filter.mpr ⟨StableHlo.devRef_mem_tcRefs main_arg7, by decide⟩)).trans ((hW' main_arg7 (by decide)).trans (V1_arg m c main_arg7 (by decide))),
          (h (Proc.devRef .tc main_arg8) (Finset.mem_filter.mpr ⟨StableHlo.devRef_mem_tcRefs main_arg8, by decide⟩)).trans ((hW' main_arg8 (by decide)).trans (V1_arg m c main_arg8 (by decide)))⟩
      · iexact HSI)
    (hQ := fun _ h => h)

end Cert.Kernel.FrameR

end
-- ==== Proof.KIReg0Runs.lean ====
import proofs.«415660_j37589553774958_3_alg».proof.Proof.Gen.KernelIdeal.Launch
import proofs.«415660_j37589553774958_3_alg».proof.Proof.Gen.KernelIdeal.Skeleton
import proofs.«415660_j37589553774958_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch of the body -/

/-- The condition of the body's one conditional (the layer is the first), from the grid coordinates. -/
abbrev cond0 (i : grid0.Coords) : Prop := (Scalar.cmpi .ne (Scalar.extui (Scalar.cmpi .eq (BitVec.ofNat 32 (i 1).val) 0#32)) 0#32) = 1#1
/-- It holds at the even points: decided over the grid. -/
theorem hcond0 : ∀ t : Fin cfg0.N, cond0 (grid0.coords t) ↔ t.val % 2 = 0 :=
  (by decide +kernel : ∀ t : Fin grid0.N, cond0 (grid0.coords t) ↔ t.val % 2 = 0)

-- (the run's proof term is large)
set_option maxHeartbeats 4000000 in
/-- The whole body at a point of the first layer: on whole staging memrefs, the six inputs' at their contents, the
    output's and the scratch at anything, it runs to the continuation holding the inputs as they were and the output's
    and the scratch's memrefs with the pieces stored into them (last first). The pieces are found by the run. -/
noncomputable def kernelRun0_A (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) :
    Σ' (L6 : List (View.Piece (Elt F) S1x128x1024 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9) K } := by
  refine ⟨?_, ?_, fun E K => ?run⟩
  case run =>
    simp only [cc0__gru_kernel_eq_skeleton]; unfold cc0__gru_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

-- (the run's proof term is large)
set_option maxHeartbeats 4000000 in
/-- The whole body at a point of a later layer: the same, with the scratch at the contents the point before left,
    which the body reads as the layer's input. -/
noncomputable def kernelRun0_B (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) :
    Σ' (L6 : List (View.Piece (Elt F) S1x128x1024 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9) K } := by
  refine ⟨?_, ?_, fun E K => ?run⟩
  case run =>
    simp only [cc0__gru_kernel_eq_skeleton]; unfold cc0__gru_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Reg0

end
-- ==== Proof.KIReg0.lean ====
/- Region 0 (the two-layer GRU step, grid 2 × 2): what the output block and the carried scratch hold point by point, the proof data, and the body obligation. -/
import proofs.«415660_j37589553774958_3_alg».proof.Proof.Gen.KernelIdeal.Launch
import proofs.«415660_j37589553774958_3_alg».proof.Proof.Gen.KernelIdeal.Skeleton
import proofs.«415660_j37589553774958_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«415660_j37589553774958_3_alg».proof.Proof.KIReg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the two cases leave -/

/-- One staging buffer of the output window, through which its contents are stated (the choice does not matter). -/
abbrev VO0_6 : View sig .tc .vmem S1x128x1024 .f32 := (Memref.whole cc0_stg6_0 : Memref sig .tc .vmem S1x128x1024 .f32).view
/-- The scratch operand the body carries from point to point, -/
abbrev scM0 : Memref sig .tc .vmem S128x1024 .f32 := Memref.whole cc0_scratch0
/-- and as a view: what it holds is stated through it. -/
abbrev VS0 : View sig .tc .vmem S128x1024 .f32 := scM0.view

theorem hz2 : (![0, 0] : Fin 2 → Nat) = fun _ => 0 := funext fun a => by fin_cases a <;> rfl
theorem hz3 : (![0, 0, 0] : Fin 3 → Nat) = fun _ => 0 := funext fun a => by fin_cases a <;> rfl

/-- At a first-layer point the stores into the output block cover it. -/
theorem cover0_A_6 (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (y : S1x128x1024.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x128x1024.size (by sl_kernel_rfl) y

/-- What a first-layer point leaves in the output window's staging buffer: its stores read back. -/
def out0_A_6 (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) : Vec F S1x128x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- At a first-layer point the stores into the scratch cover it. -/
theorem scover0_A (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (y : S128x1024.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S128x1024.size (by sl_kernel_rfl) y

/-- What a first-layer point leaves in the scratch. -/
def sout0_A (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) : Vec F S128x1024 .f32 :=
  VS0.read (Elt F) (VS0.writes (Elt F) VS0.junk (kernelRun0_A c i arg2 harg2 arg3 harg3 arg4 harg4 arg5 harg5 arg6 harg6 arg7 harg7 arg8 harg8 arg9 harg9 hc0 x0 x1 x2 x3 x4 x5).2.1)

/-- At a later-layer point the stores into the output block cover it. -/
theorem cover0_B_6 (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) (y : S1x128x1024.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x128x1024.size (by sl_kernel_rfl) y

/-- What a later-layer point leaves in the output window's staging buffer. -/
def out0_B_6 (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) : Vec F S1x128x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- At a later-layer point the stores into the scratch cover it. -/
theorem scover0_B (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) (y : S128x1024.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S128x1024.size (by sl_kernel_rfl) y

/-- What a later-layer point leaves in the scratch. -/
def sout0_B (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) : Vec F S128x1024 .f32 :=
  VS0.read (Elt F) (VS0.writes (Elt F) VS0.junk (kernelRun0_B c i arg2 harg2 arg3 harg3 arg4 harg4 arg5 harg5 arg6 harg6 arg7 harg7 arg8 harg8 arg9 harg9 hc0 x0 x1 x2 x3 x4 x5 xs0).2.1)

/-! ## The found contents in closed form -/

/-- A first-layer point's output block: the cell's update of the hidden state, from the input tile copied into
    the scratch and read back. -/
theorem out0_A_6_eq (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) :
    out0_A_6 c i arg2 harg2 arg3 harg3 arg4 harg4 arg5 harg5 arg6 harg6 arg7 harg7 arg8 harg8 arg9 harg9 hc0 x0 x1 x2 x3 x4 x5 = k0_pay2 (k0_pay5 x1) (k0_pay8 (k0_pay4 x0) x1 x2 x3 (View.ld x4 (Rect.unit (s := S2x3072) (k0_off1 i) S1x3072.size (k0_off1_inb i))) (View.ld x5 (Rect.unit (s := S2x3072) (k0_off1 i) S1x3072.size (k0_off1_inb i)))) (k0_pay9 (k0_pay4 x0) x1 x2 x3 (View.ld x4 (Rect.unit (s := S2x3072) (k0_off1 i) S1x3072.size (k0_off1_inb i))) (View.ld x5 (Rect.unit (s := S2x3072) (k0_off1 i) S1x3072.size (k0_off1_inb i)))) (Scalar.ofBits .f32 0x3F800000#32) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_run_names
  rw [View.canon_unit_zero hz3]
  simp only [View.readAt_eq_ld, harg2.read_unread, harg3.read_unread, harg4.read_unread, harg5.read_unread, harg6.read_unread, harg7.read_unread, harg9.read_unread, View.ld_unit_zero (S := S128x1024) hz2, View.ld_unit_zero (S := S1x128x1024) hz3, View.ld_unit_zero (S := S1x3072x1024) hz3, View.readCov_unit_zero (S := S128x1024) _ hz2]

/-- and what it leaves in the scratch: the same update. -/
theorem sout0_A_eq (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) :
    sout0_A c i arg2 harg2 arg3 harg3 arg4 harg4 arg5 harg5 arg6 harg6 arg7 harg7 arg8 harg8 arg9 harg9 hc0 x0 x1 x2 x3 x4 x5 = k0_pay3 (k0_pay5 x1) (k0_pay8 (k0_pay4 x0) x1 x2 x3 (View.ld x4 (Rect.unit (s := S2x3072) (k0_off1 i) S1x3072.size (k0_off1_inb i))) (View.ld x5 (Rect.unit (s := S2x3072) (k0_off1 i) S1x3072.size (k0_off1_inb i)))) (k0_pay9 (k0_pay4 x0) x1 x2 x3 (View.ld x4 (Rect.unit (s := S2x3072) (k0_off1 i) S1x3072.size (k0_off1_inb i))) (View.ld x5 (Rect.unit (s := S2x3072) (k0_off1 i) S1x3072.size (k0_off1_inb i)))) (Scalar.ofBits .f32 0x3F800000#32) := by
  unfold sout0_A
  rw [View.read_writes_eq_canon _ _ _ (scover0_A c i arg2 harg2 arg3 harg3 arg4 harg4 arg5 harg5 arg6 harg6 arg7 harg7 arg8 harg8 arg9 harg9 hc0 x0 x1 x2 x3 x4 x5)]
  unfold kernelRun0_A
  dsimp only
  sl_unfold_run_names
  rw [View.canon_cons_unit_zero (S := S128x1024) hz2]
  simp only [View.readAt_eq_ld, harg2.read_unread, harg3.read_unread, harg4.read_unread, harg5.read_unread, harg6.read_unread, harg7.read_unread, harg9.read_unread, View.ld_unit_zero (S := S128x1024) hz2, View.ld_unit_zero (S := S1x128x1024) hz3, View.ld_unit_zero (S := S1x3072x1024) hz3, View.readCov_unit_zero (S := S128x1024) _ hz2]

/-- A later-layer point's output block: the update from what the scratch held. -/
theorem out0_B_6_eq (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) :
    out0_B_6 c i arg2 harg2 arg3 harg3 arg4 harg4 arg5 harg5 arg6 harg6 arg7 harg7 arg8 harg8 arg9 harg9 hc0 x0 x1 x2 x3 x4 x5 xs0 = k0_pay2 (k0_pay5 x1) (k0_pay8 xs0 x1 x2 x3 (View.ld x4 (Rect.unit (s := S2x3072) (k0_off1 i) S1x3072.size (k0_off1_inb i))) (View.ld x5 (Rect.unit (s := S2x3072) (k0_off1 i) S1x3072.size (k0_off1_inb i)))) (k0_pay9 xs0 x1 x2 x3 (View.ld x4 (Rect.unit (s := S2x3072) (k0_off1 i) S1x3072.size (k0_off1_inb i))) (View.ld x5 (Rect.unit (s := S2x3072) (k0_off1 i) S1x3072.size (k0_off1_inb i)))) (Scalar.ofBits .f32 0x3F800000#32) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg9.read_unread, View.ld_unit_zero (S := S128x1024) hz2, View.ld_unit_zero (S := S1x128x1024) hz3, View.ld_unit_zero (S := S1x3072x1024) hz3, View.readCov_unit_zero (S := S128x1024) _ hz2]

/-- and what it leaves in the scratch. -/
theorem sout0_B_eq (c : Dev nD) (i : grid0.Coords) (arg2 : Memref sig .tc .vmem S128x1024 .f32) (harg2 : arg2.IsWhole) (arg3 : Memref sig .tc .vmem S1x128x1024 .f32) (harg3 : arg3.IsWhole) (arg4 : Memref sig .tc .vmem S1x3072x1024 .bf16) (harg4 : arg4.IsWhole) (arg5 : Memref sig .tc .vmem S1x3072x1024 .bf16) (harg5 : arg5.IsWhole) (arg6 : Memref sig .tc .vmem S2x3072 .f32) (harg6 : arg6.IsWhole) (arg7 : Memref sig .tc .vmem S2x3072 .f32) (harg7 : arg7.IsWhole) (arg8 : Memref sig .tc .vmem S1x128x1024 .f32) (harg8 : arg8.IsWhole) (arg9 : Memref sig .tc .vmem S128x1024 .f32) (harg9 : arg9.IsWhole) (hc0 : ¬cond0 i)
    (x0 : Vec F S128x1024 .f32) (x1 : Vec F S1x128x1024 .f32) (x2 : Vec F S1x3072x1024 .bf16) (x3 : Vec F S1x3072x1024 .bf16) (x4 : Vec F S2x3072 .f32) (x5 : Vec F S2x3072 .f32) (xs0 : Vec F S128x1024 .f32) :
    sout0_B c i arg2 harg2 arg3 harg3 arg4 harg4 arg5 harg5 arg6 harg6 arg7 harg7 arg8 harg8 arg9 harg9 hc0 x0 x1 x2 x3 x4 x5 xs0 = k0_pay3 (k0_pay5 x1) (k0_pay8 xs0 x1 x2 x3 (View.ld x4 (Rect.unit (s := S2x3072) (k0_off1 i) S1x3072.size (k0_off1_inb i))) (View.ld x5 (Rect.unit (s := S2x3072) (k0_off1 i) S1x3072.size (k0_off1_inb i)))) (k0_pay9 xs0 x1 x2 x3 (View.ld x4 (Rect.unit (s := S2x3072) (k0_off1 i) S1x3072.size (k0_off1_inb i))) (View.ld x5 (Rect.unit (s := S2x3072) (k0_off1 i) S1x3072.size (k0_off1_inb i)))) (Scalar.ofBits .f32 0x3F800000#32) := by
  unfold sout0_B
  rw [View.read_writes_eq_canon _ _ _ (scover0_B c i arg2 harg2 arg3 harg3 arg4 harg4 arg5 harg5 arg6 harg6 arg7 harg7 arg8 harg8 arg9 harg9 hc0 x0 x1 x2 x3 x4 x5 xs0)]
  unfold kernelRun0_B
  dsimp only
  sl_unfold_run_names
  rw [View.canon_unit_zero hz2]
  simp only [View.readAt_eq_ld, harg2.read_unread, harg3.read_unread, harg4.read_unread, harg5.read_unread, harg6.read_unread, harg7.read_unread, harg9.read_unread, View.ld_unit_zero (S := S128x1024) hz2, View.ld_unit_zero (S := S1x128x1024) hz3, View.ld_unit_zero (S := S1x3072x1024) hz3, View.readCov_unit_zero (S := S128x1024) _ hz2]

/-! ## The staging memrefs at a point, and the class invariant opened -/

/-- Each window's current staging memref at point `t`, spelled as the pipeline passes it, and its wholeness. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x1024 .f32 := win0_6.stage (cfg0.slots t 6)
abbrev hs0_6 (t : Fin cfg0.N) : (ms0_6 t).IsWhole := hstage0_6 ((cfg0.slots t 6).cast nbuf0_6)

/-- The other scoped buffers of the core that are no staging buffer of this call, each whole at some contents:
    the body never touches them. -/
def scRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents, beside the other scoped buffers and
    the generator register: what the body obligation hands the run and takes back. -/
theorem PhiA0_eq (c : Dev nD) :
    (Pipeline.ΦA spec0 c : sProp 𝕄)
      = iprop(iprop((∃ d, owns (c : Thread nD τ) scM0 fullShare d) ∗ scRest (F := F) c) ∗ (∃ r, prngReg c r)) := by
  unfold Pipeline.ΦA scRest; rw [scopedRest0_eq]; simp only [scM0, owns_whole]; try rfl

/-! ## What the output window and the scratch hold after each point -/

/-- After the body at position `n`: what the output window's staging buffer holds, and what the carried scratch holds. -/
def outsAt0 (V : (c : Dev nD) → (b : Ref sig .tc) → Buf (Elt F) ((c : Thread nD τ).loc b)) (c : Dev nD) : (n : ℕ) → n < cfg0.N → Vec F S1x128x1024 .f32 × Vec F S128x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 2 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2)

/-- `outsAt0` at a first-layer point: that case's contents. -/
theorem outsAt0_A (c : Dev nD) (t : Fin cfg0.N) (h0 : t.val % 2 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0 t).mpr h0) (iblk0 V c 0 t) (iblk0 V c 1 t) (iblk0 V c 2 t) (iblk0 V c 3 t) (iblk0 V c 4 t) (iblk0 V c 5 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans rfl

/-- `outsAt0` at a later-layer point: that case's contents, over what the point before left in the scratch. -/
theorem outsAt0_B (c : Dev nD) (t : Fin cfg0.N) (h0 : ¬t.val % 2 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (the scratch at anything);
    afterwards the scratch at what the point before left in it, beside the other scoped buffers at some contents
    and the generator register at some state. -/
def PhiS (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scM0 fullShare ((outsAt0 V c n hn).2) ∗ scRest (F := F) c) ∗ (∃ r, prngReg c r))

theorem PhiS_zero (c : Dev nD) (n : ℕ) (h : n ≤ cfg0.N) (hz : n = 0) : PhiS V c n h = Pipeline.ΦA spec0 c := by
  subst hz; rfl

/-- After point `n`: the scratch at that point's contents. -/
theorem PhiS_succ (c : Dev nD) (n : ℕ) (hn : n < cfg0.N) :
    PhiS V c (n + 1) hn = iprop(iprop(owns (c : Thread nD τ) scM0 fullShare ((outsAt0 V c n hn).2) ∗ scRest (F := F) c) ∗ (∃ r, prngReg c r)) := rfl

/-- Before a point that is not the first: the scratch at what the point before left. -/
theorem PhiS_pos (c : Dev nD) (n : ℕ) (h : n ≤ cfg0.N) (hz : n ≠ 0) :
    PhiS V c n h = iprop(iprop(owns (c : Thread nD τ) scM0 fullShare ((outsAt0 V c (n - 1) (by omega)).2) ∗ scRest (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = (outsAt0 V c t.val t.isLt).1 := by dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves in the inputs' buffers: their blocks. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- Input window 0's current staging buffer holds its block at every point, fetched there or not: unfetched, the
    block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not: unfetched, the
    block index has not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not: unfetched, the
    block index has not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not: unfetched, the
    block index has not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not: unfetched, the
    block index has not moved, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not: unfetched, the
    block index has not moved, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4800000 in
/-- The body at any point: the inputs' memrefs hold their blocks; the parity of the point says which case it is in;
    the invariant hands the body the scratch (at anything at the first point, else at what the point before left),
    and takes it back at this point's contents; the other scoped buffers, the generator register and what the core
    owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6]
  have hN : t.val < 4 := lt_of_lt_of_eq t.isLt (show cfg0.N = 4 from N_0)
  by_cases h0 : t.val % 2 = 0
  · rw [outsAt0_A V c t h0]
    unfold out0_A_6 sout0_A; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0 t).mpr h0) (iblk0 V c 0 t) (iblk0 V c 1 t) (iblk0 V c 2 t) (iblk0 V c 3 t) (iblk0 V c 4 t) (iblk0 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0 t).mpr h0) (iblk0 V c 0 t) (iblk0 V c 1 t) (iblk0 V c 2 t) (iblk0 V c 3 t) (iblk0 V c 4 t) (iblk0 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B V c t h0]
    unfold out0_B_6 sout0_B; (try dsimp only)
    by_cases hz : t.val = 0
    · exfalso; omega
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- After the last point the invariant gives the class invariant back: the scratch's named contents are forgotten. -/
theorem hout0 (c : Dev nD) : (dat0 V c).Φ (Fin.last cfg0.N) ⊢ Pipeline.ΦA spec0 c :=
  Phi_out0 V c _ (by rw [Fin.val_last]; have : cfg0.N = 4 := N_0; omega)

/-! ## The contents point by point, in closed form -/

/-- The input blocks at their literal types. -/
abbrev blk0_0 (c : Dev nD) (t : Fin cfg0.N) : Vec F S128x1024 .f32 := iblk0 V c 0 t
abbrev blk0_1 (c : Dev nD) (t : Fin cfg0.N) : Vec F S1x128x1024 .f32 := iblk0 V c 1 t
abbrev blk0_2 (c : Dev nD) (t : Fin cfg0.N) : Vec F S1x3072x1024 .bf16 := iblk0 V c 2 t
abbrev blk0_3 (c : Dev nD) (t : Fin cfg0.N) : Vec F S1x3072x1024 .bf16 := iblk0 V c 3 t
abbrev blk0_4 (c : Dev nD) (t : Fin cfg0.N) : Vec F S2x3072 .f32 := iblk0 V c 4 t
abbrev blk0_5 (c : Dev nD) (t : Fin cfg0.N) : Vec F S2x3072 .f32 := iblk0 V c 5 t

/-- At an even point (first layer): the cell's update from the input tile, in the output block and in the scratch. -/
theorem outsAt0_even (c : Dev nD) (t : Fin cfg0.N) (h : t.val % 2 = 0) :
    outsAt0 V c t.val t.isLt = (k0_pay2 (k0_pay5 (blk0_1 V c t)) (k0_pay8 (k0_pay4 (blk0_0 V c t)) (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (k0_pay9 (k0_pay4 (blk0_0 V c t)) (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (Scalar.ofBits .f32 0x3F800000#32), k0_pay3 (k0_pay5 (blk0_1 V c t)) (k0_pay8 (k0_pay4 (blk0_0 V c t)) (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (k0_pay9 (k0_pay4 (blk0_0 V c t)) (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (Scalar.ofBits .f32 0x3F800000#32)) := by
  rw [outsAt0_A V c t h, out0_A_6_eq, sout0_A_eq]

/-- At an odd point (second layer): the update from what the point before left in the scratch. -/
theorem outsAt0_odd (c : Dev nD) (t : Fin cfg0.N) (h : t.val % 2 ≠ 0) :
    outsAt0 V c t.val t.isLt = (k0_pay2 (k0_pay5 (blk0_1 V c t)) (k0_pay8 (outsAt0 V c (t.val - 1) (Nat.lt_of_le_of_lt (Nat.sub_le _ _) t.isLt)).2 (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (k0_pay9 (outsAt0 V c (t.val - 1) (Nat.lt_of_le_of_lt (Nat.sub_le _ _) t.isLt)).2 (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (Scalar.ofBits .f32 0x3F800000#32), k0_pay3 (k0_pay5 (blk0_1 V c t)) (k0_pay8 (outsAt0 V c (t.val - 1) (Nat.lt_of_le_of_lt (Nat.sub_le _ _) t.isLt)).2 (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (k0_pay9 (outsAt0 V c (t.val - 1) (Nat.lt_of_le_of_lt (Nat.sub_le _ _) t.isLt)).2 (blk0_1 V c t) (blk0_2 V c t) (blk0_3 V c t) (View.ld (blk0_4 V c t) (Rect.unit (s := S2x3072) (k0_off1 (grid0.coords t)) S1x3072.size (k0_off1_inb (grid0.coords t)))) (View.ld (blk0_5 V c t) (Rect.unit (s := S2x3072) (k0_off1 (grid0.coords t)) S1x3072.size (k0_off1_inb (grid0.coords t))))) (Scalar.ofBits .f32 0x3F800000#32)) := by
  rw [outsAt0_B V c t h, out0_B_6_eq, sout0_B_eq]

end Cert.KernelIdeal.Reg0

end
-- ==== Proof.DecCell.lean ====
/- The decoder kernel body's one stored value, read at one index, over the extended reals.

   The body narrows both operands (the identity on extended reals), contracts the activations'
   row `i` against the weights' row `j` along the shared axis of length 1024 into a zero
   accumulator, and adds the bias row broadcast down the rows. So the element at `(i, j)` is
   `∑ k, x i k * w j k + b 0 j`. -/
import proofs.«415660_j37589553774958_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DecValue

open Cert.KernelIdeal Cert.KernelIdeal.Gen Idealize.ShloMosaic Idealize.ShloMosaic.ValueIdx Idealize.SL.Sem
open scoped BigOperators

/-! ## The contraction's operand indices, axis by axis

The left operand is read at (row of the result, contraction position); the right operand, whose
contracted axis is also its second, at (column of the result, contraction position). -/

/-- Left operand, axis 0: the result's row. -/
theorem dec_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
/-- Left operand, axis 1: the contraction position. -/
theorem dec_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
/-- Right operand, axis 0: the result's column. -/
theorem dec_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
/-- Right operand, axis 1: the contraction position. -/
theorem dec_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-! ## The contraction into the zero accumulator at an index -/

/-- The contraction of two arrays of extended reals into the zero accumulator, at `(i, j)`, is the
    sum over the shared axis of the products of row `i` of the left and row `j` of the right. -/
theorem dec_matmul_apply {φ₁ φ₂ : FTy} (a : FVec Ideal S256x1024 φ₁) (b : FVec Ideal S2048x1024 φ₂) (i : Fin 256) (j : Fin 2048) :
    FloatOps.matmul dot_S256x1024_S2048x1024_S256x2048_1_1_0_0_n_n none a b (constant (F := Ideal) S256x2048 .f32 0x00000000#32) (ix2 i j)
      = ∑ k : Fin 1024, a (ix2 i k) * b (ix2 j k) := by
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 i j) ((contrEquiv1 dot_S256x1024_S2048x1024_S256x2048_1_1_0_0_n_n 1024 rfl rfl).symm k) = ix2 i k := funext fun c => Fin.ext (by
    match c with
    | ⟨0, _⟩ => exact dec_lhs_0 _ _
    | ⟨1, _⟩ => exact (dec_lhs_1 _ _).trans hk)
  have er : dot_S256x1024_S2048x1024_S256x2048_1_1_0_0_n_n.rhsIdx (ix2 i j) ((contrEquiv1 dot_S256x1024_S2048x1024_S256x2048_1_1_0_0_n_n 1024 rfl rfl).symm k) = ix2 j k := funext fun c => Fin.ext (by
    match c with
    | ⟨0, _⟩ => exact dec_rhs_0 _ _
    | ⟨1, _⟩ => exact (dec_rhs_1 _ _).trans hk)
  rw [el, er]

/-! ## The bias row broadcast down the rows -/

/-- A one-row array broadcast to 256 rows reads, at `(i, j)`, the row's entry `j`. -/
theorem dec_bias_apply {α : Type} (x : S1x2048.Idx → α) (h : S1x2048.Broadcasts S256x2048) (i : Fin 256) (j : Fin 2048) :
    broadcastTo S256x2048 x h (ix2 i j) = x (ix2 (0 : Fin 1) j) :=
  broadcastTo_apply x h (ix2 i j) (ix2 (0 : Fin 1) j) (fun c => match c with
    | ⟨0, _⟩ => by show 0 = if (1 : Nat) = 1 then 0 else i.val; rw [if_pos rfl]
    | ⟨1, _⟩ => by show j.val = if (2048 : Nat) = 1 then 0 else j.val; rw [if_neg (by decide)])

/-! ## The stored value at an index -/

/-- The decoder body's stored value at `(i, j)`: row `i` of the activations against row `j` of the
    weights, plus entry `j` of the bias row. -/
theorem dec_apply (v0 : Vec Ideal S256x1024 .f32) (v3 : Vec Ideal S2048x1024 .f32) (v5 : Vec Ideal S1x2048 .f32) (i : Fin 256) (j : Fin 2048) :
    k1_pay1 (F := Ideal) v0 v3 v5 (ix2 i j) = (∑ k : Fin 1024, v0 (ix2 i k) * v3 (ix2 j k)) + v5 (ix2 (0 : Fin 1) j) := by
  unfold k1_pay1
  rw [addf_apply, shapeCast_self, shapeCast_self, dec_bias_apply]
  refine congrArg (· + v5 (ix2 (0 : Fin 1) j)) ?_
  exact (dec_matmul_apply _ _ i j).trans (Finset.sum_congr rfl fun k _ => rfl)

end Cert.KernelIdeal.DecValue

end
-- ==== Proof.KIReg1.lean ====
/- Region 1 (the decoder, 25 column tiles, the last one cut at the array's end), over the extended reals:
   what the body finds in each window's buffer, what it leaves, and that what it leaves inside the array
   does not depend on what lies past the array's end in the two cut input blocks. -/
import proofs.«415660_j37589553774958_3_alg».proof.Proof.Gen.KernelIdeal.Launch
import proofs.«415660_j37589553774958_3_alg».proof.Proof.Gen.KernelIdeal.Skeleton
import proofs.«415660_j37589553774958_3_alg».proof.Proof.Gen.KernelIdeal.Points
import proofs.«415660_j37589553774958_3_alg».proof.Proof.DecCell
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx Cert.KernelIdeal.DecValue

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- What the output window's staging buffer holds after the body at point `t` (stated on the part inside the array):
    the body's stored value of the three input blocks, the two cut ones filled out with zeros. -/
def out1_3 (V : (c : Dev nD) → (b : Ref sig .tc) → Buf (Elt Ideal) ((c : Thread nD τ).loc b)) (c : Dev nD) (t : Fin cfg1.N) : Vec Ideal S256x2048 .f32 :=
  k1_pay1 (F := Ideal) (iblk1 V c 0 t)
    (win1_1.fill (grid1.coords t) (fun _ => Scalar.ofBits (F := Ideal) .f32 0#32) (iblk1 V c 1 t))
    (win1_2.fill (grid1.coords t) (fun _ => Scalar.ofBits (F := Ideal) .f32 0#32) (iblk1 V c 2 t))

def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => win1_1.fill (grid1.coords t) (fun _ => Scalar.ofBits (F := Ideal) .f32 0#32) (iblk1 V c 1 t)
    | ⟨2, _⟩ => win1_2.fill (grid1.coords t) (fun _ => Scalar.ofBits (F := Ideal) .f32 0#32) (iblk1 V c 2 t)
    | ⟨3, _⟩ => out1_3 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) :
    (dat1 V c).after 1 t = win1_1.fill (grid1.coords t) (fun _ => Scalar.ofBits (F := Ideal) .f32 0#32) (iblk1 V c 1 t) := by dsimp only [dat1]
theorem after1_2 (c : Dev nD) (t : Fin cfg1.N) :
    (dat1 V c).after 2 t = win1_2.fill (grid1.coords t) (fun _ => Scalar.ofBits (F := Ideal) .f32 0#32) (iblk1 V c 2 t) := by dsimp only [dat1]
theorem after1_3 (c : Dev nD) (t : Fin cfg1.N) : (dat1 V c).after 3 t = out1_3 V c t := by dsimp only [dat1]

/-! ## What the body finds in each buffer -/

/-- The rows' buffer holds the rows at every point, fetched there or not: its block never moves and is not cut. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The table's buffer, fetched at every point: the block inside the array, anything past its end. -/
theorem before1_1 (c : Dev nD) (t : Fin cfg1.N) (d) :
    (dat1 V c).before 1 t d = win1_1.fill (grid1.coords t) d (iblk1 V c 1 t) := by
  unfold Dat.before; rw [if_pos (fetch1_1 t)]; rfl

/-- The bias's buffer likewise. -/
theorem before1_2 (c : Dev nD) (t : Fin cfg1.N) (d) :
    (dat1 V c).before 2 t d = win1_2.fill (grid1.coords t) d (iblk1 V c 2 t) := by
  unfold Dat.before; rw [if_pos (fetch1_2 t)]; rfl

/-- The result's buffer, written back at every point, holds contents nothing names. -/
theorem before1_3 (c : Dev nD) (t : Fin cfg1.N) (d) : (dat1 V c).before 3 t d = d := by
  have hf : (cfg1.win 3).fetch t = false := rfl
  by_cases ht : t.val = 0
  · unfold Dat.before; rw [hf, if_neg Bool.false_ne_true, if_pos ht]
  · rw [(dat1 V c).before_of_pos 3 t ht hf d, if_pos (flush1_3 _)]

/-! ## The body's accesses and its triple -/

abbrev rA : Rect S256x1024 := Rect.unit (s := S256x1024) ![0, 0] S256x1024.size inb_S256x1024_S256x1024_0_0
abbrev rB : Rect S2048x1024 := Rect.unit (s := S2048x1024) ![0, 0] S2048x1024.size inb_S2048x1024_S2048x1024_0_0
abbrev rC : Rect S1x2048 := Rect.unit (s := S1x2048) ![0, 0] S1x2048.size inb_S1x2048_S1x2048_0_0
abbrev rD : Rect S256x2048 := Rect.unit (s := S256x2048) ![0, 0] S256x2048.size inb_S256x2048_S256x2048_0_0

/-- The one store is of the whole result block, so it covers it. -/
theorem coverD (p0 : Vec Ideal S256x2048 .f32) (y : S256x2048.Idx) :
    ∃ pc ∈ ([⟨rD, p0⟩] : List (View.Piece (Elt Ideal) S256x2048 .f32)), y ∈ pc.1.set :=
  View.cover_of_tiled [⟨rD, p0⟩] S256x2048.size (by rfl) y

theorem zero2 : (![0, 0] : Fin 2 → Nat) = fun _ => 0 := funext fun a => by fin_cases a <;> rfl

set_option maxHeartbeats 1000000 in
/-- The body on whole staging memrefs holding `x0`, `x1`, `x2` and anything: it leaves the three inputs as they
    were and the result's buffer at the stored value of the three. -/
theorem sound_kernel1 (c : Dev nD) (E : Set ℕ) (i : grid1.Coords)
    (arg1 : Memref sig .tc .vmem S256x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S256x2048 .f32) (harg4 : arg4.IsWhole)
    (x0 : Vec Ideal S256x1024 .f32) (x1 : Vec Ideal S2048x1024 .f32) (x2 : Vec Ideal S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k1_pay1 (F := Ideal) x0 x1 x2)) -∗ K ⟨⟩))
      ⊢ wp frame (wpE (defs₀ (F := Ideal)) Variants.none c none) E (cc1__decoder_kernel i arg1 harg1 arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (coverD _)).trans ?_
  rw [View.canon_unit_zero zero2]
  show k1_pay1 (F := Ideal) (View.ld (arg1.view.read (Elt Ideal) f0) rA) (View.ld (arg2.view.read (Elt Ideal) f1) rB)
    (View.ld (arg3.view.read (Elt Ideal) f2) rC) = _
  rw [View.ld_unit_zero zero2, View.ld_unit_zero zero2, View.ld_unit_zero zero2]

/-! ## What the body stores inside the array does not see past the array's end -/

/-- Two fillings of a cut block agree wherever the transfer moves. -/
theorem fill_agree {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- At every tile the table's block is cut on its rows where the result's is cut on its columns, and so is the
    bias's on its columns; neither is cut on its other axis. -/
theorem xsizes (t : Fin cfg1.N) :
    win1_1.xsize (grid1.coords t) 0 = win1_3.xsize (grid1.coords t) 1 ∧ win1_1.xsize (grid1.coords t) 1 = 1024
      ∧ win1_2.xsize (grid1.coords t) 0 = 1 ∧ win1_2.xsize (grid1.coords t) 1 = win1_3.xsize (grid1.coords t) 1 :=
  (by decide +kernel : ∀ t : Fin grid1.N,
    win1_1.xsize (grid1.coords t) 0 = win1_3.xsize (grid1.coords t) 1 ∧ win1_1.xsize (grid1.coords t) 1 = 1024
      ∧ win1_2.xsize (grid1.coords t) 0 = 1 ∧ win1_2.xsize (grid1.coords t) 1 = win1_3.xsize (grid1.coords t) 1) t

/-- Column `q` of the stored value reads row `q` of the table's block and entry `q` of the bias's: inside the
    array on the columns, both lie inside their arrays, where a filled block is the block itself. -/
theorem cut_pay_indep (t : Fin cfg1.N) (X0 : Vec Ideal S256x1024 .f32)
    (d1 d1' : S2048x1024.Idx → Elt Ideal .f32) (B1 : (win1_1.xblock (grid1.coords t)).Idx → Elt Ideal .f32)
    (d2 d2' : S1x2048.Idx → Elt Ideal .f32) (B2 : (win1_2.xblock (grid1.coords t)).Idx → Elt Ideal .f32) :
    win1_3.cut (grid1.coords t) (k1_pay1 (F := Ideal) X0 (win1_1.fill (grid1.coords t) d1 B1) (win1_2.fill (grid1.coords t) d2 B2))
      = win1_3.cut (grid1.coords t) (k1_pay1 (F := Ideal) X0 (win1_1.fill (grid1.coords t) d1' B1) (win1_2.fill (grid1.coords t) d2' B2)) := by
  funext j
  obtain ⟨hx10, hx11, hx20, hx21⟩ := xsizes t
  obtain ⟨p, q, hpq, hq⟩ : ∃ (p : Fin 256) (q : Fin 2048),
      (win1_3.xinj (grid1.coords t) j : S256x2048.Idx) = ix2 p q ∧ q.val < win1_3.xsize (grid1.coords t) 1 :=
    ⟨_, _, eq_ix2 _, (j 1).isLt⟩
  show k1_pay1 (F := Ideal) X0 _ _ (win1_3.xinj (grid1.coords t) j : S256x2048.Idx)
    = k1_pay1 (F := Ideal) X0 _ _ (win1_3.xinj (grid1.coords t) j : S256x2048.Idx)
  rw [hpq, dec_apply, dec_apply]
  have h1 : ∀ k : Fin 1024, win1_1.fill (grid1.coords t) d1 B1 (ix2 q k) = win1_1.fill (grid1.coords t) d1' B1 (ix2 q k) := fun k =>
    fill_agree win1_1 _ d1 d1' B1 ((win1_1.moved_iff _ _).mpr fun a => match a with
      | ⟨0, _⟩ => by show q.val < win1_1.xsize (grid1.coords t) 0; rw [hx10]; exact hq
      | ⟨1, _⟩ => by show k.val < win1_1.xsize (grid1.coords t) 1; rw [hx11]; exact k.isLt)
  have h2 : win1_2.fill (grid1.coords t) d2 B2 (ix2 (0 : Fin 1) q) = win1_2.fill (grid1.coords t) d2' B2 (ix2 (0 : Fin 1) q) :=
    fill_agree win1_2 _ d2 d2' B2 ((win1_2.moved_iff _ _).mpr fun a => match a with
      | ⟨0, _⟩ => by show (0 : Nat) < win1_2.xsize (grid1.coords t) 0; rw [hx20]; exact Nat.one_pos
      | ⟨1, _⟩ => by show q.val < win1_2.xsize (grid1.coords t) 1; rw [hx21]; exact hq)
  rw [h2]
  exact congrArg (· + _) (Finset.sum_congr rfl fun k _ => by rw [h1 k])

/-! ## The body obligation -/

/-- At every tile: the rows' buffer holds the rows; the table's and the bias's hold their blocks, anything past the
    arrays' ends; the body leaves those as they were and stores its value of the three; inside the array that value is
    the one of the blocks filled out with zeros, which is all the obligation states of a cut window. -/
theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after1_0]; iexact H0
  isplitl [H1]
  · iexists d1
    rw [after1_1, win1_1.cut_fill]; iexact H1
  isplitl [H2]
  · iexists d2
    rw [after1_2, win1_2.cut_fill]; iexact H2
  · iexists k1_pay1 (F := Ideal) (iblk1 V c 0 t) (win1_1.fill (grid1.coords t) d1 (iblk1 V c 1 t)) (win1_2.fill (grid1.coords t) d2 (iblk1 V c 2 t))
    rw [after1_3]; unfold out1_3
    rw [cut_pay_indep t (iblk1 V c 0 t) _ d1 (iblk1 V c 1 t) _ d2 (iblk1 V c 2 t), win1_3.fill_cut]
    iexact H3

end Cert.KernelIdeal.Reg1

end
-- ==== Proof.KIRun.lean ====
/-
  The run of @main at any float instance: host stretch, the GRU region, host stretch, the decoder region.
  Between items every unscoped buffer of a core is held whole at a named valuation (`B0` … `B4`): the launch
  memory, then each host stretch applied, then after a region its windows' arrays at what the pipeline's
  write-backs leave (the proof data's `arrAt` at the last point) and every other buffer as entered. Every weakly
  fair execution ends with each unscoped buffer at `B4`; an argument array read through the fold is what was
  launched (no host operation writes one; a region stages it through an input window or passes it by), the two
  result arrays are the regions' output arrays.
-/
import proofs.«415660_j37589553774958_3_alg».proof.Proof.KIReg0
import proofs.«415660_j37589553774958_3_alg».proof.Proof.KIReg1
import proofs.«415660_j37589553774958_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Reg0 Cert.KernelIdeal.Reg1

variable (m : (ℓ : Loc nD τ sig) → Buf (Elt Ideal) ℓ) (ρ : Dev nD → PrngReg)

/-! ## The buffers' contents at each boundary -/

/-- At launch. -/
abbrev B0 : Dev nD → Valuation τ sig (Elt Ideal) := fun c b => m (c, b)
/-- After the first host stretch: the GRU region's entry. -/
abbrev B1 : Dev nD → Valuation τ sig (Elt Ideal) := fun c => StableHlo.after hostOps0 (B0 m c)
/-- The same read at the TensorCore's references. -/
abbrev E1 : (c : Dev nD) → (b : Ref sig .tc) → Buf (Elt Ideal) ((c : Thread nD τ).loc b) := fun c b => B1 m c b
/-- At the GRU region's exit: its arrays at what the pipeline leaves, every other buffer as entered. -/
def B2 (c : Dev nD) : Valuation τ sig (Elt Ideal) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt Ideal) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch: the decoder region's entry. -/
abbrev B3 : Dev nD → Valuation τ sig (Elt Ideal) := fun c => StableHlo.after hostOps1 (B2 m c)
abbrev E3 : (c : Dev nD) → (b : Ref sig .tc) → Buf (Elt Ideal) ((c : Thread nD τ).loc b) := fun c b => B3 m c b
/-- At the decoder region's exit. -/
def B4 (c : Dev nD) : Valuation τ sig (Elt Ideal) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt Ideal) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- A host stretch leaves a buffer it does not write as it found it. -/
theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h

/-! ## The proof data family and what rides beside the buffers -/

def pdats : (p : Fin 2) → (c : Dev nD) → Dat τ (Elt Ideal) Unit ℕ (UR sig nD τ) ℕ (Pipeline.pin (pcfgs (F := Ideal)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The regions as segments -/

set_option backward.isDefEq.respectTransparency.types false in
/-- The GRU region: entered from every unscoped buffer at `B1`, left at `B2`; the generator register and the scoped
    buffers into the region invariant and out (the scratch's contents forgotten at the exit); nothing owed. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := Ideal) 0).pre c (fun _ => fullShare) (adm (F := Ideal) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (E1 m) c)
  hout c := by
    rw [Pipeline.ownSems0_none]
    have h1 : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (E1 m) c).trans h1
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder region: entered from every unscoped buffer at `B3`, left at `B4`; its invariant is the scoped
    rest and the generator register, untouched; nothing owed. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E3 m) c
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := Ideal) c = Pipeline.Seg.run (segs m) := (main_chain c).trans (by chain_rfl)

set_option backward.isDefEq.respectTransparency.types false in
/-- Every weakly fair execution of @main from memory `m` with zero counters terminates, nothing faulting, with every
    unscoped buffer of every core at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.KernelIdeal.Run

end
-- ==== Proof.KIRunVals.lean ====
/-
  The boundary valuations of the run read at the buffers the value claim needs. Before the GRU region the
  gathered embedding rows and the two weight arrays' bf16 copies are what the first host stretch computes from
  the arguments; before the decoder region its input rows are layer 1 of what the GRU region left, its bias the
  reshaped argument; the two results are the regions' output arrays as the pipelines leave them; every argument
  array is, at every boundary, what was launched.
-/
import proofs.«415660_j37589553774958_3_alg».proof.Proof.KIRun
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Reg0 Cert.KernelIdeal.Reg1

variable (m : (ℓ : Loc nD τ sig) → Buf (Elt Ideal) ℓ)

/-- A row index, wrapped when negative: `ids < 0 ? ids + 50000 : ids`. -/
def wrapIds (ids : (⟨S256, .i32⟩ : BufTy).Contents (Elt Ideal)) : (⟨S256, .i32⟩ : BufTy).Contents (Elt Ideal) :=
  select (cmpi .slt ids (broadcastInDim S256 ![] bcast_S_S256 (constantI S_ 32 0#32)))
    (addi ids (broadcastInDim S256 ![] bcast_S_S256 (constantI S_ 32 50000#32))) ids

/-- The embedding rows the program gathers. -/
def gathered (ids : (⟨S256, .i32⟩ : BufTy).Contents (Elt Ideal)) (emb : (⟨S50000x1024, .f32⟩ : BufTy).Contents (Elt Ideal)) :
    (⟨S256x1024, .f32⟩ : BufTy).Contents (Elt Ideal) :=
  Host.gather gather_S50000x1024_S256x1_S256x1024_1_0_n_n_0_1_11024 emb
    (broadcastInDim S256x1 ![0] bcast_S256_S256x1_0 (wrapIds ids))

theorem E1_main_v6 (c : Dev nD) :
    E1 m c main_v6 = gathered (m ((c : Thread nD τ).loc main_arg0)) (m ((c : Thread nD τ).loc main_arg2)) := by
  show StableHlo.after hostOps0 (fun b => m (c, b)) (Proc.devRef .tc main_v6) = _
  after_results
  rfl

theorem E1_main_v7 (c : Dev nD) :
    E1 m c main_v7 = (truncf (F := Ideal) .bf16 (m ((c : Thread nD τ).loc main_arg3) : FVec Ideal S2x3072x1024 .f32) bitsLt_bf16_f32 : FVec Ideal S2x3072x1024 .bf16) := by
  show StableHlo.after hostOps0 (fun b => m (c, b)) (Proc.devRef .tc main_v7) = _
  after_results

theorem E1_main_v8 (c : Dev nD) :
    E1 m c main_v8 = (truncf (F := Ideal) .bf16 (m ((c : Thread nD τ).loc main_arg4) : FVec Ideal S2x3072x1024 .f32) bitsLt_bf16_f32 : FVec Ideal S2x3072x1024 .bf16) := by
  show StableHlo.after hostOps0 (fun b => m (c, b)) (Proc.devRef .tc main_v8) = _
  after_results

theorem E1_main_arg1 (c : Dev nD) : E1 m c main_arg1 = m ((c : Thread nD τ).loc main_arg1) := B1_of m c main_arg1 (by decide)
theorem E1_main_arg5 (c : Dev nD) : E1 m c main_arg5 = m ((c : Thread nD τ).loc main_arg5) := B1_of m c main_arg5 (by decide)
theorem E1_main_arg6 (c : Dev nD) : E1 m c main_arg6 = m ((c : Thread nD τ).loc main_arg6) := B1_of m c main_arg6 (by decide)

/-! ## The decoder region's entry contents -/

theorem E3_main_v11 (c : Dev nD) :
    E3 m c main_v11 = shapeCast S256x1024 (extractStridedSlice S1x256x1024 ![1, 0, 0] (B2 m c main_v9) slices_S2x256x1024_S1x256x1024_1_0_0)
      shapeCasts_S1x256x1024_S256x1024 := by
  show StableHlo.after hostOps1 (B2 m c) (Proc.devRef .tc main_v11) = _
  after_results
  try rfl

theorem E3_main_v12 (c : Dev nD) :
    E3 m c main_v12 = shapeCast S1x50000 (B2 m c main_arg8) shapeCasts_S50000_S1x50000 := by
  show StableHlo.after hostOps1 (B2 m c) (Proc.devRef .tc main_v12) = _
  after_results
  try rfl

/-! ## The results -/

/-- The stacked state is the GRU region's output array as its pipeline leaves it: nothing later writes it. -/
theorem B4_main_v9 (c : Dev nD) : B4 m c main_v9 = (dat0 (E1 m) c).arrAt 6 cfg0.N :=
  (B4_of_ne m c main_v9 (by decide)).trans <| (B3_of m c main_v9 (by decide)).trans <| B2_arr m c 6

/-- The logits are the decoder region's output array as its pipeline leaves it. -/
theorem B4_main_v13 (c : Dev nD) : B4 m c main_v13 = (dat1 (E3 m) c).arrAt 3 cfg1.N := B4_arr m c 3

/-! ## The arguments reach every boundary as launched -/

theorem B2_main_arg0 (c : Dev nD) : B2 m c main_arg0 = m ((c : Thread nD τ).loc main_arg0) :=
  (B2_of_ne m c main_arg0 (by decide)).trans (B1_of m c main_arg0 (by decide))
theorem B2_main_arg1 (c : Dev nD) : B2 m c main_arg1 = m ((c : Thread nD τ).loc main_arg1) :=
  (B2_arr m c 1).trans <| ((dat0 (E1 m) c).arrAt_in 1 rfl _).trans <| (A_eq0 (E1 m) c 1).trans (B1_of m c main_arg1 (by decide))
theorem B2_main_arg2 (c : Dev nD) : B2 m c main_arg2 = m ((c : Thread nD τ).loc main_arg2) :=
  (B2_of_ne m c main_arg2 (by decide)).trans (B1_of m c main_arg2 (by decide))
theorem B2_main_arg3 (c : Dev nD) : B2 m c main_arg3 = m ((c : Thread nD τ).loc main_arg3) :=
  (B2_of_ne m c main_arg3 (by decide)).trans (B1_of m c main_arg3 (by decide))
theorem B2_main_arg4 (c : Dev nD) : B2 m c main_arg4 = m ((c : Thread nD τ).loc main_arg4) :=
  (B2_of_ne m c main_arg4 (by decide)).trans (B1_of m c main_arg4 (by decide))
theorem B2_main_arg5 (c : Dev nD) : B2 m c main_arg5 = m ((c : Thread nD τ).loc main_arg5) :=
  (B2_arr m c 4).trans <| ((dat0 (E1 m) c).arrAt_in 4 rfl _).trans <| (A_eq0 (E1 m) c 4).trans (B1_of m c main_arg5 (by decide))
theorem B2_main_arg6 (c : Dev nD) : B2 m c main_arg6 = m ((c : Thread nD τ).loc main_arg6) :=
  (B2_arr m c 5).trans <| ((dat0 (E1 m) c).arrAt_in 5 rfl _).trans <| (A_eq0 (E1 m) c 5).trans (B1_of m c main_arg6 (by decide))
theorem B2_main_arg7 (c : Dev nD) : B2 m c main_arg7 = m ((c : Thread nD τ).loc main_arg7) :=
  (B2_of_ne m c main_arg7 (by decide)).trans (B1_of m c main_arg7 (by decide))
theorem B2_main_arg8 (c : Dev nD) : B2 m c main_arg8 = m ((c : Thread nD τ).loc main_arg8) :=
  (B2_of_ne m c main_arg8 (by decide)).trans (B1_of m c main_arg8 (by decide))

theorem E3_main_arg7 (c : Dev nD) : E3 m c main_arg7 = m ((c : Thread nD τ).loc main_arg7) :=
  (B3_of m c main_arg7 (by decide)).trans (B2_main_arg7 m c)

theorem B4_main_arg0 (c : Dev nD) : B4 m c main_arg0 = m ((c : Thread nD τ).loc main_arg0) :=
  (B4_of_ne m c main_arg0 (by decide)).trans <| (B3_of m c main_arg0 (by decide)).trans (B2_main_arg0 m c)
theorem B4_main_arg1 (c : Dev nD) : B4 m c main_arg1 = m ((c : Thread nD τ).loc main_arg1) :=
  (B4_of_ne m c main_arg1 (by decide)).trans <| (B3_of m c main_arg1 (by decide)).trans (B2_main_arg1 m c)
theorem B4_main_arg2 (c : Dev nD) : B4 m c main_arg2 = m ((c : Thread nD τ).loc main_arg2) :=
  (B4_of_ne m c main_arg2 (by decide)).trans <| (B3_of m c main_arg2 (by decide)).trans (B2_main_arg2 m c)
theorem B4_main_arg3 (c : Dev nD) : B4 m c main_arg3 = m ((c : Thread nD τ).loc main_arg3) :=
  (B4_of_ne m c main_arg3 (by decide)).trans <| (B3_of m c main_arg3 (by decide)).trans (B2_main_arg3 m c)
theorem B4_main_arg4 (c : Dev nD) : B4 m c main_arg4 = m ((c : Thread nD τ).loc main_arg4) :=
  (B4_of_ne m c main_arg4 (by decide)).trans <| (B3_of m c main_arg4 (by decide)).trans (B2_main_arg4 m c)
theorem B4_main_arg5 (c : Dev nD) : B4 m c main_arg5 = m ((c : Thread nD τ).loc main_arg5) :=
  (B4_of_ne m c main_arg5 (by decide)).trans <| (B3_of m c main_arg5 (by decide)).trans (B2_main_arg5 m c)
theorem B4_main_arg6 (c : Dev nD) : B4 m c main_arg6 = m ((c : Thread nD τ).loc main_arg6) :=
  (B4_of_ne m c main_arg6 (by decide)).trans <| (B3_of m c main_arg6 (by decide)).trans (B2_main_arg6 m c)
theorem B4_main_arg7 (c : Dev nD) : B4 m c main_arg7 = m ((c : Thread nD τ).loc main_arg7) :=
  (B4_arr m c 1).trans <| ((dat1 (E3 m) c).arrAt_in 1 rfl _).trans <| (A_eq1 (E3 m) c 1).trans (E3_main_arg7 m c)
theorem B4_main_arg8 (c : Dev nD) : B4 m c main_arg8 = m ((c : Thread nD τ).loc main_arg8) :=
  (B4_of_ne m c main_arg8 (by decide)).trans <| (B3_of m c main_arg8 (by decide)).trans (B2_main_arg8 m c)

end Cert.KernelIdeal.Run

end
-- ==== Proof.Spec.lean ====
/-
  The mathematics both programs compute, index by index, at the extended reals.

  One step of a two-layer GRU on 256 rows of width 1024, then a linear decoder onto 50000 columns.
  For layer `l`, row `i` and column `q < 3072`, an affine pre-activation is
      pre x W b l i q = (∑ k < 1024, x[i,k] · W[l,q,k]) + b[l,q].
  The 3072 columns are three gates of 1024: reset (0‥1023), update (1024‥2047), candidate (2048‥3071). With
  `gi = pre x w_ih b_ih` and `gh = pre h w_hh b_hh`,
      r = σ(gi₀ + gh₀),  z = σ(gi₁ + gh₁),  n = tanh(gi₂ + r · gh₂),  h' = (1 − z) · n + z · h,
  where σ is the logistic function `1 / (1 + e^(−x))` on the extended reals. Layer 0 takes the gathered
  embedding rows as `x`; layer 1 takes layer 0's `h'`. The logits are `h'₁ · dec_wᵀ + dec_b`.
  Nothing here distributes a product over a sum or cancels: the two programs are compared term by term.
-/
import Idealize.ShloMosaic.PureOps.Ideal
import Idealize.ShloMosaic.Lib.ValueIdx

noncomputable section

namespace Cert.Spec

open Idealize.ShloMosaic Idealize.ShloMosaic.ValueIdx

/-- Rows × width. -/
abbrev SBH : Shape := ⟨2, ![256, 1024]⟩
/-- Layers × rows × width. -/
abbrev SLBH : Shape := ⟨3, ![2, 256, 1024]⟩
/-- Layers × gate columns × width. -/
abbrev SW : Shape := ⟨3, ![2, 3072, 1024]⟩
/-- Layers × gate columns. -/
abbrev SB : Shape := ⟨2, ![2, 3072]⟩
/-- Vocabulary × width. -/
abbrev SVH : Shape := ⟨2, ![50000, 1024]⟩
/-- Vocabulary. -/
abbrev SV : Shape := ⟨1, ![50000]⟩
/-- Rows × vocabulary. -/
abbrev SBV : Shape := ⟨2, ![256, 50000]⟩

/-- The float word of `1.0`, read at the extended reals. -/
abbrev one : Ideal .f32 := Ideal.ofBits .f32 0x3F800000#32

/-- Column `j` of gate `g` among the 3072 gate columns. -/
def col (g : Fin 3) (j : Fin 1024) : Fin 3072 := ⟨g.val * 1024 + j.val, by have := g.isLt; have := j.isLt; omega⟩

/-- The affine pre-activation of layer `l` at row `i`, gate column `q`. -/
def pre (x : FVec Ideal SBH .f32) (w : FVec Ideal SW .f32) (b : FVec Ideal SB .f32) (l : Fin 2) (i : Fin 256) (q : Fin 3072) :
    Ideal .f32 :=
  (∑ k : Fin 1024, x (ix2 i k) * w (ix3 l q k)) + b (ix2 l q)

/-- Layer `l` of the stacked state as a rows × width array. -/
def layer (h : FVec Ideal SLBH .f32) (l : Fin 2) : FVec Ideal SBH .f32 := fun y => h (ix3 l (y 0) (y 1))

/-- One GRU cell of layer `l`: input `x`, previous state `hl`. -/
def cell (x hl : FVec Ideal SBH .f32) (wih whh : FVec Ideal SW .f32) (bih bhh : FVec Ideal SB .f32) (l : Fin 2) :
    FVec Ideal SBH .f32 := fun y =>
  let i : Fin 256 := y 0
  let j : Fin 1024 := y 1
  let r : Ideal .f32 := Ideal.logistic (pre x wih bih l i (col 0 j) + pre hl whh bhh l i (col 0 j))
  let z : Ideal .f32 := Ideal.logistic (pre x wih bih l i (col 1 j) + pre hl whh bhh l i (col 1 j))
  let n : Ideal .f32 := Ideal.tanh (pre x wih bih l i (col 2 j) + r * pre hl whh bhh l i (col 2 j))
  (one - z) * n + z * hl (ix2 i j)

/-- Layer 0's new state. -/
def h0 (x0 : FVec Ideal SBH .f32) (h : FVec Ideal SLBH .f32) (wih whh : FVec Ideal SW .f32) (bih bhh : FVec Ideal SB .f32) :
    FVec Ideal SBH .f32 := cell x0 (layer h 0) wih whh bih bhh 0

/-- Layer 1's new state: its input is layer 0's. -/
def h1 (x0 : FVec Ideal SBH .f32) (h : FVec Ideal SLBH .f32) (wih whh : FVec Ideal SW .f32) (bih bhh : FVec Ideal SB .f32) :
    FVec Ideal SBH .f32 := cell (h0 x0 h wih whh bih bhh) (layer h 1) wih whh bih bhh 1

/-- The stacked new state: layer 0's rows, then layer 1's. -/
def hidden (x0 : FVec Ideal SBH .f32) (h : FVec Ideal SLBH .f32) (wih whh : FVec Ideal SW .f32) (bih bhh : FVec Ideal SB .f32) :
    FVec Ideal SLBH .f32 := fun y =>
  if (y 0).val = 0 then h0 x0 h wih whh bih bhh (ix2 (y 1) (y 2)) else h1 x0 h wih whh bih bhh (ix2 (y 1) (y 2))

/-- The decoder: row `i` of `hf` against row `v` of the table, plus the bias. -/
def logits (hf : FVec Ideal SBH .f32) (decw : FVec Ideal SVH .f32) (decb : FVec Ideal SV .f32) : FVec Ideal SBV .f32 := fun y =>
  (∑ k : Fin 1024, hf (ix2 (y 0) k) * decw (ix2 (y 1) k)) + decb (ix1 (y 1))

end Cert.Spec

end
-- ==== Proof.KILayout.lean ====
/-
  Layout facts between the two regions, at the extended reals. The decoder's input rows are layer 1 of the
  stacked state (a slice at offset 1 on the layer axis, then the unit axis dropped); its bias is the argument
  vector with a unit axis added; a change of float format is the identity, so the bf16 copies of the weight
  arrays are the arrays. And layer 1 of the specification's stacked state is the specification's second cell.
-/
import proofs.«415660_j37589553774958_3_alg».proof.Proof.KIRunVals
import proofs.«415660_j37589553774958_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Result

open Cert.KernelIdeal Cert.KernelIdeal.Gen Cert.KernelIdeal.Run
open Idealize.ShloMosaic Idealize.ShloMosaic.TcCoe Idealize.ShloMosaic.ValueIdx Idealize.SL.Sem

/-- Layer 1 sliced out of a stacked state and the unit axis dropped: row `i`, column `k` is entry `(1, i, k)`. -/
theorem layer1_of (A : FVec Ideal S2x256x1024 .f32) :
    shapeCast S256x1024 (extractStridedSlice S1x256x1024 ![1, 0, 0] A slices_S2x256x1024_S1x256x1024_1_0_0)
        shapeCasts_S1x256x1024_S256x1024
      = fun y => A (ix3 (1 : Fin 2) (y 0) (y 1)) := by
  funext y
  obtain ⟨i, k, rfl⟩ : ∃ (i : Fin 256) (k : Fin 1024), y = ix2 i k := ⟨y 0, y 1, eq_ix2 y⟩
  rw [shapeCast_1ab_ab_apply]
  exact extractStridedSlice_apply _ _ _ _ (ix3 (1 : Fin 2) i k) (fun a => by
    match a with
    | ⟨0, _⟩ => rfl
    | ⟨1, _⟩ => exact (Nat.zero_add _).symm
    | ⟨2, _⟩ => exact (Nat.zero_add _).symm)

/-- A vector with a unit axis added, read along that axis, is the vector. -/
theorem bias_of (B : FVec Ideal S50000 .f32) :
    (fun y : Cert.Spec.SV.Idx => shapeCast S1x50000 B shapeCasts_S50000_S1x50000 (ix2 (0 : Fin 1) (y 0))) = B := by
  funext y
  obtain ⟨v, rfl⟩ : ∃ v : Fin 50000, y = ix1 v := ⟨y 0, eq_ix1 y⟩
  exact shapeCast_a_1a_apply B shapeCasts_S50000_S1x50000 (0 : Fin 1) v

/-- Layer 1 of the specification's stacked state is its second cell. -/
theorem hidden_layer1 (x0 : FVec Ideal Cert.Spec.SBH .f32) (h : FVec Ideal Cert.Spec.SLBH .f32) (wih whh : FVec Ideal Cert.Spec.SW .f32)
    (bih bhh : FVec Ideal Cert.Spec.SB .f32) :
    (fun y : Cert.Spec.SBH.Idx => Cert.Spec.hidden x0 h wih whh bih bhh (ix3 (1 : Fin 2) (y 0) (y 1)))
      = Cert.Spec.h1 x0 h wih whh bih bhh := by
  funext y
  obtain ⟨i, k, rfl⟩ : ∃ (i : Fin 256) (k : Fin 1024), y = ix2 i k := ⟨y 0, y 1, eq_ix2 y⟩
  unfold Cert.Spec.hidden
  refine (if_neg ?_).trans rfl
  exact Nat.one_ne_zero

/-- A change of float format is the identity at the extended reals. -/
theorem truncf_id (A : FVec Ideal S2x3072x1024 .f32) : (truncf .bf16 A bitsLt_bf16_f32 : FVec Ideal S2x3072x1024 .bf16) = A := rfl

end Cert.KernelIdeal.Result

end
-- ==== Proof.GruCell.lean ====
/-
  One GRU cell on a tile of 128 rows, read off the kernel body's arithmetic at the extended reals.

  The body forms, for the input tile and for the state tile, the product with the transposed gate weights plus
  the gate bias (a sum over the 1024 contraction columns, no accumulator term), cuts each into the three gate
  blocks of 1024 columns, and blends: z = σ(gi₁ + gh₁), r = σ(gi₀ + gh₀), n = tanh(gi₂ + r · gh₂),
  h' = (1 − z) · n + z · h. Each step is read at one row and one column; the narrowing of the operands is the
  identity on extended reals; the leading unit axes and the row broadcast of the bias are re-indexings. With the
  loaded blocks identified with rows of the global arrays, the result is the specification's cell at the
  tile's global row, term by term.
-/
import proofs.«415660_j37589553774958_3_alg».proof.Proof.Spec
import proofs.«415660_j37589553774958_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellValue

open Idealize.ShloMosaic Idealize.ShloMosaic.ValueIdx Cert.KernelIdeal Cert.KernelIdeal.Gen

/-! ## The contraction of a 128×1024 tile against 3072×1024 weights, at an index -/

theorem lhs_axis0 (i : S128x3072.Idx) (q : dot_S128x1024_S3072x1024_S128x3072_1_1_0_0_n_n.contr.Idx) :
    (dot_S128x1024_S3072x1024_S128x3072_1_1_0_0_n_n.lhsIdx i q 0).val = (i 0).val := by
  unfold DotDims.lhsIdx
  rw [dif_neg (show ¬(0 : Fin S128x1024.rank) ∈ dot_S128x1024_S3072x1024_S128x3072_1_1_0_0_n_n.lhsBatch by decide), dif_pos (show (0 : Fin S128x1024.rank) ∈ dot_S128x1024_S3072x1024_S128x3072_1_1_0_0_n_n.lhsNonContracting by decide)]
  rfl
theorem lhs_axis1 (i : S128x3072.Idx) (q : dot_S128x1024_S3072x1024_S128x3072_1_1_0_0_n_n.contr.Idx) :
    (dot_S128x1024_S3072x1024_S128x3072_1_1_0_0_n_n.lhsIdx i q 1).val = (q ⟨0, by decide⟩).val :=
  dot_S128x1024_S3072x1024_S128x3072_1_1_0_0_n_n.lhsIdx_val_of_single rfl i q
theorem rhs_axis0 (i : S128x3072.Idx) (q : dot_S128x1024_S3072x1024_S128x3072_1_1_0_0_n_n.contr.Idx) :
    (dot_S128x1024_S3072x1024_S128x3072_1_1_0_0_n_n.rhsIdx i q 0).val = (i 1).val := by
  unfold DotDims.rhsIdx
  rw [dif_neg (show ¬(0 : Fin S3072x1024.rank) ∈ dot_S128x1024_S3072x1024_S128x3072_1_1_0_0_n_n.rhsBatch by decide), dif_pos (show (0 : Fin S3072x1024.rank) ∈ dot_S128x1024_S3072x1024_S128x3072_1_1_0_0_n_n.rhsNonContracting by decide)]
  rfl
theorem rhs_axis1 (i : S128x3072.Idx) (q : dot_S128x1024_S3072x1024_S128x3072_1_1_0_0_n_n.contr.Idx) :
    (dot_S128x1024_S3072x1024_S128x3072_1_1_0_0_n_n.rhsIdx i q 1).val = (q ⟨0, by decide⟩).val :=
  dot_S128x1024_S3072x1024_S128x3072_1_1_0_0_n_n.rhsIdx_val_of_single rfl i q

theorem mm_apply (a : FVec Ideal S128x1024 .bf16) (w : FVec Ideal S3072x1024 .bf16) (r : Fin 128) (q : Fin 3072) :
    matmul dot_S128x1024_S3072x1024_S128x3072_1_1_0_0_n_n none a w (constant (F := Ideal) S128x3072 .f32 0x00000000#32) (ix2 r q)
      = ∑ k : Fin 1024, a (ix2 r k) * w (ix2 q k) := by
  simp only [matmul]
  rw [Ideal.matmul_constant_zero_apply, ← Equiv.sum_comp (ValueIdx.contrEquiv1 dot_S128x1024_S3072x1024_S128x3072_1_1_0_0_n_n 1024 rfl rfl).symm]
  refine Finset.sum_congr rfl fun k _ => ?_
  have hk := ValueIdx.contrEquiv1_symm_val dot_S128x1024_S3072x1024_S128x3072_1_1_0_0_n_n 1024 rfl rfl k
  have el : dot_S128x1024_S3072x1024_S128x3072_1_1_0_0_n_n.lhsIdx (ix2 r q) ((ValueIdx.contrEquiv1 dot_S128x1024_S3072x1024_S128x3072_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S128x1024_S3072x1024_S128x3072_1_1_0_0_n_n.rhsIdx (ix2 r q) ((ValueIdx.contrEquiv1 dot_S128x1024_S3072x1024_S128x3072_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The body's values at an index -/

/-- The matrix product of the input tile with the transposed gate weights, plus the gate bias: row `r`, gate column `q`. -/
theorem pay6_apply (x : Vec Ideal S128x1024 .f32) (w : Vec Ideal S1x3072x1024 .bf16) (b : Vec Ideal S1x3072 .f32)
    (r : Fin 128) (q : Fin 3072) :
    k0_pay6 (F := Ideal) x w b (ix2 r q)
      = (∑ k : Fin 1024, x (ix2 r k) * w (ix3 (0 : Fin 1) q k)) + b (ix2 (0 : Fin 1) q) := by
  unfold k0_pay6
  rw [addf_apply, mm_apply, broadcastTo_1b_ab_apply, shapeCast_a_1a_apply, shapeCast_1a_a_apply]
  congr 1
  refine Finset.sum_congr rfl fun k _ => ?_
  rw [truncf_apply, shapeCast_1ab_ab_apply]

/-- The state tile with its leading unit axis dropped. -/
theorem pay5_apply (h : Vec Ideal S1x128x1024 .f32) (r : Fin 128) (k : Fin 1024) :
    k0_pay5 (F := Ideal) h (ix2 r k) = h (ix3 (0 : Fin 1) r k) := by
  unfold k0_pay5
  rw [shapeCast_1ab_ab_apply]

/-- The same affine map of the state tile. -/
theorem pay7_apply (h : Vec Ideal S1x128x1024 .f32) (w : Vec Ideal S1x3072x1024 .bf16) (b : Vec Ideal S1x3072 .f32)
    (r : Fin 128) (q : Fin 3072) :
    k0_pay7 (F := Ideal) h w b (ix2 r q)
      = (∑ k : Fin 1024, h (ix3 (0 : Fin 1) r k) * w (ix3 (0 : Fin 1) q k)) + b (ix2 (0 : Fin 1) q) := by
  unfold k0_pay7
  rw [addf_apply, mm_apply, broadcastTo_1b_ab_apply, shapeCast_a_1a_apply, shapeCast_1a_a_apply]
  congr 1
  refine Finset.sum_congr rfl fun k _ => ?_
  rw [truncf_apply, pay5_apply, shapeCast_1ab_ab_apply]

/-- The logistic function applied to a tile reads the logistic of the element. -/
theorem logistic_apply {s : Shape} {φ : FTy} (v : FVec Ideal s φ) (i : s.Idx) : logistic v i = Ideal.logistic (v i) := rfl
/-- The hyperbolic tangent applied to a tile reads the hyperbolic tangent of the element. -/
theorem tanh_apply {s : Shape} {φ : FTy} (v : FVec Ideal s φ) (i : s.Idx) : tanh v i = Ideal.tanh (v i) := rfl

/-- The update gate: the logistic of the sum of the two pre-activations at the second block of 1024 columns. -/
theorem gate_z_apply (G6 G7 : FVec Ideal S128x3072 .f32) (r : Fin 128) (j : Fin 1024) (c1 : Fin 3072) (h1 : c1.val = 1024 + j.val) :
    logistic (addf (extractStridedSlice S128x1024 ![0, 1024] G6 slices_S128x3072_o0_1024_S128x1024)
        (extractStridedSlice S128x1024 ![0, 1024] G7 slices_S128x3072_o0_1024_S128x1024)) (ix2 r j)
      = Ideal.logistic (G6 (ix2 r c1) + G7 (ix2 r c1)) := by
  rw [logistic_apply, addf_apply, slice2_axis1_apply 1024 G6 _ r j c1 h1, slice2_axis1_apply 1024 G7 _ r j c1 h1]

theorem pay8_apply (x : Vec Ideal S128x1024 .f32) (h : Vec Ideal S1x128x1024 .f32) (wih whh : Vec Ideal S1x3072x1024 .bf16)
    (bih bhh : Vec Ideal S1x3072 .f32) (r : Fin 128) (j : Fin 1024) (c1 : Fin 3072) (h1 : c1.val = 1024 + j.val) :
    k0_pay8 (F := Ideal) x h wih whh bih bhh (ix2 r j)
      = Ideal.logistic (k0_pay6 (F := Ideal) x wih bih (ix2 r c1) + k0_pay7 (F := Ideal) h whh bhh (ix2 r c1)) := by
  unfold k0_pay8
  generalize k0_pay6 (F := Ideal) x wih bih = G6
  generalize k0_pay7 (F := Ideal) h whh bhh = G7
  exact gate_z_apply G6 G7 r j c1 h1

/-- The candidate: the hyperbolic tangent of the input's third block plus the reset gate times the state's third block. -/
theorem cand_apply (G6 G7 : FVec Ideal S128x3072 .f32) (r : Fin 128) (j : Fin 1024) (c0 c2 : Fin 3072)
    (h0 : c0.val = 0 + j.val) (h2 : c2.val = 2048 + j.val) :
    tanh (addf (extractStridedSlice S128x1024 ![0, 2048] G6 slices_S128x3072_o0_2048_S128x1024)
        (mulf (logistic (addf (extractStridedSlice S128x1024 ![0, 0] G6 slices_S128x3072_o0_0_S128x1024)
            (extractStridedSlice S128x1024 ![0, 0] G7 slices_S128x3072_o0_0_S128x1024)))
          (extractStridedSlice S128x1024 ![0, 2048] G7 slices_S128x3072_o0_2048_S128x1024))) (ix2 r j)
      = Ideal.tanh (G6 (ix2 r c2) + Ideal.logistic (G6 (ix2 r c0) + G7 (ix2 r c0)) * G7 (ix2 r c2)) := by
  rw [tanh_apply, addf_apply, mulf_apply, logistic_apply, addf_apply,
    slice2_axis1_apply 2048 G6 _ r j c2 h2, slice2_axis1_apply 2048 G7 _ r j c2 h2,
    slice2_axis1_apply 0 G6 _ r j c0 h0, slice2_axis1_apply 0 G7 _ r j c0 h0]

theorem pay9_apply (x : Vec Ideal S128x1024 .f32) (h : Vec Ideal S1x128x1024 .f32) (wih whh : Vec Ideal S1x3072x1024 .bf16)
    (bih bhh : Vec Ideal S1x3072 .f32) (r : Fin 128) (j : Fin 1024) (c0 c2 : Fin 3072)
    (h0 : c0.val = 0 + j.val) (h2 : c2.val = 2048 + j.val) :
    k0_pay9 (F := Ideal) x h wih whh bih bhh (ix2 r j)
      = Ideal.tanh (k0_pay6 (F := Ideal) x wih bih (ix2 r c2)
          + Ideal.logistic (k0_pay6 (F := Ideal) x wih bih (ix2 r c0) + k0_pay7 (F := Ideal) h whh bhh (ix2 r c0))
            * k0_pay7 (F := Ideal) h whh bhh (ix2 r c2)) := by
  unfold k0_pay9
  generalize k0_pay6 (F := Ideal) x wih bih = G6
  generalize k0_pay7 (F := Ideal) h whh bhh = G7
  exact cand_apply G6 G7 r j c0 c2 h0 h2

/-- The blend of candidate and previous state by the update gate. -/
theorem pay1_apply (v5 v35 v38 : FVec Ideal S128x1024 .f32) (c : Ideal .f32) (i : S128x1024.Idx) :
    k0_pay1 (F := Ideal) v5 v35 v38 c i = (c - v35 i) * v38 i + v35 i * v5 i := by
  unfold k0_pay1
  rw [addf_apply, mulf_apply, mulf_apply, subf_apply, broadcast_apply]

/-! ## The cell on a tile -/

/-- The new state of a tile of 128 rows, as the kernel body computes it from its loaded blocks. -/
def hnew {F : FTy → Type} [FloatOps F] (x : Vec F S128x1024 .f32) (h : Vec F S1x128x1024 .f32)
    (wih whh : Vec F S1x3072x1024 .bf16) (bih bhh : Vec F S1x3072 .f32) : FVec F S128x1024 .f32 :=
  k0_pay1 (k0_pay5 h) (k0_pay8 x h wih whh bih bhh) (k0_pay9 x h wih whh bih bhh) (Scalar.ofBits .f32 0x3F800000#32)

/-- Row `r` of tile `b` among the 256 rows. -/
def row (b : Fin 2) (r : Fin 128) : Fin 256 := ⟨b.val * 128 + r.val, by have := b.isLt; have := r.isLt; omega⟩

/-- What is stored into the state output: the new state with a leading unit axis. -/
theorem pay2_eq {F : FTy → Type} [FloatOps F] (x : Vec F S128x1024 .f32) (h : Vec F S1x128x1024 .f32)
    (wih whh : Vec F S1x3072x1024 .bf16) (bih bhh : Vec F S1x3072 .f32) :
    k0_pay2 (k0_pay5 h) (k0_pay8 x h wih whh bih bhh) (k0_pay9 x h wih whh bih bhh) (Scalar.ofBits .f32 0x3F800000#32)
      = shapeCast S1x128x1024 (hnew x h wih whh bih bhh) shapeCasts_S128x1024_S1x128x1024 := rfl

/-- What is stored into the carried tile: the new state itself. -/
theorem pay3_eq {F : FTy → Type} [FloatOps F] (x : Vec F S128x1024 .f32) (h : Vec F S1x128x1024 .f32)
    (wih whh : Vec F S1x3072x1024 .bf16) (bih bhh : Vec F S1x3072 .f32) :
    k0_pay3 (k0_pay5 h) (k0_pay8 x h wih whh bih bhh) (k0_pay9 x h wih whh bih bhh) (Scalar.ofBits .f32 0x3F800000#32)
      = shapeCast S128x1024 (hnew x h wih whh bih bhh) shapeCasts_S128x1024_S128x1024 := rfl

/-- The store into the carried tile reads the new state at every index. -/
theorem pay3_apply {F : FTy → Type} [FloatOps F] (x : Vec F S128x1024 .f32) (h : Vec F S1x128x1024 .f32)
    (wih whh : Vec F S1x3072x1024 .bf16) (bih bhh : Vec F S1x3072 .f32) (y : S128x1024.Idx) :
    k0_pay3 (k0_pay5 h) (k0_pay8 x h wih whh bih bhh) (k0_pay9 x h wih whh bih bhh) (Scalar.ofBits .f32 0x3F800000#32) y
      = hnew x h wih whh bih bhh y := by
  rw [pay3_eq, shapeCast_self]

/-- The store into the state output reads the new state at the row and column. -/
theorem pay2_apply {F : FTy → Type} [FloatOps F] (x : Vec F S128x1024 .f32) (h : Vec F S1x128x1024 .f32)
    (wih whh : Vec F S1x3072x1024 .bf16) (bih bhh : Vec F S1x3072 .f32) (u : Fin 1) (r : Fin 128) (j : Fin 1024) :
    k0_pay2 (k0_pay5 h) (k0_pay8 x h wih whh bih bhh) (k0_pay9 x h wih whh bih bhh) (Scalar.ofBits .f32 0x3F800000#32) (ix3 u r j)
      = hnew x h wih whh bih bhh (ix2 r j) := by
  rw [pay2_eq, shapeCast_ab_1ab_apply]

/-- The first grid step copies the input tile into the carried tile unchanged. -/
theorem pay4_apply {F : FTy → Type} [FloatOps F] (v50 : Vec F S128x1024 .f32) (y : S128x1024.Idx) :
    k0_pay4 v50 y = v50 y := by
  unfold k0_pay4
  rw [shapeCast_self, shapeCast_self]

/-- One cell on a tile is the specification's cell at the tile's global row. -/
theorem hnew_apply (x : Vec Ideal S128x1024 .f32) (h : Vec Ideal S1x128x1024 .f32)
    (wih whh : Vec Ideal S1x3072x1024 .bf16) (bih bhh : Vec Ideal S1x3072 .f32)
    (X HL : FVec Ideal Cert.Spec.SBH .f32) (WIH WHH : FVec Ideal Cert.Spec.SW .f32) (BIH BHH : FVec Ideal Cert.Spec.SB .f32)
    (l b : Fin 2)
    (hx : ∀ (r : Fin 128) (k : Fin 1024), x (ix2 r k) = X (ix2 (row b r) k))
    (hh : ∀ (r : Fin 128) (k : Fin 1024), h (ix3 (0 : Fin 1) r k) = HL (ix2 (row b r) k))
    (hwih : ∀ (q : Fin 3072) (k : Fin 1024), wih (ix3 (0 : Fin 1) q k) = WIH (ix3 l q k))
    (hwhh : ∀ (q : Fin 3072) (k : Fin 1024), whh (ix3 (0 : Fin 1) q k) = WHH (ix3 l q k))
    (hbih : ∀ q : Fin 3072, bih (ix2 (0 : Fin 1) q) = BIH (ix2 l q))
    (hbhh : ∀ q : Fin 3072, bhh (ix2 (0 : Fin 1) q) = BHH (ix2 l q))
    (r : Fin 128) (j : Fin 1024) :
    hnew (F := Ideal) x h wih whh bih bhh (ix2 r j) = Cert.Spec.cell X HL WIH WHH BIH BHH l (ix2 (row b r) j) := by
  have e6 : ∀ q : Fin 3072, k0_pay6 (F := Ideal) x wih bih (ix2 r q) = Cert.Spec.pre X WIH BIH l (row b r) q := fun q => by
    rw [pay6_apply]; unfold Cert.Spec.pre; rw [hbih q]
    exact congrArg (· + BIH (ix2 l q)) (Finset.sum_congr rfl fun k _ => by rw [hx r k, hwih q k])
  have e7 : ∀ q : Fin 3072, k0_pay7 (F := Ideal) h whh bhh (ix2 r q) = Cert.Spec.pre HL WHH BHH l (row b r) q := fun q => by
    rw [pay7_apply]; unfold Cert.Spec.pre; rw [hbhh q]
    exact congrArg (· + BHH (ix2 l q)) (Finset.sum_congr rfl fun k _ => by rw [hh r k, hwhh q k])
  unfold hnew
  rw [pay1_apply, pay5_apply, hh r j,
    pay8_apply x h wih whh bih bhh r j (Cert.Spec.col 1 j) (by show 1 * 1024 + j.val = 1024 + j.val; omega),
    pay9_apply x h wih whh bih bhh r j (Cert.Spec.col 0 j) (Cert.Spec.col 2 j)
      (by show 0 * 1024 + j.val = 0 + j.val; omega) (by show 2 * 1024 + j.val = 2048 + j.val; omega),
    e6, e6, e6, e7, e7, e7]
  rfl

end Cert.KernelIdeal.CellValue

end
-- ==== Proof.KIVal0.lean ====
/-
  The array the two-layer GRU region leaves in its output array, index by index, at the extended reals.

  The grid has four points, t = 2 · (row tile) + layer. At a first-layer point the body copies the input tile
  into the carried tile and computes one cell from it and the layer's blocks; at a second-layer point it computes
  one cell from the carried tile that the point before left. Each block is rows of its array (block index × block
  size + the coordinate inside the block), and the bias row loaded is the layer's row. The cell on a tile is the
  specification's cell at the global rows, so the carried tile after a first-layer point is the first layer's
  state on the tile's rows, and every point writes back its block of the stacked state. The four blocks tile the
  array, which therefore ends holding the specification's stacked state.
-/
import proofs.«415660_j37589553774958_3_alg».proof.Proof.KIReg0
import proofs.«415660_j37589553774958_3_alg».proof.Proof.GruCell
import proofs.«415660_j37589553774958_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val0

open Cert.KernelIdeal Cert.KernelIdeal.Gen Cert.KernelIdeal.Reg0 Cert.KernelIdeal.CellValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hN : cfg0.N = 4 := N_0

/-- The layer of a grid point: the fast coordinate. -/
def lay (t : Fin cfg0.N) : Fin 2 := ⟨t.val % 2, Nat.mod_lt _ (by decide)⟩
/-- The row tile of a grid point: the slow coordinate. -/
def tile (t : Fin cfg0.N) : Fin 2 := ⟨t.val / 2, by have h4 : t.val < 4 := lt_of_lt_of_eq t.isLt hN; omega⟩

/-- The index maps at every grid point, in closed form. -/
theorem idx_facts : ∀ t : Fin cfg0.N,
    (win0_0.index t (0 : Fin 2) = t.val / 2 ∧ win0_0.index t (1 : Fin 2) = 0)
    ∧ (win0_1.index t (0 : Fin 3) = t.val % 2 ∧ win0_1.index t (1 : Fin 3) = t.val / 2 ∧ win0_1.index t (2 : Fin 3) = 0)
    ∧ (win0_2.index t (0 : Fin 3) = t.val % 2 ∧ win0_2.index t (1 : Fin 3) = 0 ∧ win0_2.index t (2 : Fin 3) = 0)
    ∧ (win0_3.index t (0 : Fin 3) = t.val % 2 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val % 2 ∧ win0_6.index t (1 : Fin 3) = t.val / 2 ∧ win0_6.index t (2 : Fin 3) = 0)
    ∧ (k0_off1 (grid0.coords t) (0 : Fin 2) = t.val % 2 ∧ k0_off1 (grid0.coords t) (1 : Fin 2) = 0) :=
  (by decide +kernel : ∀ t : Fin grid0.N, _)

/-- The input tile's block at a point is rows of the input array. -/
theorem iblk0_0_apply (c : Dev nD) (t : Fin cfg0.N) (r : Fin 128) (k : Fin 1024) :
    (iblk0 V c 0 t : Vec Ideal S128x1024 .f32) (ix2 r k) = (V c main_v6 : FVec Ideal Cert.Spec.SBH .f32) (ix2 (row (tile t) r) k) := by
  obtain ⟨⟨e0, e1⟩, -⟩ := idx_facts t
  unfold iblk0
  rw [View.read_apply]
  show V c main_v6 _ = V c main_v6 _
  congr 1
  funext a
  apply Fin.ext
  match a with
  | ⟨0, _⟩ => show win0_0.index t 0 * 128 + 1 * r.val = (t.val / 2) * 128 + r.val; rw [e0]; omega
  | ⟨1, _⟩ => show win0_0.index t 1 * 1024 + 1 * k.val = k.val; rw [e1]; omega

/-- The state tile's block at a point is rows of the point's layer of the stacked state. -/
theorem iblk0_1_apply (c : Dev nD) (t : Fin cfg0.N) (r : Fin 128) (k : Fin 1024) :
    (iblk0 V c 1 t : Vec Ideal S1x128x1024 .f32) (ix3 (0 : Fin 1) r k)
      = (V c main_arg1 : FVec Ideal Cert.Spec.SLBH .f32) (ix3 (lay t) (row (tile t) r) k) := by
  obtain ⟨-, ⟨e0, e1, e2⟩, -⟩ := idx_facts t
  unfold iblk0
  rw [View.read_apply]
  show V c main_arg1 _ = V c main_arg1 _
  congr 1
  funext a
  apply Fin.ext
  match a with
  | ⟨0, _⟩ => show win0_1.index t 0 * 1 + 1 * 0 = t.val % 2; rw [e0]; omega
  | ⟨1, _⟩ => show win0_1.index t 1 * 128 + 1 * r.val = (t.val / 2) * 128 + r.val; rw [e1]; omega
  | ⟨2, _⟩ => show win0_1.index t 2 * 1024 + 1 * k.val = k.val; rw [e2]; omega

/-- The input weights' block at a point is the point's layer of the weights. -/
theorem iblk0_2_apply (c : Dev nD) (t : Fin cfg0.N) (q : Fin 3072) (k : Fin 1024) :
    (iblk0 V c 2 t : Vec Ideal S1x3072x1024 .bf16) (ix3 (0 : Fin 1) q k)
      = (V c main_v7 : FVec Ideal Cert.Spec.SW .f32) (ix3 (lay t) q k) := by
  obtain ⟨-, -, ⟨e0, e1, e2⟩, -⟩ := idx_facts t
  unfold iblk0
  rw [View.read_apply]
  show V c main_v7 _ = V c main_v7 _
  congr 1
  funext a
  apply Fin.ext
  match a with
  | ⟨0, _⟩ => show win0_2.index t 0 * 1 + 1 * 0 = t.val % 2; rw [e0]; omega
  | ⟨1, _⟩ => show win0_2.index t 1 * 3072 + 1 * q.val = q.val; rw [e1]; omega
  | ⟨2, _⟩ => show win0_2.index t 2 * 1024 + 1 * k.val = k.val; rw [e2]; omega

/-- The state weights' block at a point is the point's layer of the weights. -/
theorem iblk0_3_apply (c : Dev nD) (t : Fin cfg0.N) (q : Fin 3072) (k : Fin 1024) :
    (iblk0 V c 3 t : Vec Ideal S1x3072x1024 .bf16) (ix3 (0 : Fin 1) q k)
      = (V c main_v8 : FVec Ideal Cert.Spec.SW .f32) (ix3 (lay t) q k) := by
  obtain ⟨-, -, -, ⟨e0, e1, e2⟩, -⟩ := idx_facts t
  unfold iblk0
  rw [View.read_apply]
  show V c main_v8 _ = V c main_v8 _
  congr 1
  funext a
  apply Fin.ext
  match a with
  | ⟨0, _⟩ => show win0_3.index t 0 * 1 + 1 * 0 = t.val % 2; rw [e0]; omega
  | ⟨1, _⟩ => show win0_3.index t 1 * 3072 + 1 * q.val = q.val; rw [e1]; omega
  | ⟨2, _⟩ => show win0_3.index t 2 * 1024 + 1 * k.val = k.val; rw [e2]; omega

/-- The one row of a two-row bias block that the body loads at the layer's row. -/
abbrev biasRow (X : Vec Ideal S2x3072 .f32) (t : Fin cfg0.N) : Vec Ideal S1x3072 .f32 :=
  View.ld X (Rect.unit (s := S2x3072) (k0_off1 (grid0.coords t)) S1x3072.size (k0_off1_inb (grid0.coords t)))

/-- The input bias row loaded at a point is the point's layer of the bias. -/
theorem bias4_apply (c : Dev nD) (t : Fin cfg0.N) (q : Fin 3072) :
    biasRow (iblk0 V c 4 t) t (ix2 (0 : Fin 1) q) = (V c main_arg5 : FVec Ideal Cert.Spec.SB .f32) (ix2 (lay t) q) := by
  obtain ⟨-, -, -, -, ⟨e0, e1⟩, -, -, ⟨o0, o1⟩⟩ := idx_facts t
  unfold iblk0
  show View.read _ _ _ _ = _
  rw [View.read_apply]
  show V c main_arg5 _ = V c main_arg5 _
  congr 1
  funext a
  apply Fin.ext
  match a with
  | ⟨0, _⟩ => show win0_4.index t 0 * 2 + 1 * (k0_off1 (grid0.coords t) 0 + 1 * 0) = t.val % 2; rw [e0, o0]; omega
  | ⟨1, _⟩ => show win0_4.index t 1 * 3072 + 1 * (k0_off1 (grid0.coords t) 1 + 1 * q.val) = q.val; rw [e1, o1]; omega

/-- The state bias row loaded at a point is the point's layer of the bias. -/
theorem bias5_apply (c : Dev nD) (t : Fin cfg0.N) (q : Fin 3072) :
    biasRow (iblk0 V c 5 t) t (ix2 (0 : Fin 1) q) = (V c main_arg6 : FVec Ideal Cert.Spec.SB .f32) (ix2 (lay t) q) := by
  obtain ⟨-, -, -, -, -, ⟨e0, e1⟩, -, ⟨o0, o1⟩⟩ := idx_facts t
  unfold iblk0
  show View.read _ _ _ _ = _
  rw [View.read_apply]
  show V c main_arg6 _ = V c main_arg6 _
  congr 1
  funext a
  apply Fin.ext
  match a with
  | ⟨0, _⟩ => show win0_5.index t 0 * 2 + 1 * (k0_off1 (grid0.coords t) 0 + 1 * 0) = t.val % 2; rw [e0, o0]; omega
  | ⟨1, _⟩ => show win0_5.index t 1 * 3072 + 1 * (k0_off1 (grid0.coords t) 1 + 1 * q.val) = q.val; rw [e1, o1]; omega

/-- What the body leaves at point `t` when its carried input tile is `xin`: the output window's staging contents and the carried tile. -/
abbrev outOf (c : Dev nD) (t : Fin cfg0.N) (xin : Vec Ideal S128x1024 .f32) : Vec Ideal S1x128x1024 .f32 × Vec Ideal S128x1024 .f32 :=
  (k0_pay2 (k0_pay5 (iblk0 V c 1 t)) (k0_pay8 xin (iblk0 V c 1 t) (iblk0 V c 2 t) (iblk0 V c 3 t) (biasRow (iblk0 V c 4 t) t) (biasRow (iblk0 V c 5 t) t))
      (k0_pay9 xin (iblk0 V c 1 t) (iblk0 V c 2 t) (iblk0 V c 3 t) (biasRow (iblk0 V c 4 t) t) (biasRow (iblk0 V c 5 t) t)) (Scalar.ofBits .f32 0x3F800000#32),
   k0_pay3 (k0_pay5 (iblk0 V c 1 t)) (k0_pay8 xin (iblk0 V c 1 t) (iblk0 V c 2 t) (iblk0 V c 3 t) (biasRow (iblk0 V c 4 t) t) (biasRow (iblk0 V c 5 t) t))
      (k0_pay9 xin (iblk0 V c 1 t) (iblk0 V c 2 t) (iblk0 V c 3 t) (biasRow (iblk0 V c 4 t) t) (biasRow (iblk0 V c 5 t) t)) (Scalar.ofBits .f32 0x3F800000#32))

/-- The cell at a point whose carried input tile is rows of `X`: the specification's cell of the point's layer on `X`. -/
theorem point_cell (c : Dev nD) (t : Fin cfg0.N) (xin : Vec Ideal S128x1024 .f32) (X : FVec Ideal Cert.Spec.SBH .f32)
    (hx : ∀ (r : Fin 128) (k : Fin 1024), xin (ix2 r k) = X (ix2 (row (tile t) r) k)) (r : Fin 128) (j : Fin 1024) :
    hnew (F := Ideal) xin (iblk0 V c 1 t) (iblk0 V c 2 t) (iblk0 V c 3 t) (biasRow (iblk0 V c 4 t) t) (biasRow (iblk0 V c 5 t) t) (ix2 r j)
      = Cert.Spec.cell X (Cert.Spec.layer (V c main_arg1) (lay t)) (V c main_v7) (V c main_v8) (V c main_arg5) (V c main_arg6) (lay t)
          (ix2 (row (tile t) r) j) :=
  hnew_apply _ _ _ _ _ _ X (Cert.Spec.layer (V c main_arg1) (lay t)) (V c main_v7) (V c main_v8) (V c main_arg5) (V c main_arg6)
    (lay t) (tile t) hx (fun r k => iblk0_1_apply V c t r k) (fun q k => iblk0_2_apply V c t q k) (fun q k => iblk0_3_apply V c t q k)
    (fun q => bias4_apply V c t q) (fun q => bias5_apply V c t q) r j

/-- The specification's first-layer state, on the region's arrays. -/
abbrev specH0 (c : Dev nD) : FVec Ideal Cert.Spec.SBH .f32 :=
  Cert.Spec.h0 (V c main_v6) (V c main_arg1) (V c main_v7) (V c main_v8) (V c main_arg5) (V c main_arg6)
/-- The specification's second-layer state, on the region's arrays. -/
abbrev specH1 (c : Dev nD) : FVec Ideal Cert.Spec.SBH .f32 :=
  Cert.Spec.h1 (V c main_v6) (V c main_arg1) (V c main_v7) (V c main_v8) (V c main_arg5) (V c main_arg6)

/-- A first-layer point, fed the input tile, computes the first layer's state on its rows. -/
theorem point_even (c : Dev nD) (t : Fin cfg0.N) (ht : t.val % 2 = 0) (r : Fin 128) (j : Fin 1024) :
    hnew (F := Ideal) (k0_pay4 (iblk0 V c 0 t)) (iblk0 V c 1 t) (iblk0 V c 2 t) (iblk0 V c 3 t)
        (biasRow (iblk0 V c 4 t) t) (biasRow (iblk0 V c 5 t) t) (ix2 r j)
      = specH0 V c (ix2 (row (tile t) r) j) := by
  have hl : lay t = 0 := Fin.ext ht
  refine (point_cell V c t _ (V c main_v6) (fun r k => (pay4_apply _ _).trans (iblk0_0_apply V c t r k)) r j).trans ?_
  rw [hl]
  rfl

/-- A second-layer point, fed the first layer's state on its rows, computes the second layer's state there. -/
theorem point_odd (c : Dev nD) (t : Fin cfg0.N) (ht : t.val % 2 ≠ 0) (xin : Vec Ideal S128x1024 .f32)
    (hx : ∀ (r : Fin 128) (k : Fin 1024), xin (ix2 r k) = specH0 V c (ix2 (row (tile t) r) k)) (r : Fin 128) (j : Fin 1024) :
    hnew (F := Ideal) xin (iblk0 V c 1 t) (iblk0 V c 2 t) (iblk0 V c 3 t)
        (biasRow (iblk0 V c 4 t) t) (biasRow (iblk0 V c 5 t) t) (ix2 r j)
      = specH1 V c (ix2 (row (tile t) r) j) := by
  have hl : lay t = 1 := Fin.ext (by show t.val % 2 = 1; omega)
  refine (point_cell V c t xin (specH0 V c) hx r j).trans ?_
  rw [hl]
  rfl

section Run

variable (c : Dev nD)
  (hA : ∀ (t : Fin cfg0.N), t.val % 2 = 0 → outsAt0 V c t.val t.isLt = outOf V c t (k0_pay4 (iblk0 V c 0 t)))
  (hB : ∀ (t : Fin cfg0.N) (ht : t.val % 2 ≠ 0), outsAt0 V c t.val t.isLt
      = outOf V c t (outsAt0 V c (t.val - 1) (Nat.lt_of_le_of_lt (Nat.sub_le _ _) t.isLt)).2)

include hA in
/-- After a first-layer point the carried tile holds the first layer's state on the point's rows. -/
theorem carried_even (t : Fin cfg0.N) (ht : t.val % 2 = 0) (r : Fin 128) (j : Fin 1024) :
    (outsAt0 V c t.val t.isLt).2 (ix2 r j) = specH0 V c (ix2 (row (tile t) r) j) := by
  rw [hA t ht]
  exact (pay3_apply _ _ _ _ _ _ _).trans (point_even V c t ht r j)

include hA hB in
/-- What a point leaves in the output window's staging buffer: its layer's state on its rows. -/
theorem staged (t : Fin cfg0.N) (u : Fin 1) (r : Fin 128) (j : Fin 1024) :
    (outsAt0 V c t.val t.isLt).1 (ix3 u r j)
      = if t.val % 2 = 0 then specH0 V c (ix2 (row (tile t) r) j) else specH1 V c (ix2 (row (tile t) r) j) := by
  by_cases ht : t.val % 2 = 0
  · rw [if_pos ht, hA t ht]
    exact (pay2_apply _ _ _ _ _ _ u r j).trans (point_even V c t ht r j)
  · rw [if_neg ht, hB t ht]
    refine (pay2_apply _ _ _ _ _ _ u r j).trans (point_odd V c t ht _ (fun r k => ?_) r j)
    have hlt : t.val - 1 < cfg0.N := Nat.lt_of_le_of_lt (Nat.sub_le _ _) t.isLt
    have hp : (⟨t.val - 1, hlt⟩ : Fin cfg0.N).val % 2 = 0 := by show (t.val - 1) % 2 = 0; omega
    have htile : tile ⟨t.val - 1, hlt⟩ = tile t := Fin.ext (by show (t.val - 1) / 2 = t.val / 2; omega)
    have h := carried_even V c hA ⟨t.val - 1, hlt⟩ hp r k
    rw [htile] at h
    exact h

include hA hB in
/-- What a point writes back is its block of the specification's stacked state. -/
theorem flushed_eq (t : Fin cfg0.N) :
    (dat0 (F := Ideal) V c).flushed 6 t = ((cfg0.win 6).blk t).view.read (Elt Ideal)
      (Cert.Spec.hidden (V c main_v6) (V c main_arg1) (V c main_v7) (V c main_v8) (V c main_arg5) (V c main_arg6)) := by
  obtain ⟨-, -, -, -, -, -, ⟨e0, e1, e2⟩, -⟩ := idx_facts t
  show (cfg0.win 6).cut (grid0.coords t) ((dat0 V c).after 6 t) = _
  rw [after0_6]
  refine funext fun (y : S1x128x1024.Idx) => ?_
  obtain ⟨u, r, j, rfl⟩ : ∃ (u : Fin 1) (r : Fin 128) (j : Fin 1024), y = ix3 u r j := ⟨y 0, y 1, y 2, eq_ix3 y⟩
  show (outsAt0 V c t.val t.isLt).1 (ix3 u r j) = _
  rw [staged V c hA hB t u r j, View.read_apply]
  show _ = Cert.Spec.hidden (V c main_v6) (V c main_arg1) (V c main_v7) (V c main_v8) (V c main_arg5) (V c main_arg6)
    (((cfg0.win 6).blk t).view.emb (ix3 u r j))
  have hi : ((cfg0.win 6).blk t).view.emb (ix3 u r j) = (ix3 (lay t) (row (tile t) r) j : Cert.Spec.SLBH.Idx) := by
    funext a
    apply Fin.ext
    match a with
    | ⟨0, _⟩ => show win0_6.index t 0 * 1 + 1 * u.val = t.val % 2; rw [e0]; omega
    | ⟨1, _⟩ => show win0_6.index t 1 * 128 + 1 * r.val = (t.val / 2) * 128 + r.val; rw [e1]; omega
    | ⟨2, _⟩ => show win0_6.index t 2 * 1024 + 1 * j.val = j.val; rw [e2]; omega
  rw [hi]
  rfl

/-- An index of the stacked state is in a point's block iff each coordinate is in the block's range on its axis. -/
theorem mem_blk6 (t : Fin cfg0.N) (i : S2x256x1024.Idx) :
    i ∈ ((cfg0.win 6).blk t).view.set ↔ ∀ a : Fin 3, win0_6.index t a * S1x128x1024.size a ≤ (i a).val
      ∧ (i a).val < win0_6.index t a * S1x128x1024.size a + S1x128x1024.size a := by
  show i ∈ ((View.whole main_v9).slice (win0_6.rect t)).set ↔ _
  rw [View.set_slice_whole, Rect.mem_set_unit]
  exact Iff.rfl

/-- Every index of the stacked state is in the block of the point of its layer and row tile. -/
theorem cover (i : S2x256x1024.Idx) : ∃ t : Fin cfg0.N, (cfg0.win 6).flush t = true ∧ i ∈ ((cfg0.win 6).blk t).view.set := by
  have h0 : (i 0).val < 2 := (i 0).isLt
  have h1 : (i 1).val < 256 := (i 1).isLt
  have h2 : (i 2).val < 1024 := (i 2).isLt
  have hlt : 2 * ((i 1).val / 128) + (i 0).val < cfg0.N := by rw [hN]; omega
  refine ⟨⟨2 * ((i 1).val / 128) + (i 0).val, hlt⟩, flush0_6 _, ?_⟩
  obtain ⟨-, -, -, -, -, -, ⟨e0, e1, e2⟩, -⟩ := idx_facts ⟨2 * ((i 1).val / 128) + (i 0).val, hlt⟩
  rw [mem_blk6]
  intro a
  match a with
  | ⟨0, _⟩ =>
    show win0_6.index _ 0 * 1 ≤ (i 0).val ∧ (i 0).val < win0_6.index _ 0 * 1 + 1
    rw [e0]; show (2 * ((i 1).val / 128) + (i 0).val) % 2 * 1 ≤ (i 0).val ∧ (i 0).val < (2 * ((i 1).val / 128) + (i 0).val) % 2 * 1 + 1
    omega
  | ⟨1, _⟩ =>
    show win0_6.index _ 1 * 128 ≤ (i 1).val ∧ (i 1).val < win0_6.index _ 1 * 128 + 128
    rw [e1]; show (2 * ((i 1).val / 128) + (i 0).val) / 2 * 128 ≤ (i 1).val ∧ (i 1).val < (2 * ((i 1).val / 128) + (i 0).val) / 2 * 128 + 128
    omega
  | ⟨2, _⟩ =>
    show win0_6.index _ 2 * 1024 ≤ (i 2).val ∧ (i 2).val < win0_6.index _ 2 * 1024 + 1024
    rw [e2]; omega

include hA hB in
/-- The array the region leaves in its output window's array is the specification's stacked state. -/
theorem hidden_arr :
    (dat0 (F := Ideal) V c).arrAt 6 cfg0.N
      = Cert.Spec.hidden (V c main_v6) (V c main_arg1) (V c main_v7) (V c main_v8) (V c main_arg5) (V c main_arg6) :=
  (dat0 (F := Ideal) V c).arrAt_eq_of_cover 6 _ (fun t _ => flushed_eq V c hA hB t) cover

end Run

end Cert.KernelIdeal.Val0

end
-- ==== Proof.KIVal1.lean ====
/-
  The decoder region's result array, against the specification's logits.

  The region runs over 25 column tiles of width 2048; the last tile starts at column 49152 and only its
  first 848 columns lie inside the array of 50000. At tile t the body leaves in the output's buffer, at
  (i, j), the contraction of input row i with row j of the table's block plus the bias block's entry j.
  Inside the array the blocks are the arrays read at column t · 2048 + j, so what tile t writes back is
  its block of the logits; every column v of the array lies in tile v / 2048. Hence the array ends
  holding the logits.
-/
import proofs.«415660_j37589553774958_3_alg».proof.Proof.KIReg1
import proofs.«415660_j37589553774958_3_alg».proof.Proof.DecCell
import proofs.«415660_j37589553774958_3_alg».proof.Proof.Spec
import proofs.«415660_j37589553774958_3_alg».proof.Proof.Gen.KernelIdeal.Points
import proofs.«415660_j37589553774958_3_alg».proof.Proof.Gen.KernelIdeal.Launch
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Reg1
open Idealize.ShloMosaic Idealize.ShloMosaic.TcCoe Idealize.ShloMosaic.ValueIdx
open Idealize.SL.Sem
open Idealize.ShloMosaic.Pipeline (Dat Cfg Window)
open scoped BigOperators

/-! ### The tiles, in closed form -/

/-- Tile t's width inside the array: 2048, but 848 for the last. -/
def wd (t : Nat) : Nat := min 2048 (50000 - t * 2048)

/-- Block indices and cut extents of the four windows at every tile. -/
theorem tiles : ∀ t : Fin grid1.N,
    (win1_0.index t 0 = 0 ∧ win1_0.index t 1 = 0 ∧ win1_0.xsize (grid1.coords t) 0 = 256 ∧ win1_0.xsize (grid1.coords t) 1 = 1024)
    ∧ (win1_1.index t 0 = t.val ∧ win1_1.index t 1 = 0 ∧ win1_1.xsize (grid1.coords t) 0 = wd t.val ∧ win1_1.xsize (grid1.coords t) 1 = 1024)
    ∧ (win1_2.index t 0 = 0 ∧ win1_2.index t 1 = t.val ∧ win1_2.xsize (grid1.coords t) 0 = 1 ∧ win1_2.xsize (grid1.coords t) 1 = wd t.val)
    ∧ (win1_3.index t 0 = 0 ∧ win1_3.index t 1 = t.val ∧ win1_3.xsize (grid1.coords t) 0 = 256 ∧ win1_3.xsize (grid1.coords t) 1 = wd t.val) := by
  decide +kernel

/-! ### The blocks inside the array, read at an index -/

/-- The input rows' block is the whole array. -/
theorem iblk_x (V : (c : Dev nD) → (b : Ref sig .tc) → Buf (Elt Ideal) ((c : Thread nD τ).loc b)) (c : Dev nD) (t : Fin cfg1.N) (y : ((cfg1.win 0).xblock (cfg1.grid.coords t)).Idx)
    (i : Fin 256) (k : Fin 1024) (hi : i.val = (y 0).val) (hk : k.val = (y 1).val) :
    iblk1 V c 0 t y = (V c main_v11 : S256x1024.Idx → Ideal .f32) (ix2 i k) := by
  have hT := (tiles t).1
  unfold iblk1
  rw [View.read_apply]
  show V c main_v11 _ = V c main_v11 _
  congr 1
  funext a
  apply Fin.ext
  match a with
  | ⟨0, _⟩ => show win1_0.index t 0 * 256 + 1 * (y 0).val = i.val; rw [hT.1, hi]; omega
  | ⟨1, _⟩ => show win1_0.index t 1 * 1024 + 1 * (y 1).val = k.val; rw [hT.2.1, hk]; omega

/-- The table's block at tile t, row j, is the table's row t · 2048 + j. -/
theorem iblk_w (V : (c : Dev nD) → (b : Ref sig .tc) → Buf (Elt Ideal) ((c : Thread nD τ).loc b)) (c : Dev nD) (t : Fin cfg1.N) (y : ((cfg1.win 1).xblock (cfg1.grid.coords t)).Idx)
    (r : Fin 50000) (k : Fin 1024) (hr : r.val = t.val * 2048 + (y 0).val) (hk : k.val = (y 1).val) :
    iblk1 V c 1 t y = (V c main_arg7 : S50000x1024.Idx → Ideal .f32) (ix2 r k) := by
  have hT := (tiles t).2.1
  unfold iblk1
  rw [View.read_apply]
  show V c main_arg7 _ = V c main_arg7 _
  congr 1
  funext a
  apply Fin.ext
  match a with
  | ⟨0, _⟩ => show win1_1.index t 0 * 2048 + 1 * (y 0).val = r.val; rw [hT.1, hr]; omega
  | ⟨1, _⟩ => show win1_1.index t 1 * 1024 + 1 * (y 1).val = k.val; rw [hT.2.1, hk]; omega

/-- The bias row's block at tile t, entry j, is the row's entry t · 2048 + j. -/
theorem iblk_b (V : (c : Dev nD) → (b : Ref sig .tc) → Buf (Elt Ideal) ((c : Thread nD τ).loc b)) (c : Dev nD) (t : Fin cfg1.N) (y : ((cfg1.win 2).xblock (cfg1.grid.coords t)).Idx)
    (r : Fin 50000) (h0 : (y 0).val = 0) (hr : r.val = t.val * 2048 + (y 1).val) :
    iblk1 V c 2 t y = (V c main_v12 : S1x50000.Idx → Ideal .f32) (ix2 (0 : Fin 1) r) := by
  have hT := (tiles t).2.2.1
  unfold iblk1
  rw [View.read_apply]
  show V c main_v12 _ = V c main_v12 _
  congr 1
  funext a
  apply Fin.ext
  match a with
  | ⟨0, _⟩ => show win1_2.index t 0 * 1 + 1 * (y 0).val = 0; rw [hT.1, h0]
  | ⟨1, _⟩ => show win1_2.index t 1 * 2048 + 1 * (y 1).val = r.val; rw [hT.2.1, hr]; omega

/-! ### What a tile writes back -/

/-- The logits of the region's entry contents (the bias array is one row). -/
abbrev G (V : (c : Dev nD) → (b : Ref sig .tc) → Buf (Elt Ideal) ((c : Thread nD τ).loc b)) (c : Dev nD) : S256x50000.Idx → Ideal .f32 :=
  Cert.Spec.logits (V c main_v11 : S256x1024.Idx → Ideal .f32) (V c main_arg7 : S50000x1024.Idx → Ideal .f32)
    (fun y => (V c main_v12 : S1x50000.Idx → Ideal .f32) (ix2 (0 : Fin 1) (y 0)))

/-- The table's block filled out to 2048 rows, at a row below the cut, is the table's row t · 2048 + j. -/
theorem fill_w (V : (c : Dev nD) → (b : Ref sig .tc) → Buf (Elt Ideal) ((c : Thread nD τ).loc b)) (c : Dev nD) (t : Fin cfg1.N) (d : win1_1.block.Idx → Ideal .f32) (j : Fin 2048) (k : Fin 1024)
    (hj : j.val < wd t.val) (r : Fin 50000) (hr : r.val = t.val * 2048 + j.val) :
    win1_1.fill (grid1.coords t) d (iblk1 V c 1 t) (ix2 j k)
      = (V c main_arg7 : S50000x1024.Idx → Ideal .f32) (ix2 r k) := by
  have hT := (tiles t).2.1
  have hm : win1_1.moved (grid1.coords t) (ix2 j k) = true := (win1_1.moved_iff _ _).mpr fun a => by
    match a with
    | ⟨0, _⟩ => show j.val < win1_1.xsize (grid1.coords t) 0; rw [hT.2.2.1]; exact hj
    | ⟨1, _⟩ => show k.val < win1_1.xsize (grid1.coords t) 1; rw [hT.2.2.2]; exact k.isLt
  unfold Window.fill
  rw [dif_pos hm]
  exact iblk_w V c t _ r k hr rfl

/-- The bias block filled out to 2048 entries, at an entry below the cut, is the row's entry t · 2048 + j. -/
theorem fill_b (V : (c : Dev nD) → (b : Ref sig .tc) → Buf (Elt Ideal) ((c : Thread nD τ).loc b)) (c : Dev nD) (t : Fin cfg1.N) (d : win1_2.block.Idx → Ideal .f32) (j : Fin 2048)
    (hj : j.val < wd t.val) (r : Fin 50000) (hr : r.val = t.val * 2048 + j.val) :
    win1_2.fill (grid1.coords t) d (iblk1 V c 2 t) (ix2 (0 : Fin 1) j)
      = (V c main_v12 : S1x50000.Idx → Ideal .f32) (ix2 (0 : Fin 1) r) := by
  have hT := (tiles t).2.2.1
  have hm : win1_2.moved (grid1.coords t) (ix2 (0 : Fin 1) j) = true := (win1_2.moved_iff _ _).mpr fun a => by
    match a with
    | ⟨0, _⟩ => show 0 < win1_2.xsize (grid1.coords t) 0; rw [hT.2.2.1]; exact Nat.one_pos
    | ⟨1, _⟩ => show j.val < win1_2.xsize (grid1.coords t) 1; rw [hT.2.2.2]; exact hj
  unfold Window.fill
  rw [dif_pos hm]
  exact iblk_b V c t _ r rfl hr

/-- An entry of the output's block at tile t sits in the array at column t · 2048 + its own. -/
theorem emb_out (t : Fin cfg1.N) (y : ((cfg1.win 3).xblock (cfg1.grid.coords t)).Idx)
    (i : Fin 256) (v : Fin 50000) (hi : i.val = (y 0).val) (hv : v.val = t.val * 2048 + (y 1).val) :
    ((cfg1.win 3).blk t).view.emb y = (ix2 i v : S256x50000.Idx) := by
  have hT := (tiles t).2.2.2
  funext a
  apply Fin.ext
  match a with
  | ⟨0, _⟩ => show win1_3.index t 0 * 256 + 1 * (y 0).val = i.val; rw [hT.1, hi]; omega
  | ⟨1, _⟩ => show win1_3.index t 1 * 2048 + 1 * (y 1).val = v.val; rw [hT.2.1, hv]; omega

/-- An entry of the output's block, as an entry of the full 256 × 2048 block. -/
theorem xinj_out (t : Fin cfg1.N) (y : ((cfg1.win 3).xblock (cfg1.grid.coords t)).Idx)
    (i : Fin 256) (j : Fin 2048) (hi : i.val = (y 0).val) (hj : j.val = (y 1).val) :
    win1_3.xinj (grid1.coords t) y = (ix2 i j : S256x2048.Idx) := by
  funext a
  apply Fin.ext
  match a with
  | ⟨0, _⟩ => exact hi.symm
  | ⟨1, _⟩ => exact hj.symm

/-- The body's value at (i, j) of tile t, for a column j inside the array, is the logits' at column t · 2048 + j. -/
theorem out_apply (V : (c : Dev nD) → (b : Ref sig .tc) → Buf (Elt Ideal) ((c : Thread nD τ).loc b)) (c : Dev nD) (t : Fin cfg1.N) (i : Fin 256) (j : Fin 2048) (hj : j.val < wd t.val)
    (v : Fin 50000) (hv : v.val = t.val * 2048 + j.val) :
    out1_3 V c t (ix2 i j) = G V c (ix2 i v) := by
  unfold out1_3
  refine (Cert.KernelIdeal.DecValue.dec_apply _ _ _ i j).trans ?_
  unfold G Cert.Spec.logits
  refine congrArg₂ (· + ·) (Finset.sum_congr rfl fun k _ => congrArg₂ (· * ·) ?_ ?_) ?_
  · exact iblk_x V c t _ i k rfl rfl
  · exact fill_w V c t _ j k hj v hv
  · exact fill_b V c t _ j hj v hv

/-- What tile t writes back is its block of the logits. -/
theorem flushed_eq (V : (c : Dev nD) → (b : Ref sig .tc) → Buf (Elt Ideal) ((c : Thread nD τ).loc b)) (c : Dev nD) (t : Fin cfg1.N) (hf : (cfg1.win 3).flush t = true) :
    (dat1 V c).flushed 3 t = ((cfg1.win 3).blk t).view.read (Elt Ideal) (G V c) := by
  funext y
  have hT := (tiles t).2.2.2
  have ht : t.val < 25 := N_1 ▸ t.isLt
  have h0 : (y 0).val < win1_3.xsize (grid1.coords t) 0 := (y 0).isLt
  have h1 : (y 1).val < win1_3.xsize (grid1.coords t) 1 := (y 1).isLt
  rw [hT.2.2.1] at h0
  rw [hT.2.2.2] at h1
  have h1' : (y 1).val < 2048 := by unfold wd at h1; omega
  have hv : t.val * 2048 + (y 1).val < 50000 := by unfold wd at h1; omega
  have e := emb_out t y ⟨(y 0).val, h0⟩ ⟨t.val * 2048 + (y 1).val, hv⟩ rfl rfl
  have ex := xinj_out t y ⟨(y 0).val, h0⟩ ⟨(y 1).val, h1'⟩ rfl rfl
  rw [View.read_apply]
  show (dat1 V c).after 3 t (win1_3.xinj (grid1.coords t) y) = G V c (((cfg1.win 3).blk t).view.emb y)
  rw [e, ex, after1_3]
  exact out_apply V c t _ _ h1 _ rfl

/-! ### The tiles cover the array -/

/-- Column v of the array lies in tile v / 2048, below that tile's cut. -/
theorem mem_tile (i : S256x50000.Idx) (t : Fin grid1.N) (ht : t.val = (i 1).val / 2048) :
    i ∈ ((View.whole main_v13).slice (win1_3.rect t)).set := by
  have hi : (i 0).val < 256 := (i 0).isLt
  have hv : (i 1).val < 50000 := (i 1).isLt
  have hT := (tiles t).2.2.2
  rw [View.set_slice_whole, Rect.mem_set_unit]
  intro a
  match a with
  | ⟨0, _⟩ =>
    show win1_3.index t 0 * 256 ≤ (i 0).val ∧ (i 0).val < win1_3.index t 0 * 256 + win1_3.xsize (grid1.coords t) 0
    rw [hT.1, hT.2.2.1]; omega
  | ⟨1, _⟩ =>
    show win1_3.index t 1 * 2048 ≤ (i 1).val ∧ (i 1).val < win1_3.index t 1 * 2048 + win1_3.xsize (grid1.coords t) 1
    rw [hT.2.1, hT.2.2.2, ht]
    unfold wd; omega

/-- Every index of the array lies in some tile's block. -/
theorem cover (i : S256x50000.Idx) :
    ∃ t : Fin cfg1.N, (cfg1.win 3).flush t = true ∧ i ∈ ((cfg1.win 3).blk t).view.set := by
  have hv : (i 1).val < 50000 := (i 1).isLt
  have hlt : (i 1).val / 2048 < grid1.N := by rw [N_1]; omega
  exact ⟨⟨(i 1).val / 2048, hlt⟩, flush1_3 _, mem_tile i ⟨(i 1).val / 2048, hlt⟩ rfl⟩

/-! ### The array the region leaves -/

/-- The decoder region leaves the logits of its entry contents in its result array. -/
theorem logits_arr (V : (c : Dev nD) → (b : Ref sig .tc) → Buf (Elt Ideal) ((c : Thread nD τ).loc b)) (c : Dev nD) :
    (dat1 V c).arrAt 3 cfg1.N
      = Cert.Spec.logits (V c main_v11 : S256x1024.Idx → Ideal .f32) (V c main_arg7 : S50000x1024.Idx → Ideal .f32)
          (fun y => (V c main_v12 : S1x50000.Idx → Ideal .f32) (ix2 (0 : Fin 1) (y 0))) :=
  (dat1 V c).arrAt_eq_of_cover 3 (G V c) (flushed_eq V c) cover

end Cert.KernelIdeal.Val1

end
-- ==== Proof.KIResult.lean ====
/-
  What the idealized kernel program computes, at the extended reals: every weakly fair execution of @main ends with
  the stacked state at the specification's two GRU cells of the launch memory and the logits at the specification's
  decoder of the second cell, the argument arrays as launched.
  The stacked state is the GRU region's output array, whose four tiles are the cells of the tiles' rows; the
  logits are the decoder region's output array, whose column tiles (the last one cut at the array's end) are the
  decoder's columns; between the regions the decoder's input rows are layer 1 of the stacked state and its bias the
  reshaped argument; the weight arrays' bf16 copies are the arrays themselves.
-/
import proofs.«415660_j37589553774958_3_alg».proof.Proof.KILayout
import proofs.«415660_j37589553774958_3_alg».proof.Proof.KIVal0
import proofs.«415660_j37589553774958_3_alg».proof.Proof.KIVal1

set_option maxRecDepth 16384

noncomputable section

namespace Cert.KernelIdeal.Result

open Cert.KernelIdeal Cert.KernelIdeal.Gen Cert.KernelIdeal.Run Cert.KernelIdeal.Reg0 Cert.KernelIdeal.Reg1
open Idealize.ShloMosaic Idealize.ShloMosaic.TcCoe Idealize.ShloMosaic.ValueIdx Idealize.SL.Sem

variable (m : (ℓ : Loc nD τ sig) → Buf (Elt Ideal) ℓ) (ρ : Dev nD → PrngReg)

/-- The stacked state of the launch memory's arguments. -/
def hiddenOf (c : Dev nD) : FVec Ideal S2x256x1024 .f32 :=
  Cert.Spec.hidden (gathered (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6))

/-- The logits of the launch memory's arguments. -/
def logitsOf (c : Dev nD) : FVec Ideal S256x50000 .f32 :=
  Cert.Spec.logits (Cert.Spec.h1 (gathered (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))

/-- The GRU region leaves the stacked state in its output array. -/
theorem B2_main_v9 (c : Dev nD) : B2 m c main_v9 = hiddenOf m c := by
  rw [show B2 m c main_v9 = (dat0 (E1 m) c).arrAt 6 cfg0.N from B2_arr m c 6,
    Cert.KernelIdeal.Val0.hidden_arr (E1 m) c (fun t h => outsAt0_even (E1 m) c t h) (fun t h => outsAt0_odd (E1 m) c t h),
    E1_main_v6, E1_main_arg1, E1_main_v7, E1_main_v8, E1_main_arg5, E1_main_arg6]
  rfl

theorem B4_main_v9_eq (c : Dev nD) : B4 m c main_v9 = hiddenOf m c :=
  (B4_of_ne m c main_v9 (by decide)).trans <| (B3_of m c main_v9 (by decide)).trans (B2_main_v9 m c)

/-- The decoder region leaves the logits in its output array. -/
theorem B4_main_v13_eq (c : Dev nD) : B4 m c main_v13 = logitsOf m c := by
  rw [B4_main_v13, Cert.KernelIdeal.Val1.logits_arr (E3 m) c, E3_main_v11, E3_main_arg7, E3_main_v12, layer1_of, B2_main_v9,
    B2_main_arg8]
  unfold logitsOf hiddenOf
  rw [hidden_layer1, bias_of]

/-- THE VALUE RUN. -/
theorem run_value : θ_run (defs (F := Ideal)) (onTc (τ := τ) (main (F := Ideal))) ⟨m, fun _ => 0, ρ⟩ (fun r => ∀ c : Dev nD,
      r.2.mem ((c.tc : Thread nD τ).loc main_v13) = logitsOf m c
      ∧ r.2.mem ((c.tc : Thread nD τ).loc main_v9) = hiddenOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c =>
    ⟨(h c _ (mem_uc main_v13 (by decide))).trans (B4_main_v13_eq m c),
     (h c _ (mem_uc main_v9 (by decide))).trans (B4_main_v9_eq m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c),
     (h c _ (mem_uc main_arg8 (by decide))).trans (B4_main_arg8 m c)⟩)
    (Cert.KernelIdeal.Run.run m ρ)

end Cert.KernelIdeal.Result

end
-- ==== Proof.RefValue.lean ====
/-
  The reference program, stage by stage, against the specification at the extended reals.

  Each gate pre-activation of the program (a contraction of a rows × width array with the transposed
  layer slice of a weight table, plus the broadcast layer slice of a bias table) is the specification's
  affine pre-activation; each cell (three column slices of the two pre-activations, two logistic
  functions written as 1 / (1 + e^(−x)), one hyperbolic tangent, the blend with the previous state) is
  the specification's cell; the stacked state is the two cells laid one after the other; the logits
  are the contraction of the second cell with the transposed decoder table, plus the broadcast bias.
-/
import proofs.«415660_j37589553774958_3_alg».proof.Proof.Spec
import proofs.«415660_j37589553774958_3_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The embedding rows the program gathers: the reference's own stage for the gather. -/
abbrev x0 (ids : (⟨S256, .i32⟩ : BufTy).Contents (Elt Ideal)) (emb : (⟨S50000x1024, .f32⟩ : BufTy).Contents (Elt Ideal)) :
    (⟨S256x1024, .f32⟩ : BufTy).Contents (Elt Ideal) :=
  Cert.ReferenceIdeal.Read.val_main_v6 (F := Ideal) ids emb

/-! ### The four gate pre-activations -/

/-- Layer 0's input pre-activation: the transposed, reshaped layer-0 slice of the weight table at (k, q) is the table at (0, q, k). -/
theorem widx_i0 (i : Fin 256) (q : Fin 3072) (k : Fin 1024) :
    Read.idx_main_v9 (Read.idx_main_v10 (Read.idx_main_v17 (Read.ridx_main_v18 (ix2 i q) k))) = ix3 (0 : Fin 2) q k :=
  funext fun a => Fin.ext (by
    match a with
    | ⟨0, _⟩ => rfl
    | ⟨1, _⟩ => show (q.val * 1024 + k.val) / 1024 % 3072 = q.val; omega
    | ⟨2, _⟩ => show (q.val * 1024 + k.val) % 1024 = k.val; omega)

/-- Layer 0's input pre-activation: the twice-broadcast, reshaped layer-0 slice of the bias table at (i, q) is the table at (0, q). -/
theorem bidx_i0 (i : Fin 256) (q : Fin 3072) :
    Read.idx_main_v13 (Read.idx_main_v14 (Read.idx_main_v19 (Read.idx_main_v20 (ix2 i q)))) = ix2 (0 : Fin 2) q :=
  funext fun a => Fin.ext (by
    match a with
    | ⟨0, _⟩ => rfl
    | ⟨1, _⟩ => show q.val % 3072 = q.val; omega)

/-- Layer 0's input pre-activation: the contraction's left operand is read at (i, k). -/
theorem lidx_i0 (i : Fin 256) (q : Fin 3072) (k : Fin 1024) :
    Read.lidx_main_v18 (ix2 i q) k = ix2 i k :=
  funext fun a => by match a with | ⟨0, _⟩ => rfl | ⟨1, _⟩ => rfl

/-- Layer 0's input pre-activation. -/
theorem pre_i0 (ids : (⟨S256, .i32⟩ : BufTy).Contents (Elt Ideal)) (emb : (⟨S50000x1024, .f32⟩ : BufTy).Contents (Elt Ideal)) (wih : (⟨S2x3072x1024, .f32⟩ : BufTy).Contents (Elt Ideal)) (bih : (⟨S2x3072, .f32⟩ : BufTy).Contents (Elt Ideal)) (i : Fin 256) (q : Fin 3072) :
    Read.val_main_v21 (F := Ideal) ids emb wih bih (ix2 i q) = Cert.Spec.pre (x0 ids emb) wih bih 0 i q := by
  rw [Read.val_main_v21_apply, Read.val_main_v18_apply, Read.val_main_v20_apply, Read.val_main_v19_apply,
    Read.val_main_v14_apply, Read.val_main_v13_apply, bidx_i0]
  unfold Cert.Spec.pre
  refine congrArg (· + bih (ix2 (0 : Fin 2) q)) ?_
  refine Finset.sum_congr rfl fun k _ => ?_
  rw [Read.val_main_v17_apply, Read.val_main_v10_apply, Read.val_main_v9_apply, widx_i0, lidx_i0]

/-- Layer 0's state pre-activation: the transposed, reshaped layer-0 slice of the weight table at (k, q) is the table at (0, q, k). -/
theorem widx_h0 (i : Fin 256) (q : Fin 3072) (k : Fin 1024) :
    Read.idx_main_v11 (Read.idx_main_v12 (Read.idx_main_v22 (Read.ridx_main_v23 (ix2 i q) k))) = ix3 (0 : Fin 2) q k :=
  funext fun a => Fin.ext (by
    match a with
    | ⟨0, _⟩ => rfl
    | ⟨1, _⟩ => show (q.val * 1024 + k.val) / 1024 % 3072 = q.val; omega
    | ⟨2, _⟩ => show (q.val * 1024 + k.val) % 1024 = k.val; omega)

/-- Layer 0's state pre-activation: the twice-broadcast, reshaped layer-0 slice of the bias table at (i, q) is the table at (0, q). -/
theorem bidx_h0 (i : Fin 256) (q : Fin 3072) :
    Read.idx_main_v15 (Read.idx_main_v16 (Read.idx_main_v24 (Read.idx_main_v25 (ix2 i q)))) = ix2 (0 : Fin 2) q :=
  funext fun a => Fin.ext (by
    match a with
    | ⟨0, _⟩ => rfl
    | ⟨1, _⟩ => show q.val % 3072 = q.val; omega)

/-- Layer 0's state pre-activation: the contraction's left operand is read at (i, k). -/
theorem lidx_h0 (i : Fin 256) (q : Fin 3072) (k : Fin 1024) :
    Read.lidx_main_v23 (ix2 i q) k = ix2 i k :=
  funext fun a => by match a with | ⟨0, _⟩ => rfl | ⟨1, _⟩ => rfl

/-- Layer 0's state pre-activation. -/
theorem pre_h0 (h : (⟨S2x256x1024, .f32⟩ : BufTy).Contents (Elt Ideal)) (whh : (⟨S2x3072x1024, .f32⟩ : BufTy).Contents (Elt Ideal)) (bhh : (⟨S2x3072, .f32⟩ : BufTy).Contents (Elt Ideal)) (i : Fin 256) (q : Fin 3072) :
    Read.val_main_v26 (F := Ideal) h whh bhh (ix2 i q) = Cert.Spec.pre (Read.val_main_v8 (F := Ideal) h) whh bhh 0 i q := by
  rw [Read.val_main_v26_apply, Read.val_main_v23_apply, Read.val_main_v25_apply, Read.val_main_v24_apply,
    Read.val_main_v16_apply, Read.val_main_v15_apply, bidx_h0]
  unfold Cert.Spec.pre
  refine congrArg (· + bhh (ix2 (0 : Fin 2) q)) ?_
  refine Finset.sum_congr rfl fun k _ => ?_
  rw [Read.val_main_v22_apply, Read.val_main_v12_apply, Read.val_main_v11_apply, widx_h0, lidx_h0]

/-- Layer 1's input pre-activation: the transposed, reshaped layer-1 slice of the weight table at (k, q) is the table at (1, q, k). -/
theorem widx_i1 (i : Fin 256) (q : Fin 3072) (k : Fin 1024) :
    Read.idx_main_v57 (Read.idx_main_v58 (Read.idx_main_v65 (Read.ridx_main_v66 (ix2 i q) k))) = ix3 (1 : Fin 2) q k :=
  funext fun a => Fin.ext (by
    match a with
    | ⟨0, _⟩ => rfl
    | ⟨1, _⟩ => show (q.val * 1024 + k.val) / 1024 % 3072 = q.val; omega
    | ⟨2, _⟩ => show (q.val * 1024 + k.val) % 1024 = k.val; omega)

/-- Layer 1's input pre-activation: the twice-broadcast, reshaped layer-1 slice of the bias table at (i, q) is the table at (1, q). -/
theorem bidx_i1 (i : Fin 256) (q : Fin 3072) :
    Read.idx_main_v61 (Read.idx_main_v62 (Read.idx_main_v67 (Read.idx_main_v68 (ix2 i q)))) = ix2 (1 : Fin 2) q :=
  funext fun a => Fin.ext (by
    match a with
    | ⟨0, _⟩ => rfl
    | ⟨1, _⟩ => show q.val % 3072 = q.val; omega)

/-- Layer 1's input pre-activation: the contraction's left operand is read at (i, k). -/
theorem lidx_i1 (i : Fin 256) (q : Fin 3072) (k : Fin 1024) :
    Read.lidx_main_v66 (ix2 i q) k = ix2 i k :=
  funext fun a => by match a with | ⟨0, _⟩ => rfl | ⟨1, _⟩ => rfl

/-- Layer 1's input pre-activation. -/
theorem pre_i1 (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) (i : Fin 256) (q : Fin 3072) :
    Read.val_main_v69 (F := Ideal) ids h emb wih whh bih bhh (ix2 i q) = Cert.Spec.pre (Read.val_main_v54 (F := Ideal) ids h emb wih whh bih bhh) wih bih 1 i q := by
  rw [Read.val_main_v69_apply, Read.val_main_v66_apply, Read.val_main_v68_apply, Read.val_main_v67_apply,
    Read.val_main_v62_apply, Read.val_main_v61_apply, bidx_i1]
  unfold Cert.Spec.pre
  refine congrArg (· + bih (ix2 (1 : Fin 2) q)) ?_
  refine Finset.sum_congr rfl fun k _ => ?_
  rw [Read.val_main_v65_apply, Read.val_main_v58_apply, Read.val_main_v57_apply, widx_i1, lidx_i1]

/-- Layer 1's state pre-activation: the transposed, reshaped layer-1 slice of the weight table at (k, q) is the table at (1, q, k). -/
theorem widx_h1 (i : Fin 256) (q : Fin 3072) (k : Fin 1024) :
    Read.idx_main_v59 (Read.idx_main_v60 (Read.idx_main_v70 (Read.ridx_main_v71 (ix2 i q) k))) = ix3 (1 : Fin 2) q k :=
  funext fun a => Fin.ext (by
    match a with
    | ⟨0, _⟩ => rfl
    | ⟨1, _⟩ => show (q.val * 1024 + k.val) / 1024 % 3072 = q.val; omega
    | ⟨2, _⟩ => show (q.val * 1024 + k.val) % 1024 = k.val; omega)

/-- Layer 1's state pre-activation: the twice-broadcast, reshaped layer-1 slice of the bias table at (i, q) is the table at (1, q). -/
theorem bidx_h1 (i : Fin 256) (q : Fin 3072) :
    Read.idx_main_v63 (Read.idx_main_v64 (Read.idx_main_v72 (Read.idx_main_v73 (ix2 i q)))) = ix2 (1 : Fin 2) q :=
  funext fun a => Fin.ext (by
    match a with
    | ⟨0, _⟩ => rfl
    | ⟨1, _⟩ => show q.val % 3072 = q.val; omega)

/-- Layer 1's state pre-activation: the contraction's left operand is read at (i, k). -/
theorem lidx_h1 (i : Fin 256) (q : Fin 3072) (k : Fin 1024) :
    Read.lidx_main_v71 (ix2 i q) k = ix2 i k :=
  funext fun a => by match a with | ⟨0, _⟩ => rfl | ⟨1, _⟩ => rfl

/-- Layer 1's state pre-activation. -/
theorem pre_h1 (h : (⟨S2x256x1024, .f32⟩ : BufTy).Contents (Elt Ideal)) (whh : (⟨S2x3072x1024, .f32⟩ : BufTy).Contents (Elt Ideal)) (bhh : (⟨S2x3072, .f32⟩ : BufTy).Contents (Elt Ideal)) (i : Fin 256) (q : Fin 3072) :
    Read.val_main_v74 (F := Ideal) h whh bhh (ix2 i q) = Cert.Spec.pre (Read.val_main_v56 (F := Ideal) h) whh bhh 1 i q := by
  rw [Read.val_main_v74_apply, Read.val_main_v71_apply, Read.val_main_v73_apply, Read.val_main_v72_apply,
    Read.val_main_v64_apply, Read.val_main_v63_apply, bidx_h1]
  unfold Cert.Spec.pre
  refine congrArg (· + bhh (ix2 (1 : Fin 2) q)) ?_
  refine Finset.sum_congr rfl fun k _ => ?_
  rw [Read.val_main_v70_apply, Read.val_main_v60_apply, Read.val_main_v59_apply, widx_h1, lidx_h1]

/-! ### The previous state's layer slices -/

/-- The reshaped first slice of the stacked state is its layer 0. -/
theorem v8_eq (h : (⟨S2x256x1024, .f32⟩ : BufTy).Contents (Elt Ideal)) : Read.val_main_v8 (F := Ideal) h = Cert.Spec.layer h 0 := by
  funext y
  obtain ⟨i, k, rfl⟩ : ∃ (i : Fin 256) (k : Fin 1024), y = ix2 i k := ⟨y 0, y 1, eq_ix2 y⟩
  rw [Read.val_main_v8_apply, Read.val_main_v7_apply]
  unfold Cert.Spec.layer
  refine congrArg h ?_
  exact funext fun a => Fin.ext (by
    match a with
    | ⟨0, _⟩ => rfl
    | ⟨1, _⟩ => show (i.val * 1024 + k.val) / 1024 % 256 = i.val; omega
    | ⟨2, _⟩ => show (i.val * 1024 + k.val) % 1024 = k.val; omega)

/-- The reshaped second slice of the stacked state is its layer 1. -/
theorem v56_eq (h : (⟨S2x256x1024, .f32⟩ : BufTy).Contents (Elt Ideal)) : Read.val_main_v56 (F := Ideal) h = Cert.Spec.layer h 1 := by
  funext y
  obtain ⟨i, k, rfl⟩ : ∃ (i : Fin 256) (k : Fin 1024), y = ix2 i k := ⟨y 0, y 1, eq_ix2 y⟩
  rw [Read.val_main_v56_apply, Read.val_main_v55_apply]
  unfold Cert.Spec.layer
  refine congrArg h ?_
  exact funext fun a => Fin.ext (by
    match a with
    | ⟨0, _⟩ => rfl
    | ⟨1, _⟩ => show (i.val * 1024 + k.val) / 1024 % 256 = i.val; omega
    | ⟨2, _⟩ => show (i.val * 1024 + k.val) % 1024 = k.val; omega)

/-! ### The logistic function as the program spells it -/

/-- The float word of 1.0 is the number one. -/
theorem one_eq : (FloatOps.ofBits (F := Ideal) .f32 0x3F800000#32) = (1 : Ideal .f32) :=
  IdealRules.sign_bit.ideal_onePat .f32

/-- 1 / (1 + e^(−x)), with both ones the float word of 1.0, is the logistic function. -/
theorem sigmoid_eq (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  rw [one_eq]; rfl

/-! ### Column slices of the gate columns -/

/-- Gate 0's column j among the 3072. -/
theorem sl0 (i : Fin 256) (j : Fin 1024) : Read.idx_main_v27 (ix2 i j) = ix2 i (Cert.Spec.col 0 j) :=
  funext fun a => Fin.ext (by
    match a with
    | ⟨0, _⟩ => rfl
    | ⟨1, _⟩ => show j.val = 0 * 1024 + j.val; omega)
/-- Gate 1's column j among the 3072. -/
theorem sl1 (i : Fin 256) (j : Fin 1024) : Read.idx_main_v28 (ix2 i j) = ix2 i (Cert.Spec.col 1 j) :=
  funext fun a => Fin.ext (by
    match a with
    | ⟨0, _⟩ => rfl
    | ⟨1, _⟩ => show 1024 + j.val = 1 * 1024 + j.val; omega)
/-- Gate 2's column j among the 3072. -/
theorem sl2 (i : Fin 256) (j : Fin 1024) : Read.idx_main_v29 (ix2 i j) = ix2 i (Cert.Spec.col 2 j) :=
  funext fun a => Fin.ext (by
    match a with
    | ⟨0, _⟩ => rfl
    | ⟨1, _⟩ => show 2048 + j.val = 2 * 1024 + j.val; omega)

/-! ### The two cells -/

/-- Layer 0's cell, at row i and column j. -/
theorem cell_0 (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) (i : Fin 256) (j : Fin 1024) :
    Read.val_main_v54 (F := Ideal) ids h emb wih whh bih bhh (ix2 i j)
      = Cert.Spec.cell (x0 ids emb) (Cert.Spec.layer h 0) wih whh bih bhh 0 (ix2 i j) := by
  simp only [Read.val_main_v33_apply, Read.val_main_v34_apply, Read.val_main_v35_apply, Read.val_main_v37_apply, Read.val_main_v39_apply, Read.val_main_v40_apply, Read.val_main_v41_apply, Read.val_main_v42_apply, Read.val_main_v44_apply, Read.val_main_v46_apply, Read.val_main_v47_apply, Read.val_main_v48_apply, Read.val_main_v49_apply, Read.val_main_v51_apply, Read.val_main_v52_apply, Read.val_main_v53_apply, Read.val_main_v54_apply,
    Read.val_main_v36_apply, Read.val_main_v38_apply, Read.val_main_v43_apply, Read.val_main_v45_apply, Read.val_main_v50_apply,
    Read.val_main_cst_apply, Read.val_main_cst_1_apply, Read.val_main_cst_2_apply, Read.val_main_cst_3_apply, Read.val_main_cst_4_apply,
    Read.val_main_v27_apply, Read.val_main_v28_apply, Read.val_main_v29_apply, Read.val_main_v30_apply, Read.val_main_v31_apply, Read.val_main_v32_apply]
  -- the six column slices: gate g's column j is column g · 1024 + j of the 3072
  have e0 : Read.idx_main_v27 (ix2 i j) = ix2 i (Cert.Spec.col 0 j) := sl0 i j
  have e1 : Read.idx_main_v28 (ix2 i j) = ix2 i (Cert.Spec.col 1 j) := sl1 i j
  have e2 : Read.idx_main_v29 (ix2 i j) = ix2 i (Cert.Spec.col 2 j) := sl2 i j
  have e3 : Read.idx_main_v30 (ix2 i j) = ix2 i (Cert.Spec.col 0 j) := sl0 i j
  have e4 : Read.idx_main_v31 (ix2 i j) = ix2 i (Cert.Spec.col 1 j) := sl1 i j
  have e5 : Read.idx_main_v32 (ix2 i j) = ix2 i (Cert.Spec.col 2 j) := sl2 i j
  rw [e0, e1, e2, e3, e4, e5]
  simp only [pre_i0, pre_h0, sigmoid_eq, v8_eq]
  rfl

/-! ### The two cells as whole arrays -/

/-- Layer 0's new state. -/
theorem v54_eq (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) :
    Read.val_main_v54 (F := Ideal) ids h emb wih whh bih bhh = Cert.Spec.h0 (x0 ids emb) h wih whh bih bhh := by
  funext y
  obtain ⟨i, j, rfl⟩ : ∃ (i : Fin 256) (j : Fin 1024), y = ix2 i j := ⟨y 0, y 1, eq_ix2 y⟩
  exact cell_0 ids h emb wih whh bih bhh i j

/-- Layer 1's cell, at row i and column j. -/
theorem cell_1 (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) (i : Fin 256) (j : Fin 1024) :
    Read.val_main_v102 (F := Ideal) ids h emb wih whh bih bhh (ix2 i j)
      = Cert.Spec.cell (Cert.Spec.h0 (x0 ids emb) h wih whh bih bhh) (Cert.Spec.layer h 1) wih whh bih bhh 1 (ix2 i j) := by
  simp only [Read.val_main_v81_apply, Read.val_main_v82_apply, Read.val_main_v83_apply, Read.val_main_v85_apply, Read.val_main_v87_apply, Read.val_main_v88_apply, Read.val_main_v89_apply, Read.val_main_v90_apply, Read.val_main_v92_apply, Read.val_main_v94_apply, Read.val_main_v95_apply, Read.val_main_v96_apply, Read.val_main_v97_apply, Read.val_main_v99_apply, Read.val_main_v100_apply, Read.val_main_v101_apply, Read.val_main_v102_apply,
    Read.val_main_v84_apply, Read.val_main_v86_apply, Read.val_main_v91_apply, Read.val_main_v93_apply, Read.val_main_v98_apply,
    Read.val_main_cst_5_apply, Read.val_main_cst_6_apply, Read.val_main_cst_7_apply, Read.val_main_cst_8_apply, Read.val_main_cst_9_apply,
    Read.val_main_v75_apply, Read.val_main_v76_apply, Read.val_main_v77_apply, Read.val_main_v78_apply, Read.val_main_v79_apply, Read.val_main_v80_apply]
  -- the six column slices: gate g's column j is column g · 1024 + j of the 3072
  have e0 : Read.idx_main_v75 (ix2 i j) = ix2 i (Cert.Spec.col 0 j) := sl0 i j
  have e1 : Read.idx_main_v76 (ix2 i j) = ix2 i (Cert.Spec.col 1 j) := sl1 i j
  have e2 : Read.idx_main_v77 (ix2 i j) = ix2 i (Cert.Spec.col 2 j) := sl2 i j
  have e3 : Read.idx_main_v78 (ix2 i j) = ix2 i (Cert.Spec.col 0 j) := sl0 i j
  have e4 : Read.idx_main_v79 (ix2 i j) = ix2 i (Cert.Spec.col 1 j) := sl1 i j
  have e5 : Read.idx_main_v80 (ix2 i j) = ix2 i (Cert.Spec.col 2 j) := sl2 i j
  rw [e0, e1, e2, e3, e4, e5]
  simp only [pre_i1, pre_h1, sigmoid_eq, v56_eq, v54_eq]
  rfl

/-- Layer 1's new state. -/
theorem v102_eq (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) :
    Read.val_main_v102 (F := Ideal) ids h emb wih whh bih bhh = Cert.Spec.h1 (x0 ids emb) h wih whh bih bhh := by
  funext y
  obtain ⟨i, j, rfl⟩ : ∃ (i : Fin 256) (j : Fin 1024), y = ix2 i j := ⟨y 0, y 1, eq_ix2 y⟩
  exact cell_1 ids h emb wih whh bih bhh i j

/-! ### The stacked state -/

/-- A cell broadcast to one layer, read at (0, i, j), is the cell at (i, j). -/
theorem bidx103 (i : Fin 256) (j : Fin 1024) : Read.idx_main_v103 (ix3 (0 : Fin 1) i j) = ix2 i j :=
  funext fun a => by match a with | ⟨0, _⟩ => rfl | ⟨1, _⟩ => rfl

/-- The stacked state: the two cells laid one after the other along the layer axis. -/
theorem hidden_eq (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) :
    Read.val_main_v105 (F := Ideal) ids h emb wih whh bih bhh = Cert.Spec.hidden (x0 ids emb) h wih whh bih bhh := by
  funext y
  obtain ⟨l, i, j, rfl⟩ : ∃ (l : Fin 2) (i : Fin 256) (j : Fin 1024), y = ix3 l i j := ⟨y 0, y 1, y 2, eq_ix3 y⟩
  unfold Read.val_main_v105
  match l with
  | ⟨0, _⟩ =>
    refine (concatenate_pair_apply_left (0 : Fin S2x256x1024.rank) _ _
      concatenates_S1x256x1024_S1x256x1024_S2x256x1024_d0 _ rfl (ix3 (0 : Fin 1) i j)
      (fun b => by match b with | ⟨0, _⟩ => rfl | ⟨1, _⟩ => rfl | ⟨2, _⟩ => rfl)).trans ?_
    rw [Read.val_main_v103_apply, v54_eq, bidx103]
    rfl
  | ⟨1, _⟩ =>
    refine (concatenate_pair_apply_right (0 : Fin S2x256x1024.rank) _ _
      concatenates_S1x256x1024_S1x256x1024_S2x256x1024_d0 _ rfl rfl (ix3 (0 : Fin 1) i j)
      (fun b hb => by match b with | ⟨0, _⟩ => exact absurd rfl hb | ⟨1, _⟩ => rfl | ⟨2, _⟩ => rfl) rfl).trans ?_
    rw [Read.val_main_v104_apply, v102_eq]
    have e : Read.idx_main_v104 (ix3 (0 : Fin 1) i j) = ix2 i j := bidx103 i j
    rw [e]
    rfl

/-! ### The decoder -/

/-- The decoder's contraction reads the second cell at (i, k). -/
theorem lidx107 (i : Fin 256) (v : Fin 50000) (k : Fin 1024) : Read.lidx_main_v107 (ix2 i v) k = ix2 i k :=
  funext fun a => by match a with | ⟨0, _⟩ => rfl | ⟨1, _⟩ => rfl

/-- The transposed decoder table at (k, v) is the table at (v, k). -/
theorem ridx107 (i : Fin 256) (v : Fin 50000) (k : Fin 1024) :
    Read.idx_main_v106 (Read.ridx_main_v107 (ix2 i v) k) = ix2 v k :=
  funext fun a => by match a with | ⟨0, _⟩ => rfl | ⟨1, _⟩ => rfl

/-- The twice-broadcast decoder bias at (i, v) is the bias at v. -/
theorem bidx109 (i : Fin 256) (v : Fin 50000) : Read.idx_main_v108 (Read.idx_main_v109 (ix2 i v)) = ix1 v :=
  funext fun a => by match a with | ⟨0, _⟩ => rfl

/-- The logits: the second cell against the decoder table's rows, plus the bias. -/
theorem logits_eq (ids : (⟨S256, .i32⟩ : BufTy).Contents (Elt Ideal)) (h : (⟨S2x256x1024, .f32⟩ : BufTy).Contents (Elt Ideal)) (emb : (⟨S50000x1024, .f32⟩ : BufTy).Contents (Elt Ideal)) (wih : (⟨S2x3072x1024, .f32⟩ : BufTy).Contents (Elt Ideal)) (whh : (⟨S2x3072x1024, .f32⟩ : BufTy).Contents (Elt Ideal)) (bih : (⟨S2x3072, .f32⟩ : BufTy).Contents (Elt Ideal)) (bhh : (⟨S2x3072, .f32⟩ : BufTy).Contents (Elt Ideal)) (decw : (⟨S50000x1024, .f32⟩ : BufTy).Contents (Elt Ideal)) (decb : (⟨S50000, .f32⟩ : BufTy).Contents (Elt Ideal)) :
    Read.val_main_v110 (F := Ideal) ids h emb wih whh bih bhh decw decb
      = Cert.Spec.logits (Cert.Spec.h1 (x0 ids emb) h wih whh bih bhh) decw decb := by
  funext y
  obtain ⟨i, v, rfl⟩ : ∃ (i : Fin 256) (v : Fin 50000), y = ix2 i v := ⟨y 0, y 1, eq_ix2 y⟩
  rw [Read.val_main_v110_apply, Read.val_main_v107_apply, Read.val_main_v109_apply, Read.val_main_v108_apply, bidx109]
  unfold Cert.Spec.logits
  refine congrArg (· + decb (ix1 v)) ?_
  refine Finset.sum_congr rfl fun k _ => ?_
  rw [Read.val_main_v106_apply, v102_eq, ridx107, lidx107]

/-! ### The run's own result terms -/

/-- The run's stacked-state result is the specification's, of the launch contents. -/
theorem res_hidden_eq (m : (ℓ : Loc nD τ sig) → Buf (Elt Ideal) ℓ) (c : Dev nD) :
    Cert.ReferenceIdeal.Value.res_main_v105 m c
      = Cert.Spec.hidden (x0 (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [Read.val_main_v105_eq, hidden_eq]

/-- The run's logits result is the specification's, of the launch contents. -/
theorem res_logits_eq (m : (ℓ : Loc nD τ sig) → Buf (Elt Ideal) ℓ) (c : Dev nD) :
    Cert.ReferenceIdeal.Value.res_main_v110 m c
      = Cert.Spec.logits (Cert.Spec.h1 (x0 (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  rw [Read.val_main_v110_eq, logits_eq]

end Cert.ReferenceIdeal.RefValue

end
-- ==== Proof.Bridge.lean ====
/-
  The two programs gather the same embedding rows: the same host operations on the same arguments
  (wrap a negative row index by the table's height, then take the rows), printed once per program.
-/
import proofs.«415660_j37589553774958_3_alg».proof.Proof.KIRunVals
import proofs.«415660_j37589553774958_3_alg».proof.Proof.RefValue

set_option maxRecDepth 16384

noncomputable section

namespace Cert.Proof.Bridge

open Idealize.ShloMosaic Idealize.ShloMosaic.TcCoe Idealize.SL.Sem

theorem gathered_eq (ids : (⟨Cert.KernelIdeal.S256, .i32⟩ : BufTy).Contents (Elt Ideal))
    (emb : (⟨Cert.KernelIdeal.S50000x1024, .f32⟩ : BufTy).Contents (Elt Ideal)) :
    Cert.ReferenceIdeal.RefValue.x0 ids emb = Cert.KernelIdeal.Run.gathered ids emb := rfl

end Cert.Proof.Bridge

end
-- ==== Proof.lean ====
/-
  The certificate's five claims.

  Both programs take an embedding row per token (a negative index wrapped by the table's height), run one step of a
  two-layer GRU on the 256 rows — per layer two affine maps into three gates of 1024 columns, reset and update
  gates through the logistic function, the candidate through tanh, and the convex step (1 − z)·n + z·h — and
  decode the second layer's state by one more affine map onto 50000 columns. The kernel program does the GRU in
  one launch over (row tile, layer), carrying a layer's output to the next in a scratch buffer, and the decoder in a
  second launch over 25 column tiles, the last one cut at the array's end; the reference does the same arithmetic
  on whole arrays. At the extended reals the two are the same formulas term by term: a change of float format is
  the identity, a matrix product is a sum over the contracted axis on both sides, and the reference's expanded
  `1 / (1 + e^(−x))` is the logistic function by definition. No law that needs finiteness is used, so the
  precondition is never opened.

  `algebraic`: the idealized kernel's run ends at the specification of the launch memory (the value run) and the
  reference's run at the specification of its own (the reference's stages read index by index); the memories
  agree on the arguments, and the two programs' gathered rows are the same term.
  The frames: the idealized kernel's is its value run with the results dropped, the reference's its run with the
  results dropped, the word-level kernel's is proved of the program as printed, with nothing said of the results.
-/
import proofs.«415660_j37589553774958_3_alg».proof.Defs
import proofs.«415660_j37589553774958_3_alg».proof.Proof.Gen.Kernel
import proofs.«415660_j37589553774958_3_alg».proof.Proof.Gen.KernelIdeal
import proofs.«415660_j37589553774958_3_alg».proof.Proof.Gen.ReferenceIdeal
import proofs.«415660_j37589553774958_3_alg».proof.Proof.Gen.Pre_finite_inputs
import proofs.«415660_j37589553774958_3_alg».proof.Proof.Gen.ReferenceIdeal.Run
import proofs.«415660_j37589553774958_3_alg».proof.Proof.Gen.ReferenceIdeal.Read
import proofs.«415660_j37589553774958_3_alg».proof.Proof.KFrame
import proofs.«415660_j37589553774958_3_alg».proof.Proof.KIResult
import proofs.«415660_j37589553774958_3_alg».proof.Proof.RefValue
import proofs.«415660_j37589553774958_3_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.FrameR.frame m ρ

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.Result.run_value m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Result.logitsOf m c, fun c => Cert.KernelIdeal.Result.hiddenOf m c, Cert.KernelIdeal.Result.run_value m ρ, ?_⟩
  refine (θ_run (Cert.ReferenceIdeal.defs (F := Ideal)) _ _).mono (fun _ h c => ⟨(h c).1.trans ?_, (h c).2.1.trans ?_, (h c).2.2⟩)
    (Cert.ReferenceIdeal.Value.run (F := Ideal) m' ρ')
  · rw [Cert.ReferenceIdeal.RefValue.res_logits_eq, Bridge.gathered_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    rfl
  · rw [Cert.ReferenceIdeal.RefValue.res_hidden_eq, Bridge.gathered_eq, (hagree c).1, (hagree c).2.1, (hagree c).2.2.1, (hagree c).2.2.2.1,
      (hagree c).2.2.2.2.1, (hagree c).2.2.2.2.2.1, (hagree c).2.2.2.2.2.2.1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
